-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S10240x1024 : Shape := ⟨2, ![10240, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S10240x1024 : S_.BroadcastsInDim S10240x1024 (![] : Fin 0 → Fin S10240x1024.rank)
  reducesTo_S10240x1024_S_d0_1 : S10240x1024.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x1024 .f32) (main_arg1 : IVec S8192 32) (main_arg2 : FVec F S10240x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S10240x1024 .f32 := Host.absf main_arg2
  let main_cst_0 : FVec F S_ .f32 := constant S_ .f32 0x7F800000#32
  let main_v5 : FVec F S10240x1024 .f32 := broadcastInDim S10240x1024 ![] bcast_S_S10240x1024 main_cst_0
  let main_v6 : IVec S10240x1024 1 := cmpf .olt main_v4 main_v5
  let main_c_1 : IVec S_ 1 := constantI S_ 1 1#1
  let main_v7 : IVec S_ 1 := (fun x v => Host.reduce IntOp.andi x v reducesTo_S10240x1024_S_d0_1 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg1 main_v9
  let main_c_3 : IVec S_ 32 := constantI S_ 32 10240#32
  let main_v11 : IVec S8192 32 := broadcastInDim S8192 ![] bcast_S_S8192 main_c_3
  let main_v12 : IVec S8192 1 := cmpi .slt main_arg1 main_v11
  let main_v13 : IVec S8192 1 := andi main_v10 main_v12
  let main_c_4 : IVec S_ 1 := constantI S_ 1 1#1
  let main_v14 : IVec S_ 1 := (fun x v => Host.reduce IntOp.andi x v reducesTo_S8192_S_d0 h_S_) main_v13 main_c_4
  let main_v15 : IVec S_ 1 := andi main_v8 main_v14
  main_v15
-- ==== Kernel.lean ====
abbrev S8192x1024 : Shape := ⟨2, ![8192, 1024]⟩
abbrev S8192 : Shape := ⟨1, ![8192]⟩
abbrev S10240x1024 : Shape := ⟨2, ![10240, 1024]⟩
abbrev S1024x1024 : Shape := ⟨2, ![1024, 1024]⟩
abbrev S1024 : Shape := ⟨1, ![1024]⟩
abbrev S1024x1 : Shape := ⟨2, ![1024, 1]⟩
abbrev S8192x1 : Shape := ⟨2, ![8192, 1]⟩
abbrev S2048x1024 : Shape := ⟨2, ![2048, 1024]⟩
abbrev S512x1024 : Shape := ⟨2, ![512, 1024]⟩
abbrev S2048x1 : Shape := ⟨2, ![2048, 1]⟩
abbrev S2048x512 : Shape := ⟨2, ![2048, 512]⟩
abbrev S2048 : Shape := ⟨1, ![2048]⟩
abbrev S_ : Shape := ⟨0, ![]⟩

abbrev nBuf : Space → Nat
  | .hbm => 13
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S10240x1024, .f32⟩
  | .hbm, ⟨3, _⟩ => ⟨S8192x1024, .bf16⟩
  | .hbm, ⟨4, _⟩ => ⟨S10240x1024, .bf16⟩
  | .hbm, ⟨5, _⟩ => ⟨S8192x1, .i32⟩
  | .hbm, ⟨6, _⟩ => ⟨S8192x1, .f32⟩
  | .hbm, ⟨7, _⟩ => ⟨S8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | .local _ .vmem, ⟨9, _⟩ => ⟨S2048x1024, .bf16⟩
  | .local _ .vmem, ⟨10, _⟩ => ⟨S512x1024, .bf16⟩
  | .local _ .vmem, ⟨11, _⟩ => ⟨S512x1024, .bf16⟩
  | .local _ .vmem, ⟨12, _⟩ => ⟨S2048x1, .i32⟩
  | .local _ .vmem, ⟨13, _⟩ => ⟨S2048x1, .i32⟩
  | .local _ .vmem, ⟨14, _⟩ => ⟨S2048x1, .f32⟩
  | .local _ .vmem, ⟨15, _⟩ => ⟨S2048x1, .f32⟩
  | .local _ .vmem, ⟨16, _⟩ => ⟨S2048x1, .f32⟩
  | .local _ .vmem, ⟨17, _⟩ => ⟨S2048x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_scratch0 : Ref sig .tc := ⟨.vmem, 16, rfl⟩
abbrev cc2_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![4, 20], ![false, false]⟩

def k2_cond2 (i : grid2.Coords) : BitVec 1 :=
  let arg1 : BitVec 32 := BitVec.ofNat 32 (i 1).val
  let c19_i32 : BitVec 32 := 19#32
  let v39 : BitVec 1 := Scalar.cmpi .eq arg1 c19_i32
  let v40 : BitVec 32 := Scalar.extui v39
  let c0_i32_20 : BitVec 32 := 0#32
  let v41 : BitVec 1 := Scalar.cmpi .ne v40 c0_i32_20
  v41

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2048x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S8192_S8192x1 : S8192.ShapeCasts S8192x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  iota_S2048x512_d1_w32 : S2048x512.Iotas .tc 32 [1]
  broadcasts_S2048x1_S2048x512 : S2048x1.Broadcasts S2048x512
  reduces_S2048x512_S2048 : S2048x512.Reduces [1] S2048
  shapeCasts_S2048_S2048x1 : S2048.ShapeCasts S2048x1
  shapeCasts_S8192x1_S8192 : S8192x1.ShapeCasts S8192
  reducesTo_S8192_S_d0 : S8192.ReducesTo [0] S_
  h_S_ : 0 < S_.numel
  dot_S2048x1024_S512x1024_S2048x512_1_1_0_0_n_n_wf : DotDims.WF S2048x1024 S512x1024 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S10240x1024.size a
  hwx1_0 : ∀ i : grid1.Coords, EltTy.bits .f32 = 32 ∨ (Rect.block (s := S10240x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S10240x1024.size a
  hwx1_1 : ∀ i : grid1.Coords, EltTy.bits .bf16 = 32 ∨ (Rect.block (s := S10240x1024) S1024x1024.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x1024.size a
  hwx2_0 : ∀ i : grid2.Coords, EltTy.bits .bf16 = 32 ∨ (Rect.block (s := S8192x1024) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S10240x1024.size a
  hwx2_1 : ∀ i : grid2.Coords, EltTy.bits .bf16 = 32 ∨ (Rect.block (s := S10240x1024) S512x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S8192x1.size a
  hwx2_2 : ∀ i : grid2.Coords, EltTy.bits .i32 = 32 ∨ (Rect.block (s := S8192x1) S2048x1.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1.size a ≤ S8192x1.size a
  hwx2_3 : ∀ i : grid2.Coords, EltTy.bits .f32 = 32 ∨ (Rect.block (s := S8192x1) S2048x1.size (cc2_transform_3 i) (hinb2_3 i)).WholeWords (EltTy.packing .f32)

variable [Facts₀]

def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg2) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v0) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S2048x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192 : Shape := ⟨1, ![8192]⟩
abbrev S10240x1024 : Shape := ⟨2, ![10240, 1024]⟩
abbrev S_ : Shape := ⟨0, ![]⟩
abbrev S8192x1 : Shape := ⟨2, ![8192, 1]⟩
abbrev S10240 : Shape := ⟨1, ![10240]⟩
abbrev S10240x1 : Shape := ⟨2, ![10240, 1]⟩
abbrev S1024x10240 : Shape := ⟨2, ![1024, 10240]⟩
abbrev S8192x10240 : Shape := ⟨2, ![8192, 10240]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 90
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S10240x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S8192x1024, .f32⟩
  | .hbm, ⟨13, _⟩ => ⟨S10240x1024, .f32⟩
  | .hbm, ⟨14, _⟩ => ⟨S_, .f32⟩
  | .hbm, ⟨15, _⟩ => ⟨S10240, .f32⟩
  | .hbm, ⟨16, _⟩ => ⟨S10240x1, .f32⟩
  | .hbm, ⟨17, _⟩ => ⟨S10240x1, .f32⟩
  | .hbm, ⟨18, _⟩ => ⟨S_, .f32⟩
  | .hbm, ⟨19, _⟩ => ⟨S10240x1, .f32⟩
  | .hbm, ⟨20, _⟩ => ⟨S10240x1, .f32⟩
  | .hbm, ⟨21, _⟩ => ⟨S10240x1024, .f32⟩
  | .hbm, ⟨22, _⟩ => ⟨S10240x1024, .f32⟩
  | .hbm, ⟨23, _⟩ => ⟨S1024x10240, .f32⟩
  | .hbm, ⟨24, _⟩ => ⟨S8192x10240, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8192x10240, .f32⟩
  | .hbm, ⟨29, _⟩ => ⟨S8192x10240, .f32⟩
  | .hbm, ⟨30, _⟩ => ⟨S_, .f32⟩
  | .hbm, ⟨31, _⟩ => ⟨S8192x10240, .f32⟩
  | .hbm, ⟨32, _⟩ => ⟨S8192x10240, .f32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S_, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S8192x1, .i32⟩
  | .hbm, ⟨43, _⟩ => ⟨S_, .i32⟩
  | .hbm, ⟨44, _⟩ => ⟨S8192x1, .i32⟩
  | .hbm, ⟨45, _⟩ => ⟨S8192x1, .i1⟩
  | .hbm, ⟨46, _⟩ => ⟨S_, .i32⟩
  | .hbm, ⟨47, _⟩ => ⟨S8192x1, .i32⟩
  | .hbm, ⟨48, _⟩ => ⟨S8192x1, .i32⟩
  | .hbm, ⟨49, _⟩ => ⟨S8192x1, .i32⟩
  | .hbm, ⟨50, _⟩ => ⟨S8192x1x1, .i32⟩
  | .hbm, ⟨51, _⟩ => ⟨S1, .i32⟩
  | .hbm, ⟨52, _⟩ => ⟨S_, .i32⟩
  | .hbm, ⟨53, _⟩ => ⟨S8192x1x1, .i32⟩
  | .hbm, ⟨54, _⟩ => ⟨S8192x1x1, .i1⟩
  | .hbm, ⟨55, _⟩ => ⟨S1x1x1, .i32⟩
  | .hbm, ⟨56, _⟩ => ⟨S8192x1x1, .i32⟩
  | .hbm, ⟨57, _⟩ => ⟨S8192x1x1, .i1⟩
  | .hbm, ⟨58, _⟩ => ⟨S8192x1x1, .i1⟩
  | .hbm, ⟨59, _⟩ => ⟨S_, .i1⟩
  | .hbm, ⟨60, _⟩ => ⟨S8192x1, .i1⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192, .f32⟩
  | .hbm, ⟨66, _⟩ => ⟨S8192, .f32⟩
  | .hbm, ⟨67, _⟩ => ⟨S_, .f32⟩
  | .hbm, ⟨68, _⟩ => ⟨S8192, .f32⟩
  | .hbm, ⟨69, _⟩ => ⟨S8192, .f32⟩
  | .hbm, ⟨70, _⟩ => ⟨S_, .f32⟩
  | .hbm, ⟨71, _⟩ => ⟨S8192x10240, .f32⟩
  | .hbm, ⟨72, _⟩ => ⟨S8192x10240, .f32⟩
  | .hbm, ⟨73, _⟩ => ⟨S8192x10240, .f32⟩
  | .hbm, ⟨74, _⟩ => ⟨S_, .f32⟩
  | .hbm, ⟨75, _⟩ => ⟨S8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S8192, .f32⟩
  | .hbm, ⟨80, _⟩ => ⟨S8192, .f32⟩
  | .hbm, ⟨81, _⟩ => ⟨S8192, .f32⟩
  | .hbm, ⟨82, _⟩ => ⟨S8192, .f32⟩
  | .hbm, ⟨83, _⟩ => ⟨S8192, .f32⟩
  | .hbm, ⟨84, _⟩ => ⟨S8192, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_cst_6 : Ref sig .tc := ⟨.hbm, 37, rfl⟩
abbrev main_call1_v0 : Ref sig .tc := ⟨.hbm, 38, rfl⟩
abbrev main_call1_v1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call2_c : Ref sig .tc := ⟨.hbm, 43, rfl⟩
abbrev main_call2_v0 : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_c_1 : Ref sig .tc := ⟨.hbm, 51, rfl⟩
abbrev main_call2_c_2 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_3 : Ref sig .tc := ⟨.hbm, 59, rfl⟩
abbrev main_call2_v12 : Ref sig .tc := ⟨.hbm, 60, rfl⟩
abbrev main_call2_v13 : Ref sig .tc := ⟨.hbm, 61, rfl⟩
abbrev main_call2_cst : Ref sig .tc := ⟨.hbm, 62, rfl⟩
abbrev main_call2_v14 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_cst_7 : Ref sig .tc := ⟨.hbm, 67, rfl⟩
abbrev main_v27 : Ref sig .tc := ⟨.hbm, 68, rfl⟩
abbrev main_v28 : Ref sig .tc := ⟨.hbm, 69, rfl⟩
abbrev main_cst_8 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_cst_9 : Ref sig .tc := ⟨.hbm, 74, rfl⟩
abbrev main_v32 : Ref sig .tc := ⟨.hbm, 75, rfl⟩
abbrev main_cst_10 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_cst_11 : Ref sig .tc := ⟨.hbm, 85, rfl⟩
abbrev main_v41 : Ref sig .tc := ⟨.hbm, 86, rfl⟩
abbrev main_cst_12 : Ref sig .tc := ⟨.hbm, 87, rfl⟩
abbrev main_v42 : Ref sig .tc := ⟨.hbm, 88, rfl⟩
abbrev main_v43 : Ref sig .tc := ⟨.hbm, 89, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  reducesTo_S10240x1024_S10240_d1 : S10240x1024.ReducesTo [1] S10240
  bcast_S10240_S10240x1_0 : S10240.BroadcastsInDim S10240x1 (![0] : Fin 1 → Fin S10240x1.rank)
  bcast_S_S10240x1 : S_.BroadcastsInDim S10240x1 (![] : Fin 0 → Fin S10240x1.rank)
  bcast_S10240x1_S10240x1024_0_1 : S10240x1.BroadcastsInDim S10240x1024 (![0, 1] : Fin 2 → Fin S10240x1024.rank)
  transposes_S10240x1024_S1024x10240_1_0 : S10240x1024.Transposes [1, 0] S1024x10240
  bcast_S_S8192x10240 : S_.BroadcastsInDim S8192x10240 (![] : Fin 0 → Fin S8192x10240.rank)
  bcast_S_S8192 : S_.BroadcastsInDim S8192 (![] : Fin 0 → Fin S8192.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192x10240_S8192_d1 : S8192x10240.ReducesTo [1] S8192
  reducesTo_S8192_S_d0 : S8192.ReducesTo [0] S_
  dot_S8192x1024_S1024x10240_S8192x10240_1_0_0_1_n_n_wf : DotDims.WF S8192x1024 S1024x10240 S8192x10240 [1] [0] [0] [1] [] []
  gather_S8192x10240_S8192x1x1_S8192x1_n_1_0_0_1_2_11_wf : GatherDims.WF S8192x10240 S8192x1x1 S8192x1 [] [1] [0] [1] [0] 2 ![1, 1]

variable [Facts₀]

def dot_S8192x1024_S1024x10240_S8192x10240_1_0_0_1_n_n : DotDims S8192x1024 S1024x10240 S8192x10240 where
  lhsContracting := [1]
  rhsContracting := [0]
  lhsNonContracting := [0]
  rhsNonContracting := [1]
  lhsBatch := []
  rhsBatch := []
  wf := dot_S8192x1024_S1024x10240_S8192x10240_1_0_0_1_n_n_wf
def gather_S8192x10240_S8192x1x1_S8192x1_n_1_0_0_1_2_11 : GatherDims S8192x10240 S8192x1x1 S8192x1 where
  offsetDims := []
  collapsedSliceDims := [1]
  operandBatchingDims := [0]
  startIndicesBatchingDims := [0]
  startIndexMap := [1]
  indexVectorDim := 2
  sliceSizes := ![1, 1]
  wf := gather_S8192x10240_S8192x1x1_S8192x1_n_1_0_0_1_2_11_wf

class Facts : Prop extends Facts₀ where

variable [Facts]
-- ==== Proof.KI.R01.lean ====
/-
  The two row-normalising launches, each as the pipeline library's proof data at the contents `V` its launch finds:
  a grid point's input block is 1024 whole rows of the array, the body stores the block's normalised rows (one store
  of the whole output buffer), and the invariant is the class's (nothing of the kernel's own is carried).
-/
import proofs.«411399_j4853313045243_3_alg».proof.Proof.Gen.KernelIdeal.Launch
import proofs.«411399_j4853313045243_3_alg».proof.Proof.Gen.KernelIdeal.Skeleton
import proofs.«411399_j4853313045243_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Regions

variable (V : (c : Dev nD) → (b : Ref sig .tc) → Buf (Elt F) ((c : Thread nD τ).loc b))

/-! ## Launch 0: the rows of the first argument -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The one rectangle the body loads and stores through: the whole 1024 x 1024 buffer. -/
abbrev r0_0 : Rect S1024x1024 := Rect.unit (s := S1024x1024) ![0, 0] S1024x1024.size inb_S1024x1024_S1024x1024_0_0

/-- The output buffer after the body: its one store, of the payload of the input block. -/
def out0_1 (x0 : Vec F S1024x1024 .f32) : Vec F S1024x1024 .bf16 :=
  View.canon [⟨r0_0, k0_pay1 (View.ld x0 r0_0)⟩]

/-- The proof data of launch 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-! ### Launch 0: the class-A half

The body reads its input block whole, reads the output buffer once (a value it never uses) and stores the payload
of the input block through the same whole-buffer rectangle. So three facts carry the obligation: the input's
staging buffer holds the block at every point; the one store covers the output buffer, which therefore reads as
`out0_1` of the block; and the invariant and what the core owes do not depend on the point. -/

/-- The rectangle's offsets `![0, 0]` are zero on each of the two axes. -/
theorem r01_off_zero : (![0, 0] : Fin S1024x1024.rank → ℕ) = fun _ => 0 := by
  funext a; fin_cases a <;> rfl

/-- Every index of the 1024 x 1024 buffer lies in the rectangle: on each axis the offset is zero and the size is
    the buffer's own extent, so what is asked of a coordinate is `0 ≤ y a < extent`, its own bound. -/
theorem mem_r0_0 (y : S1024x1024.Idx) : y ∈ (r0_0).set := by
  refine Rect.mem_set_unit.mpr fun a => ?_
  have h0 : (![0, 0] : Fin S1024x1024.rank → ℕ) a = 0 := congrFun r01_off_zero a
  rw [h0, Nat.zero_add]
  exact ⟨Nat.zero_le _, (y a).isLt⟩

/-- The body's one store, whatever its payload, covers the output buffer. -/
theorem store_covers0 (p : Vec F S1024x1024 .bf16) (y : S1024x1024.Idx) :
    ∃ pc ∈ ([⟨r0_0, p⟩] : List (View.Piece (Elt F) S1024x1024 .bf16)), y ∈ pc.1.set :=
  ⟨_, List.mem_singleton_self _, mem_r0_0 y⟩

/-- The input window is fetched at every point of the grid, and its blocks are never cut: so at every point its
    current staging buffer holds the block of the array there, whatever it held before. -/
theorem found0_0 (c : Dev nD) (t : Fin cfg0.N) (d) : (dat0 V c).before 0 t d = iblk0 V c 0 t := by
  rw [Dat.before_fetched _ 0 t (fetch0_0 t) d]
  unfold Dat.fetched Dat.blockOf iblk0
  rw [A_eq0]
  rfl

/-- The kernel function on two whole buffers, at any grid coordinate `i` (the function does not read it): from
    the input buffer at contents `x` and the output buffer at any contents, it runs to the input buffer unchanged
    and the output buffer at `out0_1 x`. The function is its skeleton — load, load, store —; the first load
    reads `x` through the rectangle, the second load's value is dropped, and after the store the output buffer
    reads as the list of its one piece because that piece covers it. -/
theorem run_kernel0 (c : Dev nD) (E : Set ℕ) (i : grid0.Coords)
    (arg1 : Memref sig .tc .vmem S1024x1024 .f32) (harg1 : arg1.IsWhole)
    (arg2 : Memref sig .tc .vmem S1024x1024 .bf16) (harg2 : arg2.IsWhole)
    (x : Vec F S1024x1024 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (out0_1 x)) -∗ K ⟨⟩))
      ⊢ wp frame (wpE (defs₀ (F := F)) Variants.none c none) E (cc0__normalize_kernel i arg1 harg1 arg2 harg2) K := by
  rw [cc0__normalize_kernel_eq_skeleton]; unfold cc0__normalize_kernel_skel
  unfold owns
  iintro ⟨⟨%f1, %hf1, H1⟩, ⟨%d2, %f2, -, H2⟩, Hk⟩
  subst hf1
  sl_exec
  sl_step
  iapply Hk
  isplitl [H1]
  · iexists f1
    isplitr
    · ipureintro; rfl
    · iexact H1
  · iexists _
    isplitr
    rotate_left
    · iexact H2
    · ipureintro
      exact View.read_writes_eq_canon _ _ _ (store_covers0 _)

/-- The invariant is the class's at every point. -/
theorem inv_const0 (c : Dev nD) (t : Fin (cfg0.N + 1)) : (dat0 V c).Φ t = Pipeline.ΦA spec0 c := by
  dsimp only [dat0]

/-- What the core owes, and the bound on what its waits have recorded, are the same at every point. -/
theorem owes_const0 (c : Dev nD) (t t' : Fin (cfg0.N + 1)) :
    (dat0 V c).owesAt () t = (dat0 V c).owesAt () t' := rfl

/-- The body at a generic point `t`, the windows one by one: the input's staging buffer holds the block
    (`found0_0`), the output's holds anything, so `run_kernel0` applies at the point's coordinate; it hands
    back the input buffer at the block and the output buffer at `out0_1` of the block, which is what the proof
    data says the body leaves; the invariant and what the core owes pass through untouched. -/
theorem body_at0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t))) := by
  simp only [found0_0, after0_0, after0_1, inv_const0]
  rw [owes_const0 V c t.succ t.castSucc]
  iintro ⟨HΦ, Ho, ⟨%d0, Hin⟩, ⟨%d1, Hout⟩⟩
  iapply (run_kernel0 c Set.univ _ _ _ _ _ (iblk0 V c 0 t) _)
  isplitl [Hin]
  · iexact Hin
  isplitl [Hout]
  · iexists _; iexact Hout
  iintro ⟨Hin, Hout⟩
  isplitl [HΦ]
  · iexact HΦ
  isplitl [Ho]
  · iexact Ho
  isplitl [Hin]
  · iexact Hin
  · iexact Hout

/-- The body obligation of launch 0 at every point. -/
theorem body_obligation0 (c : Dev nD) : BodyObligation (dat0 (F := F) V c) (defs₀ (F := F)) Variants.none () Set.univ := by
  intro t
  rw [bigSep_W0, bigSep_W0]
  exact body_at0 V c t

/-! ## Launch 1: the rows of the third argument -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1024x1024 := Rect.unit (s := S1024x1024) ![0, 0] S1024x1024.size inb_S1024x1024_S1024x1024_0_0

def out1_1 (x0 : Vec F S1024x1024 .f32) : Vec F S1024x1024 .bf16 :=
  View.canon [⟨r1_0, k1_pay1 (View.ld x0 r1_0)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-! ### Launch 1: the class-A half

The body reads its input block whole, reads the output buffer once (a value it never uses) and stores the payload
of the input block through the same whole-buffer rectangle. So three facts carry the obligation: the input's
staging buffer holds the block at every point; the one store covers the output buffer, which therefore reads as
`out1_1` of the block; and the invariant and what the core owes do not depend on the point. -/

/-- Launch 1's rectangle is launch 0's (the same offsets and sizes), so every index of the buffer lies in it. -/
theorem mem_r1_0 (y : S1024x1024.Idx) : y ∈ (r1_0).set := mem_r0_0 y

/-- The body's one store, whatever its payload, covers the output buffer. -/
theorem store_covers1 (p : Vec F S1024x1024 .bf16) (y : S1024x1024.Idx) :
    ∃ pc ∈ ([⟨r1_0, p⟩] : List (View.Piece (Elt F) S1024x1024 .bf16)), y ∈ pc.1.set :=
  ⟨_, List.mem_singleton_self _, mem_r1_0 y⟩

/-- The input window is fetched at every point of the grid, and its blocks are never cut: so at every point its
    current staging buffer holds the block of the array there, whatever it held before. -/
theorem found1_0 (c : Dev nD) (t : Fin cfg1.N) (d) : (dat1 V c).before 0 t d = iblk1 V c 0 t := by
  rw [Dat.before_fetched _ 0 t (fetch1_0 t) d]
  unfold Dat.fetched Dat.blockOf iblk1
  rw [A_eq1]
  rfl

/-- The kernel function on two whole buffers, at any grid coordinate `i` (the function does not read it): from
    the input buffer at contents `x` and the output buffer at any contents, it runs to the input buffer unchanged
    and the output buffer at `out1_1 x`. The function is its skeleton — load, load, store —; the first load
    reads `x` through the rectangle, the second load's value is dropped, and after the store the output buffer
    reads as the list of its one piece because that piece covers it. -/
theorem run_kernel1 (c : Dev nD) (E : Set ℕ) (i : grid1.Coords)
    (arg1 : Memref sig .tc .vmem S1024x1024 .f32) (harg1 : arg1.IsWhole)
    (arg2 : Memref sig .tc .vmem S1024x1024 .bf16) (harg2 : arg2.IsWhole)
    (x : Vec F S1024x1024 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (out1_1 x)) -∗ K ⟨⟩))
      ⊢ wp frame (wpE (defs₀ (F := F)) Variants.none c none) E (cc1__normalize_kernel i arg1 harg1 arg2 harg2) K := by
  rw [cc1__normalize_kernel_eq_skeleton]; unfold cc1__normalize_kernel_skel
  unfold owns
  iintro ⟨⟨%f1, %hf1, H1⟩, ⟨%d2, %f2, -, H2⟩, Hk⟩
  subst hf1
  sl_exec
  sl_step
  iapply Hk
  isplitl [H1]
  · iexists f1
    isplitr
    · ipureintro; rfl
    · iexact H1
  · iexists _
    isplitr
    rotate_left
    · iexact H2
    · ipureintro
      exact View.read_writes_eq_canon _ _ _ (store_covers1 _)

/-- The invariant is the class's at every point. -/
theorem inv_const1 (c : Dev nD) (t : Fin (cfg1.N + 1)) : (dat1 V c).Φ t = Pipeline.ΦA spec1 c := by
  dsimp only [dat1]

/-- What the core owes, and the bound on what its waits have recorded, are the same at every point. -/
theorem owes_const1 (c : Dev nD) (t t' : Fin (cfg1.N + 1)) :
    (dat1 V c).owesAt () t = (dat1 V c).owesAt () t' := rfl

/-- The body at a generic point `t`, the windows one by one: the input's staging buffer holds the block
    (`found1_0`), the output's holds anything, so `run_kernel1` applies at the point's coordinate; it hands
    back the input buffer at the block and the output buffer at `out1_1` of the block, which is what the proof
    data says the body leaves; the invariant and what the core owes pass through untouched. -/
theorem body_at1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t))) := by
  simp only [found1_0, after1_0, after1_1, inv_const1]
  rw [owes_const1 V c t.succ t.castSucc]
  iintro ⟨HΦ, Ho, ⟨%d0, Hin⟩, ⟨%d1, Hout⟩⟩
  iapply (run_kernel1 c Set.univ _ _ _ _ _ (iblk1 V c 0 t) _)
  isplitl [Hin]
  · iexact Hin
  isplitl [Hout]
  · iexists _; iexact Hout
  iintro ⟨Hin, Hout⟩
  isplitl [HΦ]
  · iexact HΦ
  isplitl [Ho]
  · iexact Ho
  isplitl [Hin]
  · iexact Hin
  · iexact Hout

/-- The body obligation of launch 1 at every point. -/
theorem body_obligation1 (c : Dev nD) : BodyObligation (dat1 (F := F) V c) (defs₀ (F := F)) Variants.none () Set.univ := by
  intro t
  rw [bigSep_W1, bigSep_W1]
  exact body_at1 V c t

end Regions

end Cert.KernelIdeal.Fr

end
-- ==== Proof.KI.R2A.lean ====
/-
  The loss launch's body on any whole memrefs, in each of the three cases its two conditionals leave on the grid
  (the column coordinate is 0, is strictly between, is 19), with what every buffer holds afterwards stated through
  the body's payloads; and what the proof data needs of the configuration: the conditionals in closed form over the
  grid, where the output window is idle, the class's invariant with the two scratch columns taken apart.
  This module: the closed forms, the idle facts, the invariant's two columns, and the middle case.
-/
import proofs.«411399_j4853313045243_3_alg».proof.Proof.Gen.KernelIdeal.Launch
import proofs.«411399_j4853313045243_3_alg».proof.Proof.Gen.KernelIdeal.Skeleton
import proofs.«411399_j4853313045243_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The first conditional of the body (restart the carried pair): the column coordinate is zero, as the kernel's word
    chain computes it. -/
abbrev cond2_0 (i : grid2.Coords) : Prop :=
  (Scalar.cmpi .ne (Scalar.extui (Scalar.cmpi .eq (BitVec.ofNat 32 (i 1).val) 0#32)) 0#32) = 1#1

/-- The second conditional (store the loss terms): the column coordinate is the last one, 19. -/
abbrev cond2_1 (i : grid2.Coords) : Prop := k2_cond2 i = 1#1

/-- The first conditional is taken exactly at a row block's first column block, -/
theorem hcond2_0 : ∀ t : Fin cfg2.N, cond2_0 (grid2.coords t) ↔ t.val % 20 = 0 :=
  (by decide +kernel : ∀ t : Fin grid2.N, cond2_0 (grid2.coords t) ↔ t.val % 20 = 0)

/-- the second exactly at its last. -/
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the windows are idle -/

/-- The three input windows are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl

/-- The output window is idle wherever the second conditional is not taken: the body stores nothing into it there, -/
theorem idleAt2_3 (t : Fin cfg2.N) (h : ¬cond2_1 (grid2.coords t)) : cfg2.idle 3 (grid2.coords t) = true := by
  show (!(k2_cond2 (grid2.coords t) == 1#1)) = true
  rw [Bool.not_eq_true', beq_eq_false_iff_ne]; exact h

/-- and its block is not written back there; -/
theorem noFlush2_3 (t : Fin cfg2.N) (h : ¬cond2_1 (grid2.coords t)) : (cfg2.win 3).flush t = false :=
  Bool.eq_false_iff.mpr fun hf => h ((hcond2_1 t).mpr ((flush2_3 t).mp hf))

/-- where it is taken the window is live. -/
theorem liveAt2_3 (t : Fin cfg2.N) (h : cond2_1 (grid2.coords t)) : cfg2.idle 3 (grid2.coords t) = false := by
  show (!(k2_cond2 (grid2.coords t) == 1#1)) = false
  rw [Bool.not_eq_false', beq_iff_eq]; exact h

/-! ## The memrefs the body is called with -/

/-- Each window's current staging memref at point `t`, and its wholeness. -/
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x1 .i32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x1 .f32 := win2_3.stage (cfg2.slots t 3)
abbrev hs2_3 (t : Fin cfg2.N) : (ms2_3 t).IsWhole := hstage2_3 ((cfg2.slots t 3).cast nbuf2_3)

/-- The two scratch columns: the running sum of exponentials and the running target. -/
abbrev scSum : Memref sig .tc .vmem S2048x1 .f32 := Memref.whole cc2_scratch0
abbrev scTgt : Memref sig .tc .vmem S2048x1 .f32 := Memref.whole cc2_scratch1

/-! ## The scoped rest, with the two scratch columns apart -/

/-- The eight scoped buffers of the core that belong to the other two launches, each at anything. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f))

/-- The class's invariant hands out the two scratch columns at anything, beside the other launches' buffers and the
    generator register; -/
theorem PhiA2_open (c : Dev nD) :
    (Pipeline.ΦA spec2 c : sProp 𝕄)
      ⊢ iprop((others2 c ∗ (∃ d, owns (c : Thread nD τ) scSum fullShare d) ∗ (∃ d, owns (c : Thread nD τ) scTgt fullShare d))
          ∗ (∃ r, prngReg c r)) := by
  unfold Pipeline.ΦA others2; rw [scopedRest2_eq]; simp only [scSum, scTgt, owns_whole]
  iintro ⟨⟨A0, A1, A2, A3, A4, A5, A6, A7, S6, S7⟩, Hg⟩
  isplitr [Hg]
  swap; · iexact Hg
  isplitr [S6 S7]
  swap
  · isplitl [S6]; · iexact S6
    iexact S7
  isplitl [A0]; · iexact A0
  isplitl [A1]; · iexact A1
  isplitl [A2]; · iexact A2
  isplitl [A3]; · iexact A3
  isplitl [A4]; · iexact A4
  isplitl [A5]; · iexact A5
  isplitl [A6]; · iexact A6
  iexact A7

/-- and takes them back. -/
theorem PhiA2_close (c : Dev nD) :
    iprop((others2 c ∗ (∃ d, owns (c : Thread nD τ) scSum fullShare d) ∗ (∃ d, owns (c : Thread nD τ) scTgt fullShare d))
          ∗ (∃ r, prngReg c r))
      ⊢ (Pipeline.ΦA spec2 c : sProp 𝕄) := by
  unfold Pipeline.ΦA others2; rw [scopedRest2_eq]; simp only [scSum, scTgt, owns_whole]
  iintro ⟨⟨⟨A0, A1, A2, A3, A4, A5, A6, A7⟩, S6, S7⟩, Hg⟩
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [S6]; · iexact S6
  iexact S7

/-! ## The body on any whole memrefs, case by case -/

/-- The zero offsets of the one rectangle every load and store of the body goes through. -/
theorem off2_zero : (![0, 0] : Fin 2 → ℕ) = fun _ => 0 := by
  funext a; fin_cases a <;> rfl

/-- A store of a whole column buffer, made last, leaves its payload there, whatever the earlier stores and the
    contents before were. -/
theorem read_store_col (v : View sig .tc .vmem S2048x1 .f32) (f : v.ty.Contents (Elt F)) (w : Vec F S2048x1 .f32)
    (L : List (View.Piece (Elt F) S2048x1 .f32)) :
    v.read (Elt F) (v.writes (Elt F) f (⟨Rect.unit ![0, 0] S2048x1.size inb_S2048x1_S2048x1_0_0, w⟩ :: L)) = w := by
  rw [View.read_writes_eq_canon _ _ _ (fun y => ⟨_, List.mem_cons_self, View.mem_set_unit_zero off2_zero inb_S2048x1_S2048x1_0_0 y⟩),
    View.canon_cons_unit_zero off2_zero]

set_option maxHeartbeats 1000000 in
/-- A middle column block: neither conditional is taken. The body reads the three input blocks and the carried pair
    and stores the pair updated; the output buffer is not touched. -/
theorem run2_mid (c : Dev nD) (i : grid2.Coords) (arg2 : Memref sig .tc .vmem S2048x1024 .bf16) (harg2 : arg2.IsWhole) (arg3 : Memref sig .tc .vmem S512x1024 .bf16) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole)
    (hc0 : ¬cond2_0 i) (hc1 : ¬cond2_1 i)
    (x0 : Vec F S2048x1024 .bf16) (x1 : Vec F S512x1024 .bf16) (x2 : Vec F S2048x1 .i32) (xi3 s6 s7 : Vec F S2048x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare s6 ∗ owns (c : Thread nD τ) arg7 fullShare s7
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k2_pay1 s6 (k2_pay7 x0 x1)) ∗ owns (c : Thread nD τ) arg7 fullShare (k2_pay6 i x0 x1 x2 s7)) -∗ K ⟨⟩))
      ⊢ wp frame (wpE (defs₀ (F := F)) Variants.none c none) E (cc2__admargin_kernel i arg2 harg2 arg3 harg3 arg4 harg4 arg5 harg5 arg6 harg6 arg7 harg7) K := by
  simp only [cc2__admargin_kernel_eq_skeleton]; unfold cc2__admargin_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  obtain rfl := harg2.eq_unread hf0; obtain rfl := harg3.eq_unread hf1; obtain rfl := harg4.eq_unread hf2
  obtain rfl := harg5.eq_unread hf3; obtain rfl := harg6.eq_unread hf6; obtain rfl := harg7.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    sl_unfold_words
    rw [read_store_col]
    simp only [View.readAt_eq_ld, harg2.read_unread, harg3.read_unread, harg4.read_unread, harg6.read_unread,
      View.ld_unit_zero (S := S2048x1) off2_zero, View.ld_unit_zero (S := S2048x1024) off2_zero,
      View.ld_unit_zero (S := S512x1024) off2_zero]
  · iexists _; isplitr
    swap; · iexact H7
    ipureintro
    sl_unfold_words
    rw [read_store_col]
    simp only [View.readAt_eq_ld, harg2.read_unread, harg3.read_unread, harg4.read_unread, harg7.read_unread,
      View.ld_unit_zero (S := S2048x1) off2_zero, View.ld_unit_zero (S := S2048x1024) off2_zero,
      View.ld_unit_zero (S := S512x1024) off2_zero]

end Cert.KernelIdeal.Fr

end
-- ==== Proof.KI.R2B.lean ====
/-
  The loss launch's body on any whole memrefs at a row block's first column block (the carried pair restarts from
  zero) and at its last (the loss terms are stored), with what every buffer holds afterwards stated through the
  body's payloads.
-/
import proofs.«411399_j4853313045243_3_alg».proof.Proof.KI.R2A

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- A row block's first column block: the first conditional is taken, the second is not. The carried pair is found at
    anything, restarted from the zero columns, read back and stored updated; the output buffer is not touched. -/
theorem run2_first (c : Dev nD) (i : grid2.Coords) (arg2 : Memref sig .tc .vmem S2048x1024 .bf16) (harg2 : arg2.IsWhole) (arg3 : Memref sig .tc .vmem S512x1024 .bf16) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole)
    (hc0 : cond2_0 i) (hc1 : ¬cond2_1 i)
    (x0 : Vec F S2048x1024 .bf16) (x1 : Vec F S512x1024 .bf16) (x2 : Vec F S2048x1 .i32) (xi3 : Vec F S2048x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k2_pay1 k2_pay3 (k2_pay7 x0 x1)) ∗ owns (c : Thread nD τ) arg7 fullShare (k2_pay6 i x0 x1 x2 k2_pay4)) -∗ K ⟨⟩))
      ⊢ wp frame (wpE (defs₀ (F := F)) Variants.none c none) E (cc2__admargin_kernel i arg2 harg2 arg3 harg3 arg4 harg4 arg5 harg5 arg6 harg6 arg7 harg7) K := by
  simp only [cc2__admargin_kernel_eq_skeleton]; unfold cc2__admargin_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    sl_unfold_words
    rw [read_store_col]
    simp only [View.readAt_eq_ld, harg2.read_unread, harg3.read_unread, harg4.read_unread, View.readCov_unit_zero (S := S2048x1) _ off2_zero,
      View.ld_unit_zero (S := S2048x1) off2_zero, View.ld_unit_zero (S := S2048x1024) off2_zero,
      View.ld_unit_zero (S := S512x1024) off2_zero]
  · iexists _; isplitr
    swap; · iexact H7
    ipureintro
    sl_unfold_words
    rw [read_store_col]
    simp only [View.readAt_eq_ld, harg2.read_unread, harg3.read_unread, harg4.read_unread, View.readCov_unit_zero (S := S2048x1) _ off2_zero,
      View.ld_unit_zero (S := S2048x1) off2_zero, View.ld_unit_zero (S := S2048x1024) off2_zero,
      View.ld_unit_zero (S := S512x1024) off2_zero]

set_option maxHeartbeats 1000000 in
/-- A row block's last column block: only the second conditional is taken. As in the middle, and then the pair just
    stored is read back with the labels' block, and the loss terms are stored into the output buffer (found at
    anything). -/
theorem run2_last (c : Dev nD) (i : grid2.Coords) (arg2 : Memref sig .tc .vmem S2048x1024 .bf16) (harg2 : arg2.IsWhole) (arg3 : Memref sig .tc .vmem S512x1024 .bf16) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole)
    (hc0 : ¬cond2_0 i) (hc1 : cond2_1 i)
    (x0 : Vec F S2048x1024 .bf16) (x1 : Vec F S512x1024 .bf16) (x2 : Vec F S2048x1 .i32) (s6 s7 : Vec F S2048x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare s6 ∗ owns (c : Thread nD τ) arg7 fullShare s7
        ∗ (iprop(owns (c : Thread nD τ) arg2 fullShare x0 ∗ owns (c : Thread nD τ) arg3 fullShare x1 ∗ owns (c : Thread nD τ) arg4 fullShare x2 ∗ owns (c : Thread nD τ) arg5 fullShare (k2_pay2 (k2_pay6 i x0 x1 x2 s7) x2 (k2_pay1 s6 (k2_pay7 x0 x1))) ∗ owns (c : Thread nD τ) arg6 fullShare (k2_pay1 s6 (k2_pay7 x0 x1)) ∗ owns (c : Thread nD τ) arg7 fullShare (k2_pay6 i x0 x1 x2 s7)) -∗ K ⟨⟩))
      ⊢ wp frame (wpE (defs₀ (F := F)) Variants.none c none) E (cc2__admargin_kernel i arg2 harg2 arg3 harg3 arg4 harg4 arg5 harg5 arg6 harg6 arg7 harg7) K := by
  simp only [cc2__admargin_kernel_eq_skeleton]; unfold cc2__admargin_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, ⟨%f6, %hf6, H6⟩, ⟨%f7, %hf7, H7⟩, Hk⟩
  obtain rfl := harg2.eq_unread hf0; obtain rfl := harg3.eq_unread hf1; obtain rfl := harg4.eq_unread hf2
  obtain rfl := harg6.eq_unread hf6; obtain rfl := harg7.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [read_store_col]
    simp only [View.readAt_eq_ld, harg2.read_unread, harg3.read_unread, harg4.read_unread, harg6.read_unread, harg7.read_unread, View.readCov_unit_zero (S := S2048x1) _ off2_zero,
      View.ld_unit_zero (S := S2048x1) off2_zero, View.ld_unit_zero (S := S2048x1024) off2_zero,
      View.ld_unit_zero (S := S512x1024) off2_zero]
  isplitl [H6]
  · iexists _; isplitr
    swap; · iexact H6
    ipureintro
    sl_unfold_words
    rw [read_store_col]
    simp only [View.readAt_eq_ld, harg2.read_unread, harg3.read_unread, harg4.read_unread, harg6.read_unread,
      View.ld_unit_zero (S := S2048x1) off2_zero, View.ld_unit_zero (S := S2048x1024) off2_zero,
      View.ld_unit_zero (S := S512x1024) off2_zero]
  · iexists _; isplitr
    swap; · iexact H7
    ipureintro
    sl_unfold_words
    rw [read_store_col]
    simp only [View.readAt_eq_ld, harg2.read_unread, harg3.read_unread, harg4.read_unread, harg7.read_unread,
      View.ld_unit_zero (S := S2048x1) off2_zero, View.ld_unit_zero (S := S2048x1024) off2_zero,
      View.ld_unit_zero (S := S512x1024) off2_zero]

end Cert.KernelIdeal.Fr

end
-- ==== Proof.KI.R2.lean ====
/-
  The loss launch as the pipeline library's proof data at the contents `V` it finds. Its grid is 4 row blocks by 20
  column blocks, the column axis innermost. Two columns of 2048 entries are carried in the kernel's own scratch from
  point to point: the running sum over the columns seen so far of exp (30 · cos), and the running sum of the cosine at
  the label's column. At a row block's first column block both restart from zero; at its last the row block's 2048
  loss terms are stored into the output window, which only that point writes back.
-/
import proofs.«411399_j4853313045243_3_alg».proof.Proof.KI.R2B
import proofs.«411399_j4853313045243_3_alg».proof.Proof.Gen.KernelIdeal.Launch
import proofs.«411399_j4853313045243_3_alg».proof.Proof.Gen.KernelIdeal.Skeleton
import proofs.«411399_j4853313045243_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region2

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- One point's update of the carried pair (the running sum of exponentials, the running target) from the point's
    three input blocks. -/
def step2 (i : grid2.Coords) (x0 : Vec F S2048x1024 .bf16) (x1 : Vec F S512x1024 .bf16) (x2 : Vec F S2048x1 .i32)
    (s6 s7 : Vec F S2048x1 .f32) : Vec F S2048x1 .f32 × Vec F S2048x1 .f32 :=
  (k2_pay1 s6 (k2_pay7 x0 x1), k2_pay6 i x0 x1 x2 s7)

/-- The carried pair after the body at position `n`: restarted from zero at a row block's first column block, else
    continued from what position `n - 1` left. -/
def accAt2 (c : Dev nD) : (n : ℕ) → n < cfg2.N → Vec F S2048x1 .f32 × Vec F S2048x1 .f32
  | 0, hn => step2 (grid2.coords ⟨0, hn⟩) (iblk2 V c 0 ⟨0, hn⟩) (iblk2 V c 1 ⟨0, hn⟩) (iblk2 V c 2 ⟨0, hn⟩) k2_pay3 k2_pay4
  | n + 1, hn =>
    if (n + 1) % 20 = 0 then
      step2 (grid2.coords ⟨n + 1, hn⟩) (iblk2 V c 0 ⟨n + 1, hn⟩) (iblk2 V c 1 ⟨n + 1, hn⟩) (iblk2 V c 2 ⟨n + 1, hn⟩) k2_pay3 k2_pay4
    else
      step2 (grid2.coords ⟨n + 1, hn⟩) (iblk2 V c 0 ⟨n + 1, hn⟩) (iblk2 V c 1 ⟨n + 1, hn⟩) (iblk2 V c 2 ⟨n + 1, hn⟩)
        (accAt2 c n (Nat.lt_of_succ_lt hn)).1 (accAt2 c n (Nat.lt_of_succ_lt hn)).2

/-- What the body stores into the output window's buffer at a point that stores it: the loss terms from the pair just
    updated and the labels' block. (At the other points the window is idle and this is not consulted.) -/
def out2_3 (c : Dev nD) (t : Fin cfg2.N) : Vec F S2048x1 .f32 :=
  k2_pay2 (accAt2 V c t.val t.isLt).2 (iblk2 V c 2 t) (accAt2 V c t.val t.isLt).1

/-- The launch's invariant before position `n`: the class's before the first point; afterwards the two scratch
    columns at what the point before left, the other scoped buffers at anything, the generator register at some state. -/
def PhiS2 (c : Dev nD) : (n : ℕ) → n ≤ cfg2.N → sProp 𝕄
  | 0, _ => Pipeline.ΦA spec2 c
  | n + 1, hn =>
    iprop((others2 c ∗ owns (c : Thread nD τ) scSum fullShare (accAt2 V c n hn).1
        ∗ owns (c : Thread nD τ) scTgt fullShare (accAt2 V c n hn).2) ∗ (∃ r, prngReg c r))

/-- The proof data of the loss launch on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 V c t := by dsimp only [dat2]

/-! ## The carried pair, point by point -/

/-- At a row block's first column block the pair restarts from the zero columns. -/
theorem accAt2_first (c : Dev nD) (t : Fin cfg2.N) (h0 : t.val % 20 = 0) :
    accAt2 V c t.val t.isLt
      = step2 (grid2.coords t) (iblk2 V c 0 t) (iblk2 V c 1 t) (iblk2 V c 2 t) k2_pay3 k2_pay4 := by
  obtain ⟨n, hn⟩ := t
  cases n with
  | zero => rfl
  | succ n => exact (if_pos h0).trans rfl

/-- At any other it continues from what the point before left. -/
theorem accAt2_next (c : Dev nD) (t : Fin cfg2.N) (h0 : ¬t.val % 20 = 0) :
    accAt2 V c t.val t.isLt
      = step2 (grid2.coords t) (iblk2 V c 0 t) (iblk2 V c 1 t) (iblk2 V c 2 t)
          (accAt2 V c (t.val - 1) (Nat.lt_of_le_of_lt (Nat.sub_le _ _) t.isLt)).1
          (accAt2 V c (t.val - 1) (Nat.lt_of_le_of_lt (Nat.sub_le _ _) t.isLt)).2 := by
  obtain ⟨n, hn⟩ := t
  cases n with
  | zero => exact absurd (Nat.zero_mod _) h0
  | succ n => exact (if_neg h0).trans rfl

/-! ## The invariant, position by position -/

theorem PhiS2_succ (c : Dev nD) (n : ℕ) (hn : n < cfg2.N) :
    PhiS2 V c (n + 1) hn
      = iprop((others2 c ∗ owns (c : Thread nD τ) scSum fullShare (accAt2 V c n hn).1
          ∗ owns (c : Thread nD τ) scTgt fullShare (accAt2 V c n hn).2) ∗ (∃ r, prngReg c r)) := rfl

/-- Before a point that is not the first the scratch columns hold what the point before left. -/
theorem PhiS2_pos (c : Dev nD) (n : ℕ) (h : n ≤ cfg2.N) (hz : n ≠ 0) :
    PhiS2 V c n h
      = iprop((others2 c ∗ owns (c : Thread nD τ) scSum fullShare (accAt2 V c (n - 1) (by omega)).1
          ∗ owns (c : Thread nD τ) scTgt fullShare (accAt2 V c (n - 1) (by omega)).2) ∗ (∃ r, prngReg c r)) := by
  cases n with
  | zero => exact absurd rfl hz
  | succ n => rfl

/-- At every position the invariant gives the scratch columns at SOME contents (the class's form, the columns apart):
    enough for a point that restarts them, and for the launch's end. -/
theorem PhiS2_any (c : Dev nD) (n : ℕ) (h : n ≤ cfg2.N) :
    PhiS2 V c n h
      ⊢ iprop((others2 c ∗ (∃ d, owns (c : Thread nD τ) scSum fullShare d) ∗ (∃ d, owns (c : Thread nD τ) scTgt fullShare d))
          ∗ (∃ r, prngReg c r)) := by
  cases n with
  | zero => exact PhiA2_open c
  | succ n =>
    rw [PhiS2_succ]
    iintro ⟨⟨Ho, HS, HT⟩, Hg⟩
    isplitr [Hg]
    swap; · iexact Hg
    isplitl [Ho]; · iexact Ho
    isplitl [HS]; · iexists _; iexact HS
    iexists _; iexact HT

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## What the body finds in the input windows' buffers -/

/-- Each input window's current buffer holds the window's block at every point, fetched there or not (windows 0 and 2
    are fetched only at a row block's first column block and keep their block along it). -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## The body obligation at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The input buffers hold their blocks; the point's column coordinate says which of the three
    cases it is in. At a first column block the invariant hands the scratch columns at anything and takes them back
    restarted and updated; elsewhere it hands them at what the point before left and takes them back updated. The
    output window's buffer comes back untouched except at a last column block, where it is found at anything and
    left at the loss terms. The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [PhiS2_castSucc V c t]
  have hN : t.val < 80 := lt_of_lt_of_eq t.isLt (show cfg2.N = 80 from N_2)
  by_cases h0 : t.val % 20 = 0
  · have h1 : ¬t.val % 20 = 19 := by omega
    have hc1 : ¬cond2_1 (grid2.coords t) := fun h => h1 ((hcond2_1 t).mp h)
    rw [Dat.leavesExact_idle (dat2 V c) 3 t (idleAt2_3 t hc1) (noFlush2_3 t hc1)]
    rw [accAt2_first V c t h0]; unfold step2; dsimp only
    iintro ⟨HP, Hw, ⟨%d0, H0⟩, ⟨%d1, H1⟩, ⟨%d2, H2⟩, ⟨%d3, H3⟩⟩
    ihave HQ := (PhiS2_any V c t.val (Nat.le_of_lt t.isLt)) $$ HP
    icases HQ with ⟨⟨Ho, HS, HT⟩, Hg⟩
    iapply (run2_first c (grid2.coords t) (ms2_0 t) (hs2_0 t) (ms2_1 t) (hs2_1 t) (ms2_2 t) (hs2_2 t) (ms2_3 t) (hs2_3 t)
      scSum (Memref.isWhole_whole _) scTgt (Memref.isWhole_whole _) ((hcond2_0 t).mpr h0) hc1
      (iblk2 V c 0 t) (iblk2 V c 1 t) (iblk2 V c 2 t) ((dat2 V c).before 3 t d3) Set.univ _)
    isplitl [H0]; · iexact H0
    isplitl [H1]; · iexact H1
    isplitl [H2]; · iexact H2
    isplitl [H3]; · iexact H3
    isplitl [HS]; · iexact HS
    isplitl [HT]; · iexact HT
    iintro ⟨H0, H1, H2, H3, HS, HT⟩
    isplitl [Ho HS HT Hg]
    · isplitr [Hg]
      swap; · iexact Hg
      isplitl [Ho]; · iexact Ho
      isplitl [HS]; · iexact HS
      iexact HT
    isplitl [Hw]; · iexact Hw
    isplitl [H0]; · iexact H0
    isplitl [H1]; · iexact H1
    isplitl [H2]; · iexact H2
    iexists _; iexact H3
  · have hz : t.val ≠ 0 := fun e => h0 (by rw [e])
    rw [PhiS2_pos V c _ _ hz]
    by_cases h1 : t.val % 20 = 19
    · have hc1 : cond2_1 (grid2.coords t) := (hcond2_1 t).mpr h1
      rw [show (dat2 V c).leavesExact 3 t = owns (c : Thread nD τ) (ms2_3 t) fullShare ((dat2 V c).after 3 t) from by
        unfold Dat.leavesExact; rw [liveAt2_3 t hc1], after2_3]
      unfold out2_3
      rw [accAt2_next V c t h0]; unfold step2; dsimp only
      iintro ⟨⟨⟨Ho, HS, HT⟩, Hg⟩, Hw, ⟨%d0, H0⟩, ⟨%d1, H1⟩, ⟨%d2, H2⟩, ⟨%d3, H3⟩⟩
      iapply (run2_last c (grid2.coords t) (ms2_0 t) (hs2_0 t) (ms2_1 t) (hs2_1 t) (ms2_2 t) (hs2_2 t) (ms2_3 t) (hs2_3 t)
        scSum (Memref.isWhole_whole _) scTgt (Memref.isWhole_whole _) (fun h => h0 ((hcond2_0 t).mp h)) hc1
        (iblk2 V c 0 t) (iblk2 V c 1 t) (iblk2 V c 2 t)
        (accAt2 V c (t.val - 1) (Nat.lt_of_le_of_lt (Nat.sub_le _ _) t.isLt)).1
        (accAt2 V c (t.val - 1) (Nat.lt_of_le_of_lt (Nat.sub_le _ _) t.isLt)).2 Set.univ _)
      isplitl [H0]; · iexact H0
      isplitl [H1]; · iexact H1
      isplitl [H2]; · iexact H2
      isplitl [H3]; · iexists _; iexact H3
      isplitl [HS]; · iexact HS
      isplitl [HT]; · iexact HT
      iintro ⟨H0, H1, H2, H3, HS, HT⟩
      isplitl [Ho HS HT Hg]
      · isplitr [Hg]
        swap; · iexact Hg
        isplitl [Ho]; · iexact Ho
        isplitl [HS]; · iexact HS
        iexact HT
      isplitl [Hw]; · iexact Hw
      isplitl [H0]; · iexact H0
      isplitl [H1]; · iexact H1
      isplitl [H2]; · iexact H2
      iexact H3
    · have hc1 : ¬cond2_1 (grid2.coords t) := fun h => h1 ((hcond2_1 t).mp h)
      rw [Dat.leavesExact_idle (dat2 V c) 3 t (idleAt2_3 t hc1) (noFlush2_3 t hc1)]
      rw [accAt2_next V c t h0]; unfold step2; dsimp only
      iintro ⟨⟨⟨Ho, HS, HT⟩, Hg⟩, Hw, ⟨%d0, H0⟩, ⟨%d1, H1⟩, ⟨%d2, H2⟩, ⟨%d3, H3⟩⟩
      iapply (run2_mid c (grid2.coords t) (ms2_0 t) (hs2_0 t) (ms2_1 t) (hs2_1 t) (ms2_2 t) (hs2_2 t) (ms2_3 t) (hs2_3 t)
        scSum (Memref.isWhole_whole _) scTgt (Memref.isWhole_whole _) (fun h => h0 ((hcond2_0 t).mp h)) hc1
        (iblk2 V c 0 t) (iblk2 V c 1 t) (iblk2 V c 2 t) ((dat2 V c).before 3 t d3)
        (accAt2 V c (t.val - 1) (Nat.lt_of_le_of_lt (Nat.sub_le _ _) t.isLt)).1
        (accAt2 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [HS]; · iexact HS
      isplitl [HT]; · iexact HT
      iintro ⟨H0, H1, H2, H3, HS, HT⟩
      isplitl [Ho HS HT Hg]
      · isplitr [Hg]
        swap; · iexact Hg
        isplitl [Ho]; · iexact Ho
        isplitl [HS]; · iexact HS
        iexact HT
      isplitl [Hw]; · iexact Hw
      isplitl [H0]; · iexact H0
      isplitl [H1]; · iexact H1
      isplitl [H2]; · iexact H2
      iexists _; iexact H3

/-- The body obligation of the loss launch at every point. -/
theorem body_obligation2 (c : Dev nD) : BodyObligation (dat2 (F := F) V c) (defs₀ (F := F)) Variants.none () Set.univ := by
  intro t
  rw [bigSep_W2, bigSep_W2]
  exact sound_body2 V c t

/-- What the launch hands the kernel is the invariant before the first point. -/
theorem hin2 (c : Dev nD) : Pipeline.ΦA spec2 c ⊢ (dat2 V c).Φ 0 := by
  exact Idealize.SL.BI.Entails.refl _

/-- After the last point the invariant gives the class's back: the scratch columns' contents are forgotten. -/
theorem hout2 (c : Dev nD) : (dat2 V c).Φ (Fin.last cfg2.N) ⊢ Pipeline.ΦA spec2 c := by
  show PhiS2 V c (Fin.last cfg2.N).val (Nat.le_of_lt_succ (Fin.last cfg2.N).isLt) ⊢ _
  exact (PhiS2_any V c _ _).trans (PhiA2_close c)

end Region2

end Cert.KernelIdeal.Fr

end
-- ==== Proof.KI.Run.lean ====
/-
  The whole run of @main: three launches with one host reshape between the second and the third and the host's mean
  after the third. The contents of every unscoped buffer at each boundary between two items are named (`W0` … `W5`):
  a launch changes its output array to what its write-backs leave and nothing else, a host stretch applies its
  operations. Every weakly fair execution terminates, and the final memory holds every unscoped buffer at `W5`.
-/
import proofs.«411399_j4853313045243_3_alg».proof.Proof.KI.R01
import proofs.«411399_j4853313045243_3_alg».proof.Proof.KI.R2

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (launch 0 is entered from these: no host operation precedes it). -/
abbrev W0 : Dev nD → Valuation τ sig (Elt F) := fun c b => m ((c : Dev nD), b)
abbrev V0 : (c : Dev nD) → (b : Ref sig .tc) → Buf (Elt F) ((c : Thread nD τ).loc b) := fun c b => W0 m c b
/-- After launch 0: its output array `main_v0` at what its write-backs leave, every other buffer as before. -/
def W1 (c : Dev nD) : Valuation τ sig (Elt F) :=
  Pipeline.withArrays spec0 c (W0 m c) fun w => (dat0 (V0 m) c).arrAt w cfg0.N
abbrev V1 : (c : Dev nD) → (b : Ref sig .tc) → Buf (Elt F) ((c : Thread nD τ).loc b) := fun c b => W1 m c b
/-- After launch 1: `main_v1` at what its write-backs leave. -/
def W2 (c : Dev nD) : Valuation τ sig (Elt F) :=
  Pipeline.withArrays spec1 c (W1 m c) fun w => (dat1 (V1 m) c).arrAt w cfg1.N
/-- After the host reshape of the labels (`hostOps2`). -/
abbrev W3 : Dev nD → Valuation τ sig (Elt F) := fun c => StableHlo.after hostOps2 (W2 m c)
abbrev V3 : (c : Dev nD) → (b : Ref sig .tc) → Buf (Elt F) ((c : Thread nD τ).loc b) := fun c b => W3 m c b
/-- After launch 2: `main_v3` at what its write-backs leave. -/
def W4 (c : Dev nD) : Valuation τ sig (Elt F) :=
  Pipeline.withArrays spec2 c (W3 m c) fun w => (dat2 (V3 m) c).arrAt w cfg2.N
/-- After the host's mean and negation (`hostOps3`). -/
abbrev W5 : Dev nD → Valuation τ sig (Elt F) := fun c => StableHlo.after hostOps3 (W4 m c)

/-! ## What each boundary's contents are at the buffers the value is read through -/

theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb

/-- The labels' reshape writes the reshaped labels and nothing else. -/
theorem hostOps2_keeps (V : Valuation τ sig (Elt F)) (r : Ref sig .tc) (hr : r ≠ main_v2) :
    StableHlo.after hostOps2 V (Proc.devRef .tc r) = V (Proc.devRef .tc r) := by
  refine StableHlo.after_of_forall_not_mem _ _ fun op hop => ?_
  obtain rfl : op = StableHlo.reshape main_arg1 main_v2 rfl shapeCasts_S8192_S8192x1 := List.mem_singleton.mp hop
  rw [StableHlo.reshape_writes, Finset.mem_singleton]
  exact StableHlo.devRef_ne_of_ne hr

/-- The host's last stretch writes its own six results (the flattened loss terms, the two constants, the sum, the
    quotient, the negation) and nothing else. -/
theorem hostOps3_keeps (V : Valuation τ sig (Elt F)) (r : Ref sig .tc)
    (hr : r ∉ ([main_v4, main_cst, main_v5, main_cst_0, main_v6, main_v7] : List (Ref sig .tc))) :
    StableHlo.after hostOps3 V (Proc.devRef .tc r) = V (Proc.devRef .tc r) := by
  refine StableHlo.after_of_forall_not_mem _ _ fun op hop => ?_
  have ne_of {y : Ref sig .tc} (hy : y ∈ ([main_v4, main_cst, main_v5, main_cst_0, main_v6, main_v7] : List (Ref sig .tc))) :
      (Proc.devRef .tc r : DevRef τ sig) ∉ ({Proc.devRef .tc y} : Finset (DevRef τ sig)) := fun h =>
    StableHlo.devRef_ne_of_ne (fun e => hr (by rw [e]; exact hy)) (Finset.mem_singleton.mp h)
  simp only [hostOps3, List.mem_cons, List.not_mem_nil, _root_.or_false] at hop
  rcases hop with rfl | rfl | rfl | rfl | rfl | rfl
  · rw [StableHlo.reshape_writes]; exact ne_of (by decide)
  · rw [StableHlo.nullary_writes]; exact ne_of (by decide)
  · rw [StableHlo.binary_writes]; exact ne_of (by decide)
  · rw [StableHlo.nullary_writes]; exact ne_of (by decide)
  · rw [StableHlo.binary_writes]; exact ne_of (by decide)
  · rw [StableHlo.unary_writes]; exact ne_of (by decide)

/-- No item writes an argument: each reaches the end as launched. The first argument is launch 0's input window (an
    input array is never written back), and nothing after launch 0 names it. -/
theorem W5_main_arg0 (c : Dev nD) : W5 m c (Proc.devRef .tc main_arg0) = m ((c : Thread nD τ).loc main_arg0) := by
  have h5 : W5 m c (Proc.devRef .tc main_arg0) = W4 m c (Proc.devRef .tc main_arg0) := hostOps3_keeps _ main_arg0 (by decide)
  have h4 : W4 m c (Proc.devRef .tc main_arg0) = W3 m c (Proc.devRef .tc main_arg0) := W4_of_ne m c main_arg0 (by decide)
  have h3 : W3 m c (Proc.devRef .tc main_arg0) = W2 m c (Proc.devRef .tc main_arg0) := hostOps2_keeps _ main_arg0 (by decide)
  have h2 : W2 m c (Proc.devRef .tc main_arg0) = W1 m c (Proc.devRef .tc main_arg0) := W2_of_ne m c main_arg0 (by decide)
  have h1 : W1 m c (Proc.devRef .tc main_arg0) = W0 m c (Proc.devRef .tc main_arg0) :=
    (W1_arr m c 0).trans (((dat0 (V0 m) c).arrAt_in 0 rfl _).trans (A_eq0 (V0 m) c 0))
  rw [h5, h4, h3, h2, h1]
/-- The labels are read by the host's reshape only; no launch has them behind a window. -/
theorem W5_main_arg1 (c : Dev nD) : W5 m c (Proc.devRef .tc main_arg1) = m ((c : Thread nD τ).loc main_arg1) := by
  have h5 : W5 m c (Proc.devRef .tc main_arg1) = W4 m c (Proc.devRef .tc main_arg1) := hostOps3_keeps _ main_arg1 (by decide)
  have h4 : W4 m c (Proc.devRef .tc main_arg1) = W3 m c (Proc.devRef .tc main_arg1) := W4_of_ne m c main_arg1 (by decide)
  have h3 : W3 m c (Proc.devRef .tc main_arg1) = W2 m c (Proc.devRef .tc main_arg1) := hostOps2_keeps _ main_arg1 (by decide)
  have h2 : W2 m c (Proc.devRef .tc main_arg1) = W1 m c (Proc.devRef .tc main_arg1) := W2_of_ne m c main_arg1 (by decide)
  have h1 : W1 m c (Proc.devRef .tc main_arg1) = W0 m c (Proc.devRef .tc main_arg1) := W1_of_ne m c main_arg1 (by decide)
  rw [h5, h4, h3, h2, h1]
/-- The third argument is launch 1's input window. -/
theorem W5_main_arg2 (c : Dev nD) : W5 m c (Proc.devRef .tc main_arg2) = m ((c : Thread nD τ).loc main_arg2) := by
  have h5 : W5 m c (Proc.devRef .tc main_arg2) = W4 m c (Proc.devRef .tc main_arg2) := hostOps3_keeps _ main_arg2 (by decide)
  have h4 : W4 m c (Proc.devRef .tc main_arg2) = W3 m c (Proc.devRef .tc main_arg2) := W4_of_ne m c main_arg2 (by decide)
  have h3 : W3 m c (Proc.devRef .tc main_arg2) = W2 m c (Proc.devRef .tc main_arg2) := hostOps2_keeps _ main_arg2 (by decide)
  have h2 : W2 m c (Proc.devRef .tc main_arg2) = W1 m c (Proc.devRef .tc main_arg2) :=
    (W2_arr m c 0).trans (((dat1 (V1 m) c).arrAt_in 0 rfl _).trans (A_eq1 (V1 m) c 0))
  have h1 : W1 m c (Proc.devRef .tc main_arg2) = W0 m c (Proc.devRef .tc main_arg2) := W1_of_ne m c main_arg2 (by decide)
  rw [h5, h4, h3, h2, h1]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The proof data of the three launches and the state between two items -/

/-- No launch has a prefetched table. -/
abbrev adm : (p : Fin 3) → (pcfgs (F := F) p).Adm := fun p => (cfgs p).toPCfg_adm

/-- Each launch's proof data at the contents its launch finds: launch 0 the launch memory, launch 1 what launch 0
    left, launch 2 what the labels' reshape left. A literal match, so that the index at a numeral reduces. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V3 m) c

abbrev 𝒱₀ : Variants := Variants.none
/-- No core owes another anything, so no level is assigned. -/
abbrev L : GSem nD τ sig → Finset Unit := fun _ => ∅
abbrev lv : GSem nD τ sig → Unit → ℕ := fun _ _ => 0

/-- The core's generator register at some state. -/
abbrev Gn (c : Dev nD) : sProp 𝕄 := iprop(∃ r, prngReg c r)
/-- The core owing nothing. -/
abbrev Ow (c : Dev nD) : sProp 𝕄 := iprop(∃ W, owes (c : Thread nD τ) (0 : CellTallies nD τ sig Unit) W)
/-- What rides beside the buffers through every item. -/
abbrev Rd (c : Dev nD) : sProp 𝕄 := iprop(Gn c ∗ Ow c)
/-- The state between two items: every unscoped buffer whole at the boundary's contents `W`, the generator register,
    nothing owed. -/
abbrev Tst (W : Dev nD → Valuation τ sig (Elt F)) (c : Dev nD) : sProp 𝕄 :=
  iprop(StableHlo.held (c : Thread nD τ) (Pipeline.ucRefs τ sig) (W c) ∗ Rd c)

/-! ## Small entailments every launch's record is made of -/

/-- Three conjuncts regrouped. -/
theorem regroup (A B C : sProp 𝕄) : iprop(A ∗ B ∗ C) ⊢ iprop((A ∗ B) ∗ C) := by
  iintro ⟨HA, HB, HC⟩
  isplitl [HA HB]
  · isplitl [HA]
    · iexact HA
    · iexact HB
  · iexact HC

/-- A core that owes nothing meets any proof data's tallies at a point where the data owe nothing and bound nothing. -/
theorem owesAt_intro {cfg : Cfg sig Λ₀} {c : Dev nD} (dat : Dat τ (Elt F) Unit ℕ (UR sig nD τ) ℕ cfg c) (t : Fin (cfg.N + 1))
    (h0 : dat.owed t = 0) (hr : dat.recorded t = Set.univ) : Ow c ⊢ dat.owesAt () t := by
  unfold Pipeline.Dat.owesAt Pipeline.owesWithin
  rw [h0]
  iintro ⟨%X, HO⟩
  iexists X
  isplitr
  · ipureintro; exact fun x _ => Or.inl (by rw [hr]; trivial)
  · iexact HO

/-- And back: the bound on the recorded pairs is forgotten. -/
theorem owesAt_elim {cfg : Cfg sig Λ₀} {c : Dev nD} (dat : Dat τ (Elt F) Unit ℕ (UR sig nD τ) ℕ cfg c) (t : Fin (cfg.N + 1))
    (h0 : dat.owed t = 0) : dat.owesAt () t ⊢ Ow c := by
  unfold Pipeline.Dat.owesAt Pipeline.owesWithin
  rw [h0]
  iintro ⟨%X, -, HO⟩
  iexists X
  iexact HO

/-- With no prefetched table there is nothing to hold. -/
theorem prefHeld_intro (pre : Pipeline.Prefetch sig) (hK : pre.K = 0) (c : Dev nD) (q : Fin pre.K → PosShare TreeShare)
    (v : pre.Contents (Elt F)) : (BI.emp : sProp 𝕄) ⊢ Pipeline.prefHeld pre c q v := by
  unfold Pipeline.prefHeld
  haveI : IsEmpty (Fin pre.K) := by rw [hK]; infer_instance
  rw [Finset.univ_eq_empty, BI.bigSep_empty]

/-- The class's invariant from the generator register and the scoped buffers no window stages (anything else handed
    over is dropped). -/
theorem ΦA_intro {gr W : Nat} (win : Fin W → Pipeline.WinSpec sig gr) (c : Dev nD) (T : sProp 𝕄) :
    (iprop(Gn c ∗ T ∗ Pipeline.scopedRest win c) : sProp 𝕄) ⊢ Pipeline.ΦA win c := by
  unfold Pipeline.ΦA
  iintro ⟨Hg, -, Hs⟩
  isplitl [Hs]
  · iexact Hs
  · iexact Hg

/-- The class's invariant gives both back; a kernel with no semaphore of its own has none to return. -/
theorem ΦA_elim {gr W : Nat} (win : Fin W → Pipeline.WinSpec sig gr) (c : Dev nD) :
    (Pipeline.ΦA win c : sProp 𝕄) ⊢ iprop(Gn c ∗ Pipeline.ownSems0 (fun k : PEmpty => k.elim) c ∗ Pipeline.scopedRest win c) := by
  unfold Pipeline.ΦA
  rw [Pipeline.ownSems0_none]
  iintro ⟨Hs, Hg⟩
  isplitl [Hg]
  · iexact Hg
  isplitr
  · iempintro
  · iexact Hs

/-! ## A launch entered from, and left to, the state between two items -/

-- the library's lemmas are stated over the pinned configuration of an index; matching them against a launch's own
-- takes unfolding plain definitions in a metavariable's type
set_option backward.isDefEq.respectTransparency.types false in
/-- ENTRY of launch `p` from the state at contents `W`: the windows' arrays are split out of the unscoped buffers at the
    proof data's entry contents (which are read off `W`), the core owing nothing meets the first tallies, the register goes
    to the invariant and the unscoped rest bypasses the launch. -/
theorem enter (p : Fin 3) (lf : Pipeline.LaunchFacts (nD := nD) (τ := τ) cfgs p) (c : Dev nD) (W : Dev nD → Valuation τ sig (Elt F))
    (hq : ∀ w, (pdats m p c).q w = fullShare)
    (hA : ∀ w, (pdats m p c).A w = W c (Proc.devRef .tc (Pipeline.arrRef (Pipeline.pin (pcfgs (F := F)) adm p).spec w)))
    (h0 : (pdats m p c).owed 0 = 0) (hr : (pdats m p c).recorded 0 = Set.univ) (hK : (pcfgs (F := F) p).pre.K = 0) :
    iprop(Tst W c ∗ Pipeline.ownSems0 (fun k : PEmpty => k.elim) c ∗ levAts L lv)
      ⊢ |={Set.univ}=> iprop((pdats m p c).arrays ((pdats m p c).arrAt · 0)
          ∗ Pipeline.prefHeld (pcfgs (F := F) p).pre c (fun _ => fullShare) (adm p).1
          ∗ (pdats m p c).owesAt () 0 ∗ Gn c
          ∗ Pipeline.unscopedRest (Ix := Unit) (Name := ℕ) (U := UR sig nD τ) (Lvl := ℕ) (Pipeline.pin (pcfgs (F := F)) adm p).spec c (fun b => W c b)) := by
  have hsplit := Pipeline.arrays_of_unscopedBufs (p := p) (pcfgs (F := F)) adm (pdats m) lf.win lf.arr_whole c
    ((pdats m p c).share_full hq) (fun b => W c b) hA
  rw [Pipeline.unscopedBufs_held] at hsplit
  iintro ⟨⟨Hbufs, Hg, HO⟩, -, -⟩
  ihave Hsp := hsplit $$ Hbufs
  icases Hsp with ⟨Harr, Hrest⟩
  imodintro
  isplitl [Harr]
  · iexact Harr
  isplitr
  · iapply (prefHeld_intro (pcfgs (F := F) p).pre hK c _ _)
    iempintro
  isplitl [HO]
  · iapply (owesAt_intro (pdats m p c) 0 h0 hr)
    iexact HO
  isplitl [Hg]
  · iexact Hg
  · iexact Hrest

set_option backward.isDefEq.respectTransparency.types false in
/-- EXIT of launch `p` to the state at contents `W'`, which have the launch's arrays at what its write-backs leave and
    agree with the entry contents `W` off them. -/
theorem leave (p : Fin 3) (lf : Pipeline.LaunchFacts (nD := nD) (τ := τ) cfgs p) (c : Dev nD) (W W' : Dev nD → Valuation τ sig (Elt F))
    (hq : ∀ w, (pdats m p c).q w = fullShare)
    (hF : ∀ w, (pdats m p c).arrAt w (Pipeline.pin (pcfgs (F := F)) adm p).N
      = W' c (Proc.devRef .tc (Pipeline.arrRef (Pipeline.pin (pcfgs (F := F)) adm p).spec w)))
    (hrest : ∀ b : Ref sig .tc, (∀ w, Pipeline.arrRef (Pipeline.pin (pcfgs (F := F)) adm p).spec w ≠ b)
      → W' c (Proc.devRef .tc b) = W c (Proc.devRef .tc b))
    (h0 : (pdats m p c).owed (Fin.last (Pipeline.pin (pcfgs (F := F)) adm p).N) = 0) :
    iprop((pdats m p c).arrays ((pdats m p c).arrAt · (Pipeline.pin (pcfgs (F := F)) adm p).N)
        ∗ (pdats m p c).owesAt () (Fin.last (Pipeline.pin (pcfgs (F := F)) adm p).N) ∗ Gn c
        ∗ Pipeline.unscopedRest (Ix := Unit) (Name := ℕ) (U := UR sig nD τ) (Lvl := ℕ) (Pipeline.pin (pcfgs (F := F)) adm p).spec c (fun b => W c b))
      ⊢ |={Set.univ}=> Tst W' c := by
  have hjoin := Pipeline.unscopedBufs_of_arrays (p := p) (pcfgs (F := F)) adm (Ix := Unit) (Name := ℕ) (U := UR sig nD τ) (Lvl := ℕ)
    lf.win lf.arr_whole c (pdats m) ((pdats m p c).share_full hq) (fun b => W c b) (fun b => W' c b)
    ((pdats m p c).arrAt · (Pipeline.pin (pcfgs (F := F)) adm p).N) hF
    (fun b hb => hrest b fun w e => hb (Finset.mem_image.mpr ⟨w, Finset.mem_univ _, e⟩))
  rw [Pipeline.unscopedBufs_held] at hjoin
  iintro ⟨Harr, HO, Hg, Hrest⟩
  imodintro
  isplitl [Harr Hrest]
  · iapply hjoin
    isplitl [Harr]
    · iexact Harr
    · iexact Hrest
  isplitl [Hg]
  · iexact Hg
  · iapply (owesAt_elim (pdats m p c) _ h0)
    iexact HO

/-! ## The three launches as records over those states -/

set_option backward.isDefEq.respectTransparency.types false in
/-- Launch 0: entered from the launch memory, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre := Tst (W0 m)
  post := Tst (W1 m)
  X := Gn
  Y := Gn
  Z c := Pipeline.unscopedRest (Ix := Unit) (Name := ℕ) (U := UR sig nD τ) (Lvl := ℕ) spec0 c (V0 m c)
  hentry c := enter m 0 launch0 c (W0 m) (fun _ => rfl) (fun _ => rfl) rfl rfl rfl
  hin c := ΦA_intro spec0 c _
  hout c := ΦA_elim spec0 c
  hexit c := leave m 0 launch0 c (W0 m) (W1 m) (fun _ => rfl) (fun w => (W1_arr m c w).symm) (fun b hb => W1_of_ne m c b hb) rfl

set_option backward.isDefEq.respectTransparency.types false in
/-- Launch 1: entered from `W1`, left at `W2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre := Tst (W1 m)
  post := Tst (W2 m)
  X := Gn
  Y := Gn
  Z c := Pipeline.unscopedRest (Ix := Unit) (Name := ℕ) (U := UR sig nD τ) (Lvl := ℕ) spec1 c (V1 m c)
  hentry c := enter m 1 launch1 c (W1 m) (fun _ => rfl) (fun _ => rfl) rfl rfl rfl
  hin c := ΦA_intro spec1 c _
  hout c := ΦA_elim spec1 c
  hexit c := leave m 1 launch1 c (W1 m) (W2 m) (fun _ => rfl) (fun w => (W2_arr m c w).symm) (fun b hb => W2_of_ne m c b hb) rfl

set_option backward.isDefEq.respectTransparency.types false in
/-- Launch 2: entered from `W3`, left at `W4`. Its invariant at the two ends is the class's through the launch's own
    two entailments (the scratch columns are among the scoped buffers no window stages). -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre := Tst (W3 m)
  post := Tst (W4 m)
  X := Gn
  Y := Gn
  Z c := Pipeline.unscopedRest (Ix := Unit) (Name := ℕ) (U := UR sig nD τ) (Lvl := ℕ) spec2 c (V3 m c)
  hentry c := enter m 2 launch2 c (W3 m) (fun _ => rfl) (fun _ => rfl) rfl rfl rfl
  hin c := (ΦA_intro spec2 c _).trans (hin2 (V3 m) c)
  hout c := (hout2 (V3 m) c).trans (ΦA_elim spec2 c)
  hexit c := leave m 2 launch2 c (W3 m) (W4 m) (fun _ => rfl) (fun w => (W4_arr m c w).symm) (fun b hb => W4_of_ne m c b hb) rfl

/-! ## The host stretches, @main as the five items, and the launch -/

theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-- A host stretch over the unscoped buffers from the contents `W`: it leaves them at `StableHlo.after` its operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

/-- @main's five items. -/
abbrev segs : List (Pipeline.Seg (pcfgs (F := F)) adm (pdats m) () defs₀ 𝒱₀ L lv) :=
  [ .region (reg0 m),
    .region (reg1 m),
    .host (hseg hostOps2 hostOps2_sub hostOps2_fresh (W2 m)),
    .region (reg2 m),
    .host (hseg hostOps3 hostOps3_sub hostOps3_fresh (W4 m)) ]

theorem main_run (c : Dev nD) : main (F := F) c = Pipeline.Seg.run (segs m) := (main_chain c).trans (by chain_rfl)

/-- The last state read against a final memory: every unscoped buffer holds the last boundary's contents. -/
theorem read_last (c : Dev nD) (W : Valuation τ sig (Elt F)) (s' : Phys nD τ sig (Elt F)) :
    iprop((StableHlo.held (c : Thread nD τ) (Pipeline.ucRefs τ sig) W ∗ Gn c) ∗ SI s')
      ⊢ |={Set.univ}=> iprop(⌜∀ b ∈ Pipeline.ucRefs τ sig, s'.mem.mem (((c : Thread nD τ)).1, b) = W b⌝ ∗ SI s') := by
  unfold StableHlo.held
  iintro ⟨⟨Hh, -⟩, HSI⟩
  imodintro
  iapply (pointsTo_read_all (Pipeline.ucRefs τ sig) (fun b => (((c : Thread nD τ)).1, b)) W s')
  isplitl [Hh]
  · iexact Hh
  · iexact HSI

set_option backward.isDefEq.respectTransparency.types false in
/-- The launch of @main, at any post that follows from the final memory holding every unscoped buffer at `W5`. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W5 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · rw [BI.bigSep_emp_const]
        iempintro)
    (T₀ := Tst (W0 m)) (Tₙ := fun c => iprop(StableHlo.held (c : Thread nD τ) (Pipeline.ucRefs τ sig) (W5 m c) ∗ Gn c))
    (hch := ⟨fun _ => .rfl, fun _ => .rfl, fun _ => .rfl, fun _ => .rfl, fun _ => .rfl, fun c => regroup _ _ _⟩)
    (hinit := by
      refine Pipeline.initEach L lv fun c => ?_
      have hb : (unscopedBufs c (fun b => m ((c : Thread nD τ).loc b)) : sProp 𝕄)
          ⊢ StableHlo.held (c : Thread nD τ) (Pipeline.ucRefs τ sig) (W0 m c) :=
        Entails.of_eq (Pipeline.unscopedBufs_held c (W0 m c))
      iintro ⟨⟨Hb, -, HO, -, Hp, -⟩, -⟩
      imodintro
      isplitl [Hb]
      · iapply hb
        iexact Hb
      isplitl [Hp]
      · iexists _
        iexact Hp
      · iexists ∅
        iexact HO)
    (QY := fun c s => ∀ b ∈ Pipeline.ucRefs τ sig, s.mem (((c : Thread nD τ)).1, b) = W5 m c b)
    (hfin := fun c s' => read_last c (W5 m c) s')
    (hQ := hQ)

/-- Every weakly fair execution of @main terminates, nothing faulting, and the final memory holds every unscoped
    buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  run_post m ρ fun _ h => h

/-- The frame claim at any instance: the arguments end as launched. Each argument is an unscoped buffer, so the final
    memory holds it at `W5`, which at an argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_post m ρ fun s h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c)⟩

end Cert.KernelIdeal.Fr

end
-- ==== Proof.Val.Spec.lean ====
/-
  What both programs compute, as ONE function of the three argument arrays over the extended reals.

  Each row of `x` (8192 rows) and of `w` (10240 rows), of length 1024, is divided by its Euclidean norm, the norm
  clamped from below at the constant `epsN`. The cosine table is the product of the normalised rows, clamped to
  [-1, 1]. Row `r` has a label `lab r`, a column of the table; its target is the table's entry there, its margin is
  0.4 when the label, read as a signed word, is at most 5 and 0.1 otherwise. With s = 30 the row's loss term is
      s (target - margin) - log ( exp (s (target - margin)) + ( Σ_j exp (s cos r j) - exp (s target) ) ),
  and the result is minus the mean of the 8192 terms. Float literals are kept as the words both programs print.
-/
import Idealize.ShloMosaic.PureOps.Ideal
import Idealize.ShloMosaic.Lib.ValueIdx

noncomputable section

open scoped BigOperators

namespace Cert.Spec

open Idealize.ShloMosaic Idealize.ShloMosaic.ValueIdx

/-- The clamp on a row's norm: the f32 word 9.99999996E-13. -/
def epsN : EReal := Ideal.ofBits .f32 0x2B8CBCCC#32
/-- The clamp's bounds and the scale, as the words printed. -/
def one : EReal := Ideal.ofBits .f32 0x3F800000#32
def negOne : EReal := Ideal.ofBits .f32 0xBF800000#32
def c30 : EReal := Ideal.ofBits .f32 0x41F00000#32
def mLo : EReal := Ideal.ofBits .f32 0x3ECCCCCD#32
def mHi : EReal := Ideal.ofBits .f32 0x3DCCCCCD#32
def c8192 : EReal := Ideal.ofBits .f32 0x46000000#32
def zero : EReal := Ideal.ofBits .f32 0x00000000#32

/-- The sum of the squares of row `r`. -/
def ssq {n : Nat} (a : (⟨2, ![n, 1024]⟩ : Shape).Idx → EReal) (r : Fin n) : EReal :=
  ∑ k : Fin 1024, a (ix2 r k) * a (ix2 r k)

/-- Entry `k` of row `r` divided by the row's clamped norm. -/
def nrm {n : Nat} (a : (⟨2, ![n, 1024]⟩ : Shape).Idx → EReal) (r : Fin n) (k : Fin 1024) : EReal :=
  Ideal.div (a (ix2 r k)) (max (Ideal.sqrt (ssq a r)) epsN)

/-- The clamped cosine of row `r` of `x` and row `j` of `w`. -/
def cosv (x : (⟨2, ![8192, 1024]⟩ : Shape).Idx → EReal) (w : (⟨2, ![10240, 1024]⟩ : Shape).Idx → EReal)
    (r : Fin 8192) (j : Fin 10240) : EReal :=
  min one (max negOne (∑ k : Fin 1024, nrm x r k * nrm w j k))

/-- The margin of a row from its label word. -/
def margin (l : BitVec 32) : EReal := if l.sle 5#32 then mLo else mHi

/-- Row `r`'s loss term, from its target column `t` and its label word `l`. -/
def term (x : (⟨2, ![8192, 1024]⟩ : Shape).Idx → EReal) (w : (⟨2, ![10240, 1024]⟩ : Shape).Idx → EReal)
    (r : Fin 8192) (t : Fin 10240) (l : BitVec 32) : EReal :=
  let tg := cosv x w r t
  let num := c30 * (tg - margin l)
  num - Ideal.log (Ideal.exp num + ((∑ j : Fin 10240, Ideal.exp (c30 * cosv x w r j)) - Ideal.exp (c30 * tg)))

/-- The column a label word in range names. -/
def col (l : BitVec 32) (h : l.toNat < 10240) : Fin 10240 := ⟨l.toNat, h⟩

/-- Minus the mean of the rows' terms, labels in range. -/
def loss (x : (⟨2, ![8192, 1024]⟩ : Shape).Idx → EReal) (lab : (⟨1, ![8192]⟩ : Shape).Idx → BitVec 32)
    (w : (⟨2, ![10240, 1024]⟩ : Shape).Idx → EReal) (hlab : ∀ r : Fin 8192, (lab (ix1 r)).toNat < 10240) : EReal :=
  - Ideal.div (zero + ∑ r : Fin 8192, term x w r (col (lab (ix1 r)) (hlab r)) (lab (ix1 r))) c8192

/-! ## The kernel's own arrangement of the same numbers -/

/-- The kernel's clamp on a row's SQUARED norm: the square of `epsN`, as the exact rational it is. -/
def epsSq : EReal := ((5316911940649 / 5316911983139663491615228241121378304 : ℝ) : EReal)

/-- Entry `k` of row `r` times the reciprocal square root of the row's clamped squared norm. -/
def knrm {n : Nat} (a : (⟨2, ![n, 1024]⟩ : Shape).Idx → EReal) (r : Fin n) (k : Fin 1024) : EReal :=
  a (ix2 r k) * Ideal.rsqrt (max (ssq a r) epsSq)

/-- The clamped cosine from two tables of already normalised rows. -/
def kcos (xn : (⟨2, ![8192, 1024]⟩ : Shape).Idx → EReal) (wn : (⟨2, ![10240, 1024]⟩ : Shape).Idx → EReal)
    (r : Fin 8192) (j : Fin 10240) : EReal :=
  min one (max negOne (∑ k : Fin 1024, xn (ix2 r k) * wn (ix2 j k)))

/-- Column `cl` of column block `kk` (20 blocks of 512 columns). -/
def tileCol (kk : Fin 20) (cl : Fin 512) : Fin 10240 := ⟨512 * kk.val + cl.val, by have := kk.isLt; have := cl.isLt; omega⟩

/-- The kernel's target of row `r`: block by block, the cosine at the column whose number inside the block is the
    label minus the block's first column (32-bit words), zero at every other column, summed. -/
def ktarget (xn : (⟨2, ![8192, 1024]⟩ : Shape).Idx → EReal) (wn : (⟨2, ![10240, 1024]⟩ : Shape).Idx → EReal)
    (l : BitVec 32) (r : Fin 8192) : EReal :=
  ∑ kk : Fin 20, ∑ cl : Fin 512,
    if BitVec.ofNat 32 cl.val = l - BitVec.ofNat 32 kk.val * 512#32 then kcos xn wn r (tileCol kk cl) else 0

/-- The kernel's sum of exponentials of row `r`, block by block. -/
def kfull (xn : (⟨2, ![8192, 1024]⟩ : Shape).Idx → EReal) (wn : (⟨2, ![10240, 1024]⟩ : Shape).Idx → EReal)
    (r : Fin 8192) : EReal :=
  ∑ kk : Fin 20, ∑ cl : Fin 512, Ideal.exp (c30 * kcos xn wn r (tileCol kk cl))

/-- The kernel's loss term of row `r` from the normalised tables and the row's label word. -/
def kterm (xn : (⟨2, ![8192, 1024]⟩ : Shape).Idx → EReal) (wn : (⟨2, ![10240, 1024]⟩ : Shape).Idx → EReal)
    (l : BitVec 32) (r : Fin 8192) : EReal :=
  let tg := ktarget xn wn l r
  let num := c30 * (tg - margin l)
  num - Ideal.log (Ideal.exp num + (kfull xn wn r - Ideal.exp (c30 * tg)))

/-- The kernel's result from the 8192 terms: minus their mean. -/
def kloss (t : Fin 8192 → EReal) : EReal := - Ideal.div (zero + ∑ r : Fin 8192, t r) c8192

end Cert.Spec

end
-- ==== Proof.Val.Norm.lean ====
/-
  What the two normalising launches leave in their output arrays, entry by entry: each entry of the input array times
  the reciprocal square root of its row's squared norm, the squared norm clamped from below (`Cert.Spec.knrm`). Every
  grid point writes back one block of 1024 whole rows and the blocks tile the array.
-/
import proofs.«411399_j4853313045243_3_alg».proof.Proof.KI.R01
import proofs.«411399_j4853313045243_3_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.SL.Sem
open Cert.KernelIdeal Cert.KernelIdeal.Gen Cert.KernelIdeal.Fr
open Idealize.ShloMosaic.Pipeline (Dat)

/-! ## The two column forms of the payload's layout operations -/

section Columns
variable {α : Type}

/-- A vector of `a` entries recast as a column reads, at row `p`, the vector's entry `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column broadcast along the rows reads, at `(p, q)`, the column's entry `p`. -/
theorem broadcastTo_col_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Columns

/-! ## The payload at an entry of the block -/

/-- The clamp on the squared norm is the specification's constant. -/
theorem eps_sq_val : Named.named (F := Ideal) κ "eps_sq" (φ := .f32) 0x179ABE15#32 = Cert.Spec.epsSq :=
  IdealRules.named_const.ideal_named_scalar _ _ _ _ rfl

/-- The sum along the lanes of a 1024 x 1024 block, at row `p`, is the sum of the row's entries. -/
theorem laneSum_apply (v : FVec Ideal S1024x1024 .f32) (hφ : FKind.Formats .f32)
    (hacc : (0x00000000#32 : BitVec 32) = 0x00000000#32) (p : Fin 1024) :
    multiReduction (F := Ideal) .add [1] S1024 v 0x00000000#32 reduces_S1024x1024_S1024 hφ hacc (ix1 p)
      = ∑ k : Fin 1024, v (ix2 p k) := by
  refine (Ideal.multiReduction_add_single v 0x00000000#32 reduces_S1024x1024_S1024 hφ hacc (ix1 p)).trans ?_
  show (∑ k : Fin 1024, v (reduces_S1024x1024_S1024.lift (ix1 p) k)) = _
  refine Finset.sum_congr rfl fun k _ => congrArg v ?_
  funext a
  match a with
  | ⟨0, _⟩ => exact Fin.ext rfl
  | ⟨1, _⟩ => exact Fin.ext rfl

/-- Launch 0's payload at entry `(p, q)` of its block: the entry times the reciprocal square root of the clamped sum of
    the squares of row `p`. -/
theorem pay0_apply (x0 : Vec Ideal S1024x1024 .f32) (p q : Fin 1024) :
    (k0_pay1 (F := Ideal) x0 : S1024x1024.Idx → EReal) (ix2 p q)
      = x0 (ix2 p q) * Ideal.rsqrt (max (∑ k : Fin 1024, x0 (ix2 p k) * x0 (ix2 p k)) Cert.Spec.epsSq) := by
  unfold k0_pay1
  show x0 (ix2 p q) * broadcastTo S1024x1024 _ broadcasts_S1024x1_S1024x1024 (ix2 p q) = _
  rw [broadcastTo_col_apply]
  show x0 (ix2 p q) * Ideal.rsqrt (max (shapeCast S1024x1 _ shapeCasts_S1024_S1024x1 (ix2 p (0 : Fin 1)))
      (Named.named (F := Ideal) κ "eps_sq" (φ := .f32) 0x179ABE15#32)) = _
  rw [shapeCast_col_apply, laneSum_apply, eps_sq_val]
  rfl

/-- Launch 1's payload is the same tree of operations as launch 0's. -/
theorem pay1_eq_pay0 (x0 : Vec Ideal S1024x1024 .f32) : k1_pay1 (F := Ideal) x0 = k0_pay1 (F := Ideal) x0 := rfl

variable (V : (c : Dev nD) → (b : Ref sig .tc) → Buf (Elt Ideal) ((c : Thread nD τ).loc b))

/-- The offsets of the rectangle the body loads and stores through are zero on both axes. -/
theorem zero_offsets : (![0, 0] : Fin 2 → Nat) = fun _ => 0 := funext fun a => by fin_cases a <;> rfl

/-! ## Launch 0: from the blocks to the array -/

/-- What launch 0's output array ends holding: the normalised rows of the first argument. -/
def xnG (c : Dev nD) : S8192x1024.Idx → EReal :=
  fun i => Cert.Spec.knrm (V c main_arg0 : S8192x1024.Idx → EReal) (i 0) (i 1)

/-- The two windows' index maps over the grid: point `t` reads and writes block row `t`, block column 0. -/
theorem index_maps0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `p` of the input block at point `t` is row `1024 t + p` of the first argument. -/
theorem iblk0_apply (c : Dev nD) (t : Fin cfg0.N) (p k : Fin 1024) (r : Fin 8192) (hr : r.val = t.val * 1024 + p.val) :
    (iblk0 (F := Ideal) V c 0 t : Vec Ideal S1024x1024 .f32) (ix2 p k)
      = (V c main_arg0 : S8192x1024.Idx → EReal) (ix2 r k) := by
  obtain ⟨e0, e1, -, -⟩ := index_maps0 t
  unfold iblk0
  rw [View.read_apply]
  show V c main_arg0 _ = V c main_arg0 _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 1024 + 1 * k.val = k.val; rw [e1]; omega

/-- What point `t` writes back is its block of the normalised rows. -/
theorem flushed0_eq (c : Dev nD) (t : Fin cfg0.N) :
    (dat0 (F := Ideal) V c).flushed 1 t = ((cfg0.win 1).blk t).view.read (Elt Ideal) (xnG V c) := by
  show (cfg0.win 1).cut (grid0.coords t) ((dat0 (F := Ideal) V c).after 1 t) = _
  rw [after0_1]
  unfold out0_1
  rw [View.canon_unit_zero zero_offsets]
  simp only [View.ld_unit_zero (S := S1024x1024) zero_offsets]
  funext j
  obtain ⟨p, q, rfl⟩ : ∃ (p q : Fin 1024), j = ix2 p q := ⟨j 0, j 1, eq_ix2 j⟩
  obtain ⟨-, -, e0, e1⟩ := index_maps0 t
  have ht : t.val < 8 := (N_0 : grid0.N = 8) ▸ t.isLt
  obtain ⟨r, hr⟩ : ∃ r : Fin 8192, r.val = t.val * 1024 + p.val := ⟨⟨t.val * 1024 + p.val, by omega⟩, rfl⟩
  have hw : ((cfg0.win 1).blk t).view.emb (ix2 p q) = (ix2 r q : S8192x1024.Idx) := by
    funext a
    apply Fin.ext
    match a with
    | ⟨0, _⟩ => show win0_1.index t (0 : Fin 2) * 1024 + 1 * p.val = r.val; rw [e0, hr]; omega
    | ⟨1, _⟩ => show win0_1.index t (1 : Fin 2) * 1024 + 1 * q.val = q.val; rw [e1]; omega
  show (k0_pay1 (F := Ideal) (iblk0 V c 0 t) : S1024x1024.Idx → EReal) (ix2 p q)
    = xnG V c (((cfg0.win 1).blk t).view.emb (ix2 p q))
  rw [hw]
  refine (pay0_apply (iblk0 V c 0 t) p q).trans ?_
  simp only [iblk0_apply V c t p _ r hr]
  rfl

/-- An index of the output array lies in point `t`'s block iff each coordinate lies in the block's range. -/
theorem mem_blk0 (t : Fin cfg0.N) (i : S8192x1024.Idx) :
    i ∈ ((cfg0.win 1).blk t).view.set ↔ ∀ a : Fin 2, win0_1.index t a * S1024x1024.size a ≤ (i a).val
      ∧ (i a).val < win0_1.index t a * S1024x1024.size a + S1024x1024.size a := by
  show i ∈ ((View.whole main_v0).slice (win0_1.rect t)).set ↔ _
  rw [View.set_slice_whole, Rect.mem_set_unit]
  exact Iff.rfl

/-- The blocks tile the array: row `r` lies in the block of point `r / 1024`. -/
theorem cover0 (i : S8192x1024.Idx) :
    ∃ t : Fin cfg0.N, (cfg0.win 1).flush t = true ∧ i ∈ ((cfg0.win 1).blk t).view.set := by
  have hi0 : (i 0).val < 8192 := (i 0).isLt
  have hi1 : (i 1).val < 1024 := (i 1).isLt
  obtain ⟨t, ht⟩ : ∃ t : Fin cfg0.N, t.val = (i 0).val / 1024 :=
    ⟨⟨(i 0).val / 1024, by rw [show cfg0.N = 8 from N_0]; omega⟩, rfl⟩
  obtain ⟨-, -, e0, e1⟩ := index_maps0 t
  refine ⟨t, flush0_1 t, ?_⟩
  rw [mem_blk0]
  intro a
  match a with
  | ⟨0, _⟩ =>
    show win0_1.index t (0 : Fin 2) * 1024 ≤ (i 0).val ∧ (i 0).val < win0_1.index t (0 : Fin 2) * 1024 + 1024
    rw [e0, ht]; omega
  | ⟨1, _⟩ =>
    show win0_1.index t (1 : Fin 2) * 1024 ≤ (i 1).val ∧ (i 1).val < win0_1.index t (1 : Fin 2) * 1024 + 1024
    rw [e1]; omega

/-- Launch 0's output array after the launch, at row `r`, column `k`. -/
theorem xn_apply (c : Dev nD) (r : Fin 8192) (k : Fin 1024) :
    ((dat0 (F := Ideal) V c).arrAt 1 cfg0.N : S8192x1024.Idx → EReal) (ix2 r k)
      = Cert.Spec.knrm (V c main_arg0 : S8192x1024.Idx → EReal) r k :=
  congrFun ((dat0 (F := Ideal) V c).arrAt_eq_of_cover 1 (xnG V c) (fun t _ => flushed0_eq V c t) cover0) (ix2 r k)

/-! ## Launch 1: from the blocks to the array -/

/-- What launch 1's output array ends holding: the normalised rows of the third argument. -/
def wnG (c : Dev nD) : S10240x1024.Idx → EReal :=
  fun i => Cert.Spec.knrm (V c main_arg2 : S10240x1024.Idx → EReal) (i 0) (i 1)

/-- The two windows' index maps over the grid of ten points: point `t` reads and writes block row `t`, block column 0. -/
theorem index_maps1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- Row `p` of the input block at point `t` is row `1024 t + p` of the third argument. -/
theorem iblk1_apply (c : Dev nD) (t : Fin cfg1.N) (p k : Fin 1024) (r : Fin 10240) (hr : r.val = t.val * 1024 + p.val) :
    (iblk1 (F := Ideal) V c 0 t : Vec Ideal S1024x1024 .f32) (ix2 p k)
      = (V c main_arg2 : S10240x1024.Idx → EReal) (ix2 r k) := by
  obtain ⟨e0, e1, -, -⟩ := index_maps1 t
  unfold iblk1
  rw [View.read_apply]
  show V c main_arg2 _ = V c main_arg2 _
  congr 1
  funext a
  apply Fin.ext
  match a with
  | ⟨0, _⟩ => show win1_0.index t (0 : Fin 2) * 1024 + 1 * p.val = r.val; rw [e0, hr]; omega
  | ⟨1, _⟩ => show win1_0.index t (1 : Fin 2) * 1024 + 1 * k.val = k.val; rw [e1]; omega

/-- What point `t` writes back is its block of the normalised rows. -/
theorem flushed1_eq (c : Dev nD) (t : Fin cfg1.N) :
    (dat1 (F := Ideal) V c).flushed 1 t = ((cfg1.win 1).blk t).view.read (Elt Ideal) (wnG V c) := by
  show (cfg1.win 1).cut (grid1.coords t) ((dat1 (F := Ideal) V c).after 1 t) = _
  rw [after1_1]
  unfold out1_1
  rw [View.canon_unit_zero zero_offsets]
  simp only [View.ld_unit_zero (S := S1024x1024) zero_offsets]
  funext j
  obtain ⟨p, q, rfl⟩ : ∃ (p q : Fin 1024), j = ix2 p q := ⟨j 0, j 1, eq_ix2 j⟩
  obtain ⟨-, -, e0, e1⟩ := index_maps1 t
  have ht : t.val < 10 := (N_1 : grid1.N = 10) ▸ t.isLt
  obtain ⟨r, hr⟩ : ∃ r : Fin 10240, r.val = t.val * 1024 + p.val := ⟨⟨t.val * 1024 + p.val, by omega⟩, rfl⟩
  have hw : ((cfg1.win 1).blk t).view.emb (ix2 p q) = (ix2 r q : S10240x1024.Idx) := by
    funext a
    apply Fin.ext
    match a with
    | ⟨0, _⟩ => show win1_1.index t (0 : Fin 2) * 1024 + 1 * p.val = r.val; rw [e0, hr]; omega
    | ⟨1, _⟩ => show win1_1.index t (1 : Fin 2) * 1024 + 1 * q.val = q.val; rw [e1]; omega
  show (k1_pay1 (F := Ideal) (iblk1 V c 0 t) : S1024x1024.Idx → EReal) (ix2 p q)
    = wnG V c (((cfg1.win 1).blk t).view.emb (ix2 p q))
  rw [hw, pay1_eq_pay0]
  refine (pay0_apply (iblk1 V c 0 t) p q).trans ?_
  simp only [iblk1_apply V c t p _ r hr]
  rfl

/-- An index of the output array lies in point `t`'s block iff each coordinate lies in the block's range. -/
theorem mem_blk1 (t : Fin cfg1.N) (i : S10240x1024.Idx) :
    i ∈ ((cfg1.win 1).blk t).view.set ↔ ∀ a : Fin 2, win1_1.index t a * S1024x1024.size a ≤ (i a).val
      ∧ (i a).val < win1_1.index t a * S1024x1024.size a + S1024x1024.size a := by
  show i ∈ ((View.whole main_v1).slice (win1_1.rect t)).set ↔ _
  rw [View.set_slice_whole, Rect.mem_set_unit]
  exact Iff.rfl

/-- The blocks tile the array: row `r` lies in the block of point `r / 1024`. -/
theorem cover1 (i : S10240x1024.Idx) :
    ∃ t : Fin cfg1.N, (cfg1.win 1).flush t = true ∧ i ∈ ((cfg1.win 1).blk t).view.set := by
  have hi0 : (i 0).val < 10240 := (i 0).isLt
  have hi1 : (i 1).val < 1024 := (i 1).isLt
  obtain ⟨t, ht⟩ : ∃ t : Fin cfg1.N, t.val = (i 0).val / 1024 :=
    ⟨⟨(i 0).val / 1024, by rw [show cfg1.N = 10 from N_1]; omega⟩, rfl⟩
  obtain ⟨-, -, e0, e1⟩ := index_maps1 t
  refine ⟨t, flush1_1 t, ?_⟩
  rw [mem_blk1]
  intro a
  match a with
  | ⟨0, _⟩ =>
    show win1_1.index t (0 : Fin 2) * 1024 ≤ (i 0).val ∧ (i 0).val < win1_1.index t (0 : Fin 2) * 1024 + 1024
    rw [e0, ht]; omega
  | ⟨1, _⟩ =>
    show win1_1.index t (1 : Fin 2) * 1024 ≤ (i 1).val ∧ (i 1).val < win1_1.index t (1 : Fin 2) * 1024 + 1024
    rw [e1]; omega

/-- Launch 1's output array after the launch, at row `r`, column `k`. -/
theorem wn_apply (c : Dev nD) (r : Fin 10240) (k : Fin 1024) :
    ((dat1 (F := Ideal) V c).arrAt 1 cfg1.N : S10240x1024.Idx → EReal) (ix2 r k)
      = Cert.Spec.knrm (V c main_arg2 : S10240x1024.Idx → EReal) r k :=
  congrFun ((dat1 (F := Ideal) V c).arrAt_eq_of_cover 1 (wnG V c) (fun t _ => flushed1_eq V c t) cover1) (ix2 r k)

end Cert.KernelIdeal.Val

end
-- ==== Proof.Val.LossA.lean ====
/-
  The loss launch's payloads read at one index, over the extended reals.

  A tile of the launch is 2048 rows by 512 columns. With a a block of 2048 normalised rows and b a block of 512
  normalised rows (both of length 1024), the cosine tile at (p, cl) is the inner product of row p of a and row cl of b
  clamped to [-1, 1]; the tile's contribution to row p's sum of exponentials is the sum over the 512 columns of
  exp (30 · tile); its contribution to the row's target is the sum over the columns of the tile's entry where the
  column's number equals the label minus the block's first column (as 32-bit words) and of zero elsewhere. The two
  carried columns add these to what they held; the row's term is computed from the target, the label and the sum.
-/
import proofs.«411399_j4853313045243_3_alg».proof.Proof.Gen.KernelIdeal.Skeleton
import proofs.«411399_j4853313045243_3_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.SL.Sem
open Cert.KernelIdeal Cert.KernelIdeal.Gen

/-! ## Words: a select on a comparison is the `if` on the compared words -/

/-- A select on "x equals y" is the `if` on the equation. -/
theorem select_cmpi_eq {α : Type} {w : Nat} (x y : BitVec w) (a b : α) :
    Scalar.select (IntOp.cmpi .eq x y) a b = if x = y then a else b := by
  unfold Scalar.select IntOp.cmpi
  by_cases h : x = y
  · rw [if_pos h, if_pos]
    show BitVec.ofBool (x == y) = 1#1
    rw [beq_iff_eq.mpr h]; rfl
  · rw [if_neg h, if_neg]
    show ¬ BitVec.ofBool (x == y) = 1#1
    rw [beq_eq_false_iff_ne.mpr h]; decide

/-- A select on "x is at most y, signed" is the `if` on that comparison. -/
theorem select_cmpi_sle {α : Type} {w : Nat} (x y : BitVec w) (a b : α) :
    Scalar.select (IntOp.cmpi .sle x y) a b = if x.sle y then a else b := by
  unfold Scalar.select IntOp.cmpi
  cases h : x.sle y <;> simp [h]

/-! ## The layout operations of the launch at an index -/

/-- A vector of 2048 entries viewed as a column: entry (p, 0) of the column is entry p of the vector. -/
theorem col_cast_apply (v : (⟨1, ![2048]⟩ : Shape).Idx → EReal) (h : S2048.ShapeCasts S2048x1) (p : Fin 2048) :
    shapeCast S2048x1 v h (ix2 p 0) = v (ix1 p) := by
  refine shapeCast_apply v h _ _ ?_
  rw [Shape.rowMajor_val_one, Shape.rowMajor_val_two]
  show p.val = p.val * 1 + 0
  omega

/-- A column of 2048 entries spread over 512 lanes: entry (p, cl) is the column's entry (p, 0). -/
theorem col_bcast_apply {α : Type} (v : S2048x1.Idx → α) (h : S2048x1.Broadcasts S2048x512) (p : Fin 2048) (cl : Fin 512) :
    broadcastTo S2048x512 v h (ix2 p cl) = v (ix2 p 0) :=
  broadcastTo_apply v h _ _ (fun a => match a with | ⟨0, _⟩ => rfl | ⟨1, _⟩ => rfl)

/-- The sum of a tile along its lanes, at row p: the sum over the 512 columns of the tile's entries in that row. -/
theorem lane_sum_apply (src : FVec Ideal S2048x512 .f32) (h : S2048x512.Reduces [1] S2048) (hφ : FKind.Formats .f32)
    (hacc : (0x00000000#32 : BitVec 32) = FKind.add.neutral .f32 hφ) (p : Fin 2048) :
    multiReduction (F := Ideal) .add [1] S2048 src 0x00000000#32 h hφ hacc (ix1 p) = ∑ cl : Fin 512, src (ix2 p cl) := by
  refine (Ideal.multiReduction_add_single src 0x00000000#32 h hφ hacc (ix1 p)).trans ?_
  refine Finset.sum_congr rfl fun k _ => congrArg src ?_
  funext a
  apply Fin.ext
  match a with
  | ⟨0, _⟩ => rfl
  | ⟨1, _⟩ => rfl

/-! ## The matrix product of the tile

Both operands are contracted along their second axis: the left operand is read at (row of the output, k), the right
one at (column of the output, k). -/

theorem dot_lhs_0 (j : S2048x512.Idx) (q : dot_S2048x1024_S512x1024_S2048x512_1_1_0_0_n_n.contr.Idx) :
    (dot_S2048x1024_S512x1024_S2048x512_1_1_0_0_n_n.lhsIdx j q 0).val = (j 0).val := by
  unfold DotDims.lhsIdx
  rw [dif_neg (show ¬(0 : Fin S2048x1024.rank) ∈ dot_S2048x1024_S512x1024_S2048x512_1_1_0_0_n_n.lhsBatch by decide),
    dif_pos (show (0 : Fin S2048x1024.rank) ∈ dot_S2048x1024_S512x1024_S2048x512_1_1_0_0_n_n.lhsNonContracting by decide)]
  rfl
theorem dot_lhs_1 (j : S2048x512.Idx) (q : dot_S2048x1024_S512x1024_S2048x512_1_1_0_0_n_n.contr.Idx) :
    (dot_S2048x1024_S512x1024_S2048x512_1_1_0_0_n_n.lhsIdx j q 1).val = (q ⟨0, by decide⟩).val :=
  dot_S2048x1024_S512x1024_S2048x512_1_1_0_0_n_n.lhsIdx_val_of_single rfl j q
theorem dot_rhs_0 (j : S2048x512.Idx) (q : dot_S2048x1024_S512x1024_S2048x512_1_1_0_0_n_n.contr.Idx) :
    (dot_S2048x1024_S512x1024_S2048x512_1_1_0_0_n_n.rhsIdx j q 0).val = (j 1).val := by
  unfold DotDims.rhsIdx
  rw [dif_neg (show ¬(0 : Fin S512x1024.rank) ∈ dot_S2048x1024_S512x1024_S2048x512_1_1_0_0_n_n.rhsBatch by decide),
    dif_pos (show (0 : Fin S512x1024.rank) ∈ dot_S2048x1024_S512x1024_S2048x512_1_1_0_0_n_n.rhsNonContracting by decide)]
  rfl
theorem dot_rhs_1 (j : S2048x512.Idx) (q : dot_S2048x1024_S512x1024_S2048x512_1_1_0_0_n_n.contr.Idx) :
    (dot_S2048x1024_S512x1024_S2048x512_1_1_0_0_n_n.rhsIdx j q 1).val = (q ⟨0, by decide⟩).val :=
  dot_S2048x1024_S512x1024_S2048x512_1_1_0_0_n_n.rhsIdx_val_of_single rfl j q

/-- The matrix product into the zero accumulator, at row p and column cl of the tile: the inner product of row p of
    the left block with row cl of the right block. -/
theorem tile_dot_apply (a : FVec Ideal S2048x1024 .bf16) (b : FVec Ideal S512x1024 .bf16) (p : Fin 2048) (cl : Fin 512) :
    matmul dot_S2048x1024_S512x1024_S2048x512_1_1_0_0_n_n none a b (constant (F := Ideal) S2048x512 .f32 0x00000000#32) (ix2 p cl)
      = ∑ k : Fin 1024, a (ix2 p k) * b (ix2 cl k) := by
  simp only [matmul]
  rw [Ideal.matmul_constant_zero_apply,
    ← Equiv.sum_comp (contrEquiv1 dot_S2048x1024_S512x1024_S2048x512_1_1_0_0_n_n 1024 rfl rfl).symm]
  refine Finset.sum_congr rfl fun k _ => ?_
  have hk := contrEquiv1_symm_val dot_S2048x1024_S512x1024_S2048x512_1_1_0_0_n_n 1024 rfl rfl k
  have el : dot_S2048x1024_S512x1024_S2048x512_1_1_0_0_n_n.lhsIdx (ix2 p cl)
      ((contrEquiv1 dot_S2048x1024_S512x1024_S2048x512_1_1_0_0_n_n 1024 rfl rfl).symm k) = ix2 p k :=
    funext fun x => Fin.ext (by
      match x with
      | ⟨0, _⟩ => exact dot_lhs_0 _ _
      | ⟨1, _⟩ => exact (dot_lhs_1 _ _).trans hk)
  have er : dot_S2048x1024_S512x1024_S2048x512_1_1_0_0_n_n.rhsIdx (ix2 p cl)
      ((contrEquiv1 dot_S2048x1024_S512x1024_S2048x512_1_1_0_0_n_n 1024 rfl rfl).symm k) = ix2 cl k :=
    funext fun x => Fin.ext (by
      match x with
      | ⟨0, _⟩ => exact dot_rhs_0 _ _
      | ⟨1, _⟩ => exact (dot_rhs_1 _ _).trans hk)
  rw [el, er]

/-! ## The payloads at an index -/

/-- The cosine tile at (p, cl): the inner product of the two rows, clamped to [-1, 1]. -/
theorem pay5_apply (x0 : Vec Ideal S2048x1024 .bf16) (x1 : Vec Ideal S512x1024 .bf16) (p : Fin 2048) (cl : Fin 512) :
    k2_pay5 x0 x1 (ix2 p cl)
      = min Cert.Spec.one (max Cert.Spec.negOne (∑ k : Fin 1024, x0 (ix2 p k) * x1 (ix2 cl k))) := by
  unfold k2_pay5
  rw [shapeCast_self, shapeCast_self, minimumf_apply, maximumf_apply, tile_dot_apply]
  rfl

/-- The tile's sum of exponentials at row p. -/
theorem pay7_apply (x0 : Vec Ideal S2048x1024 .bf16) (x1 : Vec Ideal S512x1024 .bf16) (p : Fin 2048) :
    k2_pay7 x0 x1 (ix1 p) = ∑ cl : Fin 512, Ideal.exp (Cert.Spec.c30 * k2_pay5 x0 x1 (ix2 p cl)) := by
  unfold k2_pay7
  refine (lane_sum_apply _ _ _ _ p).trans ?_
  exact Finset.sum_congr rfl fun cl _ => rfl

/-- The carried target at row p after a tile: what it held plus the tile's entry at the column the label names inside
    the block (the label minus the block's first column, 512 times the block's number, as 32-bit words). -/
theorem pay6_apply (i : grid2.Coords) (x0 : Vec Ideal S2048x1024 .bf16) (x1 : Vec Ideal S512x1024 .bf16)
    (x2 : Vec Ideal S2048x1 .i32) (s7 : Vec Ideal S2048x1 .f32) (p : Fin 2048) :
    k2_pay6 i x0 x1 x2 s7 (ix2 p 0)
      = s7 (ix2 p 0) + ∑ cl : Fin 512,
          if BitVec.ofNat 32 cl.val = x2 (ix2 p 0) - BitVec.ofNat 32 (i 1).val * 512#32 then k2_pay5 x0 x1 (ix2 p cl) else 0 := by
  unfold k2_pay6
  simp only [shapeCast_self]
  rw [addf_apply, col_cast_apply]
  refine congrArg (s7 (ix2 p 0) + ·) ?_
  refine (lane_sum_apply _ _ _ _ p).trans ?_
  refine Finset.sum_congr rfl fun cl _ => ?_
  rw [select_apply, cmpi, select_cmpi_eq, iota_single_apply, col_bcast_apply, broadcast_apply]
  show (if BitVec.ofNat 32 cl.val = x2 (ix2 p 0) - BitVec.ofNat 32 (i 1).val * 512#32 then k2_pay5 x0 x1 (ix2 p cl)
    else Ideal.ofBits .f32 0x00000000#32) = _
  rw [Ideal.ofBits_zero_f32]

/-- The carried sum of exponentials at row p after a tile: what it held plus the tile's sum. -/
theorem pay1_apply (s6 : Vec Ideal S2048x1 .f32) (v33 : FVec Ideal S2048 .f32) (p : Fin 2048) :
    k2_pay1 s6 v33 (ix2 p 0) = s6 (ix2 p 0) + v33 (ix1 p) := by
  unfold k2_pay1
  rw [shapeCast_self]
  rw [addf_apply, col_cast_apply]

/-- A row block's first tile starts both carried columns from zero. -/
theorem pay3_apply (p : Fin 2048) : k2_pay3 (F := Ideal) (ix2 p 0) = 0 := by
  unfold k2_pay3
  rw [shapeCast_self]
  show Ideal.ofBits .f32 0x00000000#32 = 0
  exact Ideal.ofBits_zero_f32

theorem pay4_apply (p : Fin 2048) : k2_pay4 (F := Ideal) (ix2 p 0) = 0 := by
  unfold k2_pay4
  rw [shapeCast_self]
  show Ideal.ofBits .f32 0x00000000#32 = 0
  exact Ideal.ofBits_zero_f32

/-- The row's term from its target tg, its label word l and its sum of exponentials sm:
    30 (tg - margin) - log (exp (30 (tg - margin)) + (sm - exp (30 tg))). -/
def rowTerm (tg : EReal) (l : BitVec 32) (sm : EReal) : EReal :=
  Cert.Spec.c30 * (tg - Cert.Spec.margin l)
    - Ideal.log (Ideal.exp (Cert.Spec.c30 * (tg - Cert.Spec.margin l)) + (sm - Ideal.exp (Cert.Spec.c30 * tg)))

/-- The kernel's term of a row is that function of the row's target, label and sum. -/
theorem kterm_eq_rowTerm (xn : (⟨2, ![8192, 1024]⟩ : Shape).Idx → EReal) (wn : (⟨2, ![10240, 1024]⟩ : Shape).Idx → EReal)
    (l : BitVec 32) (r : Fin 8192) :
    Cert.Spec.kterm xn wn l r = rowTerm (Cert.Spec.ktarget xn wn l r) l (Cert.Spec.kfull xn wn r) := rfl

/-- The stored term at row p: the margin is 0.4 where the label, signed, is at most 5 and 0.1 otherwise. -/
theorem pay2_apply (tg : Vec Ideal S2048x1 .f32) (lab : Vec Ideal S2048x1 .i32) (sm : Vec Ideal S2048x1 .f32) (p : Fin 2048) :
    k2_pay2 tg lab sm (ix2 p 0) = rowTerm (tg (ix2 p 0)) (lab (ix2 p 0)) (sm (ix2 p 0)) := by
  unfold k2_pay2
  simp only [shapeCast_self]
  have hm : select (cmpi .sle lab (broadcast S2048x1 5#32)) (broadcast S2048x1 (Scalar.ofBits (F := Ideal) .f32 0x3ECCCCCD#32))
      (broadcast S2048x1 (Scalar.ofBits (F := Ideal) .f32 0x3DCCCCCD#32)) (ix2 p 0) = Cert.Spec.margin (lab (ix2 p 0)) := by
    rw [select_apply, cmpi, select_cmpi_sle]
    rfl
  unfold rowTerm
  rw [← hm]
  rfl

end Cert.KernelIdeal.Val

end
-- ==== Proof.Val.LossB.lean ====
/-
  The loss launch's two carried columns, point by point.

  The grid is 4 row blocks by 20 column blocks, the column axis innermost: point 20 i + k works on rows
  2048 i … 2048 i + 2047 of the first table and the labels, and on rows 512 k … 512 k + 511 of the second table (the
  columns of the cosine table). Each point adds its column block's part to a row's sum of exponentials and to its
  target; a row block's first point starts from zero. By induction on the point, after point 20 i + k the two columns
  at row p hold the parts of column blocks 0 … k of row 2048 i + p; after the 20th they hold the whole sums, and the
  block stored there is the rows' terms.
-/
import proofs.«411399_j4853313045243_3_alg».proof.Proof.KI.R2
import proofs.«411399_j4853313045243_3_alg».proof.Proof.Val.Spec
import proofs.«411399_j4853313045243_3_alg».proof.Proof.Val.LossA
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.SL.Sem
open Cert.KernelIdeal Cert.KernelIdeal.Gen Cert.KernelIdeal.Fr
open Idealize.ShloMosaic.Pipeline (Dat)

variable (V : (c : Dev nD) → (b : Ref sig .tc) → Buf (Elt Ideal) ((c : Thread nD τ).loc b))

/-! ## The blocks the launch reads at a point -/

/-- The index maps over the grid: at point t the row block is t / 20 and the column block t % 20. -/
theorem idx_facts : ∀ t : Fin cfg2.N,
    win2_0.index t (0 : Fin 2) = t.val / 20 ∧ win2_0.index t (1 : Fin 2) = 0
    ∧ win2_1.index t (0 : Fin 2) = t.val % 20 ∧ win2_1.index t (1 : Fin 2) = 0
    ∧ win2_2.index t (0 : Fin 2) = t.val / 20 ∧ win2_2.index t (1 : Fin 2) = 0
    ∧ win2_3.index t (0 : Fin 2) = t.val / 20 ∧ win2_3.index t (1 : Fin 2) = 0
    ∧ (grid2.coords t 1).val = t.val % 20 :=
  (by decide +kernel : ∀ t : Fin grid2.N, _)

/-- The left block at point t is rows 2048 (t / 20) … of the first table: its entry (p, kx) is the table's entry
    (r, kx) for the row r = 2048 (t / 20) + p. -/
theorem blk0_read (c : Dev nD) (t : Fin cfg2.N) (p : Fin 2048) (kx : Fin 1024) (r : Fin 8192)
    (hr : r.val = 2048 * (t.val / 20) + p.val) :
    (iblk2 (F := Ideal) V c 0 t : S2048x1024.Idx → EReal) (ix2 p kx) = (V c main_v0 : S8192x1024.Idx → EReal) (ix2 r kx) := by
  obtain ⟨e0, e1, -⟩ := idx_facts t
  unfold iblk2
  rw [View.read_apply]
  show (V c main_v0 : S8192x1024.Idx → EReal) _ = _
  refine congrArg _ (funext fun a => Fin.ext ?_)
  match a with
  | ⟨0, _⟩ => show win2_0.index t (0 : Fin 2) * 2048 + 1 * p.val = r.val; rw [e0, hr]; omega
  | ⟨1, _⟩ => show win2_0.index t (1 : Fin 2) * 1024 + 1 * kx.val = kx.val; rw [e1]; omega

/-- The right block at point t is rows 512 (t % 20) … of the second table. -/
theorem blk1_read (c : Dev nD) (t : Fin cfg2.N) (cl : Fin 512) (kx : Fin 1024) (j : Fin 10240)
    (hj : j.val = 512 * (t.val % 20) + cl.val) :
    (iblk2 (F := Ideal) V c 1 t : S512x1024.Idx → EReal) (ix2 cl kx) = (V c main_v1 : S10240x1024.Idx → EReal) (ix2 j kx) := by
  obtain ⟨-, -, e0, e1, -⟩ := idx_facts t
  unfold iblk2
  rw [View.read_apply]
  show (V c main_v1 : S10240x1024.Idx → EReal) _ = _
  refine congrArg _ (funext fun a => Fin.ext ?_)
  match a with
  | ⟨0, _⟩ => show win2_1.index t (0 : Fin 2) * 512 + 1 * cl.val = j.val; rw [e0, hj]; omega
  | ⟨1, _⟩ => show win2_1.index t (1 : Fin 2) * 1024 + 1 * kx.val = kx.val; rw [e1]; omega

/-- The labels' block at point t is rows 2048 (t / 20) … of the labels' column. -/
theorem blk2_read (c : Dev nD) (t : Fin cfg2.N) (p : Fin 2048) (r : Fin 8192)
    (hr : r.val = 2048 * (t.val / 20) + p.val) :
    (iblk2 (F := Ideal) V c 2 t : S2048x1.Idx → BitVec 32) (ix2 p 0) = (V c main_v2 : S8192x1.Idx → BitVec 32) (ix2 r 0) := by
  obtain ⟨-, -, -, -, e0, e1, -⟩ := idx_facts t
  unfold iblk2
  rw [View.read_apply]
  show (V c main_v2 : S8192x1.Idx → BitVec 32) _ = _
  refine congrArg _ (funext fun a => Fin.ext ?_)
  match a with
  | ⟨0, _⟩ => show win2_2.index t (0 : Fin 2) * 2048 + 1 * p.val = r.val; rw [e0, hr]; omega
  | ⟨1, _⟩ => show win2_2.index t (1 : Fin 2) * 1 + 1 * (0 : Fin 1).val = (0 : Fin 1).val; rw [e1]; rfl

/-! ## One column block's contributions to a row -/

/-- Row p of row block i. -/
def rowOf (i : Fin 4) (p : Fin 2048) : Fin 8192 := ⟨2048 * i.val + p.val, by have := i.isLt; have := p.isLt; omega⟩

/-- Column block kk's part of row r's sum of exponentials (zero past the 20 blocks). -/
def expBlk (xn : (⟨2, ![8192, 1024]⟩ : Shape).Idx → EReal) (wn : (⟨2, ![10240, 1024]⟩ : Shape).Idx → EReal)
    (r : Fin 8192) (kk : ℕ) : EReal :=
  if h : kk < 20 then ∑ cl : Fin 512, Ideal.exp (Cert.Spec.c30 * Cert.Spec.kcos xn wn r (Cert.Spec.tileCol ⟨kk, h⟩ cl)) else 0

/-- Column block kk's part of row r's target under the label word l (zero past the 20 blocks). -/
def tgtBlk (xn : (⟨2, ![8192, 1024]⟩ : Shape).Idx → EReal) (wn : (⟨2, ![10240, 1024]⟩ : Shape).Idx → EReal)
    (l : BitVec 32) (r : Fin 8192) (kk : ℕ) : EReal :=
  if h : kk < 20 then ∑ cl : Fin 512,
    (if BitVec.ofNat 32 cl.val = l - BitVec.ofNat 32 kk * 512#32 then Cert.Spec.kcos xn wn r (Cert.Spec.tileCol ⟨kk, h⟩ cl) else 0)
  else 0

/-- The kernel's sum of exponentials of a row is the sum of the 20 blocks' parts. -/
theorem kfull_blocks (xn : (⟨2, ![8192, 1024]⟩ : Shape).Idx → EReal) (wn : (⟨2, ![10240, 1024]⟩ : Shape).Idx → EReal) (r : Fin 8192) :
    Cert.Spec.kfull xn wn r = ∑ kk ∈ Finset.range 20, expBlk xn wn r kk := by
  rw [← Fin.sum_univ_eq_sum_range (fun kk => expBlk xn wn r kk) 20]
  unfold Cert.Spec.kfull
  refine Finset.sum_congr rfl fun kk _ => ?_
  unfold expBlk
  rw [dif_pos kk.isLt]

/-- The kernel's target of a row is the sum of the 20 blocks' parts. -/
theorem ktarget_blocks (xn : (⟨2, ![8192, 1024]⟩ : Shape).Idx → EReal) (wn : (⟨2, ![10240, 1024]⟩ : Shape).Idx → EReal)
    (l : BitVec 32) (r : Fin 8192) :
    Cert.Spec.ktarget xn wn l r = ∑ kk ∈ Finset.range 20, tgtBlk xn wn l r kk := by
  rw [← Fin.sum_univ_eq_sum_range (fun kk => tgtBlk xn wn l r kk) 20]
  unfold Cert.Spec.ktarget
  refine Finset.sum_congr rfl fun kk _ => ?_
  unfold tgtBlk
  rw [dif_pos kk.isLt]

/-- The cosine tile of point t = 20 i + k at (p, cl) is the clamped cosine of row 2048 i + p and column 512 k + cl. -/
theorem tile_read (c : Dev nD) (t : Fin cfg2.N) (i : Fin 4) (k : ℕ) (ht : t.val = 20 * i.val + k) (hk : k < 20)
    (p : Fin 2048) (cl : Fin 512) :
    k2_pay5 (F := Ideal) (iblk2 V c 0 t) (iblk2 V c 1 t) (ix2 p cl)
      = Cert.Spec.kcos (V c main_v0 : S8192x1024.Idx → EReal) (V c main_v1 : S10240x1024.Idx → EReal) (rowOf i p)
          (Cert.Spec.tileCol ⟨k, hk⟩ cl) := by
  rw [pay5_apply]
  unfold Cert.Spec.kcos
  refine congrArg (fun s => min Cert.Spec.one (max Cert.Spec.negOne s)) (Finset.sum_congr rfl fun kx _ => ?_)
  rw [blk0_read V c t p kx (rowOf i p) (by show 2048 * i.val + p.val = _; omega),
    blk1_read V c t cl kx (Cert.Spec.tileCol ⟨k, hk⟩ cl) (by show 512 * k + cl.val = _; omega)]

/-- One point's update of the carried pair at row p: each column adds the point's column block's part. -/
theorem step_read (c : Dev nD) (t : Fin cfg2.N) (i : Fin 4) (k : ℕ) (ht : t.val = 20 * i.val + k) (hk : k < 20)
    (s6 s7 : Vec Ideal S2048x1 .f32) (p : Fin 2048) :
    (step2 (F := Ideal) (grid2.coords t) (iblk2 V c 0 t) (iblk2 V c 1 t) (iblk2 V c 2 t) s6 s7).1 (ix2 p 0)
        = s6 (ix2 p 0) + expBlk (V c main_v0 : S8192x1024.Idx → EReal) (V c main_v1 : S10240x1024.Idx → EReal) (rowOf i p) k
    ∧ (step2 (F := Ideal) (grid2.coords t) (iblk2 V c 0 t) (iblk2 V c 1 t) (iblk2 V c 2 t) s6 s7).2 (ix2 p 0)
        = s7 (ix2 p 0) + tgtBlk (V c main_v0 : S8192x1024.Idx → EReal) (V c main_v1 : S10240x1024.Idx → EReal)
            ((V c main_v2 : S8192x1.Idx → BitVec 32) (ix2 (rowOf i p) 0)) (rowOf i p) k := by
  obtain ⟨-, -, -, -, -, -, -, -, e8⟩ := idx_facts t
  have hk' : t.val % 20 = k := by omega
  constructor
  · show k2_pay1 s6 (k2_pay7 (iblk2 V c 0 t) (iblk2 V c 1 t)) (ix2 p 0) = _
    rw [pay1_apply, pay7_apply]
    unfold expBlk
    rw [dif_pos hk]
    refine congrArg (s6 (ix2 p 0) + ·) (Finset.sum_congr rfl fun cl _ => ?_)
    rw [tile_read V c t i k ht hk p cl]
  · show k2_pay6 (grid2.coords t) (iblk2 V c 0 t) (iblk2 V c 1 t) (iblk2 V c 2 t) s7 (ix2 p 0) = _
    rw [pay6_apply]
    unfold tgtBlk
    rw [dif_pos hk, e8, hk', blk2_read V c t p (rowOf i p) (by show 2048 * i.val + p.val = _; omega)]
    refine congrArg (s7 (ix2 p 0) + ·) (Finset.sum_congr rfl fun cl _ => ?_)
    rw [tile_read V c t i k ht hk p cl]

/-! ## The carried pair after a point -/

/-- After the point 20 i + k the carried columns at row p hold the parts of column blocks 0 … k of row 2048 i + p. -/
theorem acc_inv (c : Dev nD) : ∀ (n : ℕ) (hn : n < cfg2.N) (i : Fin 4) (k : ℕ), n = 20 * i.val + k → k < 20 → ∀ p : Fin 2048,
    (accAt2 (F := Ideal) V c n hn).1 (ix2 p 0)
        = ∑ kk ∈ Finset.range (k + 1), expBlk (V c main_v0 : S8192x1024.Idx → EReal) (V c main_v1 : S10240x1024.Idx → EReal) (rowOf i p) kk
    ∧ (accAt2 (F := Ideal) V c n hn).2 (ix2 p 0)
        = ∑ kk ∈ Finset.range (k + 1), tgtBlk (V c main_v0 : S8192x1024.Idx → EReal) (V c main_v1 : S10240x1024.Idx → EReal)
            ((V c main_v2 : S8192x1.Idx → BitVec 32) (ix2 (rowOf i p) 0)) (rowOf i p) kk
  | 0, hn, i, k, h, hk, p => by
    have hk0 : k = 0 := by omega
    subst hk0
    obtain ⟨h1, h2⟩ := step_read V c ⟨0, hn⟩ i 0 h hk (k2_pay3 (F := Ideal)) (k2_pay4 (F := Ideal)) p
    rw [Finset.sum_range_one, Finset.sum_range_one, accAt2]
    exact ⟨h1.trans (by rw [pay3_apply, zero_add]), h2.trans (by rw [pay4_apply, zero_add])⟩
  | n + 1, hn, i, k, h, hk, p => by
    rw [accAt2]
    by_cases h0 : (n + 1) % 20 = 0
    · rw [if_pos h0]
      have hk0 : k = 0 := by omega
      subst hk0
      obtain ⟨h1, h2⟩ := step_read V c ⟨n + 1, hn⟩ i 0 h hk (k2_pay3 (F := Ideal)) (k2_pay4 (F := Ideal)) p
      rw [Finset.sum_range_one, Finset.sum_range_one]
      exact ⟨h1.trans (by rw [pay3_apply, zero_add]), h2.trans (by rw [pay4_apply, zero_add])⟩
    · rw [if_neg h0]
      obtain ⟨k', rfl⟩ : ∃ k', k = k' + 1 := ⟨k - 1, by omega⟩
      obtain ⟨ih1, ih2⟩ := acc_inv c n (Nat.lt_of_succ_lt hn) i k' (by omega) (by omega) p
      obtain ⟨h1, h2⟩ := step_read V c ⟨n + 1, hn⟩ i (k' + 1) h hk
        (accAt2 (F := Ideal) V c n (Nat.lt_of_succ_lt hn)).1 (accAt2 (F := Ideal) V c n (Nat.lt_of_succ_lt hn)).2 p
      rw [Finset.sum_range_succ _ (k' + 1), Finset.sum_range_succ _ (k' + 1)]
      exact ⟨h1.trans (by rw [ih1]), h2.trans (by rw [ih2])⟩

/-- At a row block's last column block the stored block holds the rows' terms. -/
theorem out_read (c : Dev nD) (t : Fin cfg2.N) (i : Fin 4) (ht : t.val = 20 * i.val + 19) (p : Fin 2048) :
    out2_3 (F := Ideal) V c t (ix2 p 0)
      = Cert.Spec.kterm (V c main_v0 : S8192x1024.Idx → EReal) (V c main_v1 : S10240x1024.Idx → EReal)
          ((V c main_v2 : S8192x1.Idx → BitVec 32) (ix2 (rowOf i p) 0)) (rowOf i p) := by
  obtain ⟨h1, h2⟩ := acc_inv V c t.val t.isLt i 19 ht (by omega) p
  unfold out2_3
  rw [pay2_apply, h1, h2, blk2_read V c t p (rowOf i p) (by show 2048 * i.val + p.val = _; omega), kterm_eq_rowTerm,
    kfull_blocks, ktarget_blocks]

end Cert.KernelIdeal.Val

end
-- ==== Proof.Val.Loss.lean ====
/-
  What the loss launch leaves in its output array, row by row: the row's loss term in the kernel's own arrangement
  (`Cert.Spec.kterm`) of the launch's three input arrays — the two normalised tables and the labels' column. A row block's
  20 column blocks add their 512 columns' contributions to the two carried columns in turn; the last one stores the term.

  Only the four points 20 i + 19 write the output window back, and what each writes is its block (rows 2048 i …
  2048 i + 2047) of ONE array, the rows' terms; those four blocks tile the 8192 rows, so the array ends holding the terms.
-/
import proofs.«411399_j4853313045243_3_alg».proof.Proof.KI.R2
import proofs.«411399_j4853313045243_3_alg».proof.Proof.Val.Spec
import proofs.«411399_j4853313045243_3_alg».proof.Proof.Val.LossA
import proofs.«411399_j4853313045243_3_alg».proof.Proof.Val.LossB
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.SL.Sem
open Cert.KernelIdeal Cert.KernelIdeal.Gen Cert.KernelIdeal.Fr
open Idealize.ShloMosaic.Pipeline (Dat)

variable (V : (c : Dev nD) → (b : Ref sig .tc) → Buf (Elt Ideal) ((c : Thread nD τ).loc b))

/-- Row r's term from the launch's three input arrays. -/
def rowG (c : Dev nD) (r : Fin 8192) : EReal :=
  Cert.Spec.kterm (V c main_v0 : S8192x1024.Idx → EReal) (V c main_v1 : S10240x1024.Idx → EReal)
    ((V c main_v2 : S8192x1.Idx → BitVec 32) (ix2 r 0)) r

/-- The output array as one function of the inputs: at every index of row r, row r's term. -/
def termArr (c : Dev nD) : Buf (Elt Ideal) ((c : Thread nD τ).loc main_v3) :=
  fun j : S8192x1.Idx => rowG V c ⟨(j 0).val, idx2_lt0 j⟩

theorem N_eq : cfg2.N = 80 := rfl

/-- What a storing point writes back is its block of that array: the point 20 i + 19 stores rows 2048 i … . -/
theorem flushed_eq (c : Dev nD) (t : Fin cfg2.N) (hf : (cfg2.win 3).flush t = true) :
    (dat2 (F := Ideal) V c).flushed 3 t = ((cfg2.win 3).blk t).view.read (Elt Ideal) (termArr V c) := by
  have h19 : t.val % 20 = 19 := (flush2_3 t).mp hf
  have hN : t.val < 80 := N_eq ▸ t.isLt
  obtain ⟨-, -, -, -, -, -, e6, e7, -⟩ := idx_facts t
  show (cfg2.win 3).cut (grid2.coords t) ((dat2 (F := Ideal) V c).after 3 t) = _
  rw [after2_3]
  funext y
  rw [View.read_apply]
  obtain ⟨p, q, rfl⟩ : ∃ (p : Fin 2048) (q : Fin 1), y = ix2 p q := ⟨y 0, y 1, eq_ix2 y⟩
  obtain rfl : q = 0 := Subsingleton.elim _ _
  show out2_3 (F := Ideal) V c t (ix2 p 0) = termArr V c (((cfg2.win 3).blk t).view.emb (ix2 p 0))
  rw [out_read V c t ⟨t.val / 20, by omega⟩ (by show t.val = 20 * (t.val / 20) + 19; omega) p]
  show rowG V c _ = rowG V c _
  refine congrArg (rowG V c) (Fin.ext ?_)
  show 2048 * (t.val / 20) + p.val = win2_3.index t (0 : Fin 2) * 2048 + 1 * p.val
  rw [e6]; omega

/-- An index of the array lies in point t's block when each coordinate is in the block's range on its axis. -/
theorem mem_out_blk (t : Fin cfg2.N) (j : S8192x1.Idx) :
    j ∈ ((cfg2.win 3).blk t).view.set
      ↔ ∀ a : Fin 2, win2_3.index t a * S2048x1.size a ≤ (j a).val ∧ (j a).val < win2_3.index t a * S2048x1.size a + S2048x1.size a := by
  show j ∈ ((View.whole main_v3).slice (win2_3.rect t)).set ↔ _
  rw [View.set_slice_whole, Rect.mem_set_unit]
  exact Iff.rfl

/-- The four storing points' blocks tile the 8192 rows: row r lies in the block of point 20 (r / 2048) + 19. -/
theorem cover (j : S8192x1.Idx) : ∃ t : Fin cfg2.N, (cfg2.win 3).flush t = true ∧ j ∈ ((cfg2.win 3).blk t).view.set := by
  have h0 : (j 0).val < 8192 := idx2_lt0 j
  have h1 : (j 1).val < 1 := idx2_lt1 j
  have hlt : 20 * ((j 0).val / 2048) + 19 < cfg2.N := by rw [N_eq]; omega
  refine ⟨⟨20 * ((j 0).val / 2048) + 19, hlt⟩, (flush2_3 _).mpr (by show (20 * ((j 0).val / 2048) + 19) % 20 = 19; omega), ?_⟩
  obtain ⟨-, -, -, -, -, -, e6, e7, -⟩ := idx_facts ⟨20 * ((j 0).val / 2048) + 19, hlt⟩
  rw [mem_out_blk]
  intro a
  match a with
  | ⟨0, _⟩ =>
    show win2_3.index ⟨20 * ((j 0).val / 2048) + 19, hlt⟩ (0 : Fin 2) * 2048 ≤ (j 0).val
      ∧ (j 0).val < win2_3.index ⟨20 * ((j 0).val / 2048) + 19, hlt⟩ (0 : Fin 2) * 2048 + 2048
    rw [e6]
    show (20 * ((j 0).val / 2048) + 19) / 20 * 2048 ≤ (j 0).val ∧ (j 0).val < (20 * ((j 0).val / 2048) + 19) / 20 * 2048 + 2048
    omega
  | ⟨1, _⟩ =>
    show win2_3.index ⟨20 * ((j 0).val / 2048) + 19, hlt⟩ (1 : Fin 2) * 1 ≤ (j 1).val
      ∧ (j 1).val < win2_3.index ⟨20 * ((j 0).val / 2048) + 19, hlt⟩ (1 : Fin 2) * 1 + 1
    rw [e7]
    omega

/-- The loss launch's output array after the launch, at row `r`. -/
theorem term_apply (c : Dev nD) (r : Fin 8192) :
    ((dat2 (F := Ideal) V c).arrAt 3 cfg2.N : S8192x1.Idx → EReal) (ix2 r 0)
      = Cert.Spec.kterm (V c main_v0 : S8192x1024.Idx → EReal) (V c main_v1 : S10240x1024.Idx → EReal)
          ((V c main_v2 : S8192x1.Idx → BitVec 32) (ix2 r 0)) r := by
  exact congrFun ((dat2 (F := Ideal) V c).arrAt_eq_of_cover 3 (termArr V c) (flushed_eq V c) cover) (ix2 r 0)

end Cert.KernelIdeal.Val

end
-- ==== Proof.Val.Alg.lean ====
/-
  The two arrangements of the loss are one function, for finite inputs and labels in range.
  (1) The clamp: `epsSq = epsN · epsN`, and for a row of reals with squared norm s ≥ 0,
      x · rsqrt (max s ε²) = x / max (√s) ε   (√ is monotone, √(ε²) = ε > 0, and a product with a positive real's inverse is
      the quotient by it).
  (2) The target: summed block by block, the cosine at the one column whose number is the label and zero elsewhere is the
      cosine at the label's column (a label in range names exactly one (block, column) pair; 32-bit words do not wrap
      below 10240).
  (3) The sum of exponentials block by block is the sum over all 10240 columns (20 blocks of 512 tile them).
-/
import proofs.«411399_j4853313045243_3_alg».proof.Proof.Val.Spec
import Idealize.ShloMosaic.PureOps.Ideal.Laws
import Idealize.ShloMosaic.Lib.ValueIdx
import Mathlib.Data.EReal.Inv
import Mathlib.Analysis.Real.Sqrt
import Mathlib.Algebra.BigOperators.Fin

set_option maxRecDepth 16384

noncomputable section

open scoped BigOperators

namespace Cert.Alg

open Idealize.ShloMosaic Idealize.ShloMosaic.TcCoe Idealize.ShloMosaic.ValueIdx Idealize.SL.Sem
open Cert.Spec

/-! ## The clamp constant -/

/-- The word 0x2B8CBCCC: exponent field 87, fraction field 834764, so (2^23 + 834764) · 2^(87 - 127 - 23)
    = 9223372 / 2^63 = 2305843 / 2^61. -/
theorem epsN_eq : epsN = ((2305843 / 2 ^ 61 : ℝ) : EReal) := by
  unfold epsN
  simp [Ideal.ofBits, Ideal.ieee, -EReal.coe_mul]
  norm_num

/-- The kernel's clamp is the square of the reference's. -/
theorem epsSq_eq : epsSq = epsN * epsN := by
  rw [epsN_eq, ← EReal.coe_mul]
  unfold epsSq
  congr 1
  norm_num

/-! ## Sums of reals inside the extended reals -/

/-- A finite sum of reals, taken in the extended reals, is the real sum. -/
theorem coe_finsum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The embedding of the reals keeps the larger of two. -/
theorem coe_max' (a b : ℝ) : max (a : EReal) (b : EReal) = ((max a b : ℝ) : EReal) :=
  (EReal.coe_strictMono.monotone.map_max (a := a) (b := b)).symm

/-! ## The two normalisations -/

/-- For s ≥ 0 and e > 0: the reciprocal root of the clamped square is the reciprocal of the clamped root,
    because √ is monotone and √(e·e) = e. -/
theorem inv_sqrt_clamp (s e : ℝ) (hs : 0 ≤ s) (he : 0 < e) :
    (Real.sqrt (max s (e * e)))⁻¹ = 1 / max (Real.sqrt s) e := by
  have hmono : Monotone Real.sqrt := fun _ _ h => Real.sqrt_le_sqrt h
  rw [hmono.map_max, Real.sqrt_mul_self he.le, one_div]

/-- The sum of the squares of a row of reals is a real, and is not negative. -/
theorem ssq_coe {n : Nat} (a : (⟨2, ![n, 1024]⟩ : Shape).Idx → EReal) (r : Fin n) (v : Fin 1024 → ℝ)
    (hv : ∀ k' : Fin 1024, a (ix2 r k') = (v k' : EReal)) :
    ssq a r = ((∑ k' : Fin 1024, v k' * v k' : ℝ) : EReal) := by
  unfold ssq
  rw [← coe_finsum]
  refine Finset.sum_congr rfl (fun k' _ => ?_)
  rw [hv k', EReal.coe_mul]

/-- On a row of reals the two normalisations agree. -/
theorem knrm_eq_nrm {n : Nat} (a : (⟨2, ![n, 1024]⟩ : Shape).Idx → EReal) (r : Fin n) (k : Fin 1024)
    (hfin : ∀ k' : Fin 1024, ∃ v : ℝ, a (ix2 r k') = (v : EReal)) : knrm a r k = nrm a r k := by
  choose v hv using hfin
  -- the row's squared norm s, a real ≥ 0; the clamp e > 0
  have hs : (0 : ℝ) ≤ ∑ k' : Fin 1024, v k' * v k' :=
    Finset.sum_nonneg (fun k' _ => mul_self_nonneg (v k'))
  have he : (0 : ℝ) < 2305843 / 2 ^ 61 := by positivity
  have hee : (0 : ℝ) < 2305843 / 2 ^ 61 * (2305843 / 2 ^ 61) := mul_pos he he
  have hmax : (0 : ℝ) < max (∑ k' : Fin 1024, v k' * v k') (2305843 / 2 ^ 61 * (2305843 / 2 ^ 61)) :=
    lt_max_of_lt_right hee
  have hmax' : (max (Real.sqrt (∑ k' : Fin 1024, v k' * v k')) (2305843 / 2 ^ 61) : ℝ) ≠ 0 :=
    (lt_max_of_lt_right he).ne'
  unfold knrm nrm
  rw [ssq_coe a r v hv, epsSq_eq, epsN_eq, ← EReal.coe_mul, coe_max', Ideal.rsqrt_coe,
    if_neg (not_lt.mpr hmax.le), if_neg hmax.ne', Ideal.sqrt_coe, if_neg (not_lt.mpr hs), coe_max',
    Ideal.div_coe hmax', inv_sqrt_clamp _ _ hs he]

/-! ## The column blocks -/

/-- Twenty blocks of 512 columns tile the 10240 columns: each column is column `j % 512` of block `j / 512` and of no
    other pair. -/
theorem tileCol_bijective : Function.Bijective (fun p : Fin 20 × Fin 512 => tileCol p.1 p.2) := by
  constructor
  · rintro ⟨a, b⟩ ⟨c, d⟩ h
    have h' : 512 * a.val + b.val = 512 * c.val + d.val := congrArg Fin.val h
    have hb := b.isLt
    have hd := d.isLt
    have h1 : a.val = c.val := by omega
    have h2 : b.val = d.val := by omega
    exact Prod.ext (Fin.ext h1) (Fin.ext h2)
  · intro j
    have hj := j.isLt
    refine ⟨(⟨j.val / 512, by omega⟩, ⟨j.val % 512, Nat.mod_lt _ (by norm_num)⟩), ?_⟩
    apply Fin.ext
    show 512 * (j.val / 512) + j.val % 512 = j.val
    exact Nat.div_add_mod j.val 512

/-- A sum taken block by block, column by column inside the block, is the sum over all columns. -/
theorem sum_tiles (f : Fin 10240 → EReal) :
    (∑ kk : Fin 20, ∑ cl : Fin 512, f (tileCol kk cl)) = ∑ j : Fin 10240, f j := by
  rw [← Fintype.sum_prod_type']
  exact Fintype.sum_bijective _ tileCol_bijective _ _ (fun _ => rfl)

/-- For a label below 10240, column `cl` of block `kk` passes the kernel's 32-bit test exactly when it is the label's
    column: 512·kk ≤ 9728 and the label are far below 2^32, so the subtraction wraps only when the label lies below the
    block, and then the difference is at least 2^32 - 9728 > 511. -/
theorem label_test_iff (l : BitVec 32) (hl : l.toNat < 10240) (kk : Fin 20) (cl : Fin 512) :
    BitVec.ofNat 32 cl.val = l - BitVec.ofNat 32 kk.val * 512#32 ↔ tileCol kk cl = col l hl := by
  have hk := kk.isLt
  have hc := cl.isLt
  rw [← BitVec.toNat_inj, BitVec.toNat_sub, BitVec.toNat_mul, BitVec.toNat_ofNat, BitVec.toNat_ofNat,
    BitVec.toNat_ofNat]
  constructor
  · intro h
    apply Fin.ext
    show 512 * kk.val + cl.val = l.toNat
    omega
  · intro h
    have h' : 512 * kk.val + cl.val = l.toNat := congrArg Fin.val h
    omega

/-! ## The row term -/

/-- From the normalised tables the kernel's clamped cosine is the reference's. -/
theorem kcos_eq_cosv (x : (⟨2, ![8192, 1024]⟩ : Shape).Idx → EReal) (w : (⟨2, ![10240, 1024]⟩ : Shape).Idx → EReal)
    (hx : ∀ j, ∃ v : ℝ, x j = (v : EReal)) (hw : ∀ j, ∃ v : ℝ, w j = (v : EReal))
    (xn : (⟨2, ![8192, 1024]⟩ : Shape).Idx → EReal) (wn : (⟨2, ![10240, 1024]⟩ : Shape).Idx → EReal)
    (hxn : ∀ r k, xn (ix2 r k) = knrm x r k) (hwn : ∀ r k, wn (ix2 r k) = knrm w r k)
    (r : Fin 8192) (j : Fin 10240) : kcos xn wn r j = cosv x w r j := by
  unfold kcos cosv
  congr 2
  refine Finset.sum_congr rfl (fun k _ => ?_)
  rw [hxn r k, hwn j k, knrm_eq_nrm x r k (fun k' => hx _), knrm_eq_nrm w j k (fun k' => hw _)]

/-- The kernel's target is the cosine at the label's column: every other (block, column) pair adds zero. -/
theorem ktarget_eq (x : (⟨2, ![8192, 1024]⟩ : Shape).Idx → EReal) (w : (⟨2, ![10240, 1024]⟩ : Shape).Idx → EReal)
    (hx : ∀ j, ∃ v : ℝ, x j = (v : EReal)) (hw : ∀ j, ∃ v : ℝ, w j = (v : EReal))
    (xn : (⟨2, ![8192, 1024]⟩ : Shape).Idx → EReal) (wn : (⟨2, ![10240, 1024]⟩ : Shape).Idx → EReal)
    (hxn : ∀ r k, xn (ix2 r k) = knrm x r k) (hwn : ∀ r k, wn (ix2 r k) = knrm w r k)
    (l : BitVec 32) (hl : l.toNat < 10240) (r : Fin 8192) :
    ktarget xn wn l r = cosv x w r (col l hl) := by
  unfold ktarget
  have hstep : ∀ (kk : Fin 20) (cl : Fin 512),
      (if BitVec.ofNat 32 cl.val = l - BitVec.ofNat 32 kk.val * 512#32 then kcos xn wn r (tileCol kk cl) else 0)
        = (fun j : Fin 10240 => if j = col l hl then cosv x w r j else 0) (tileCol kk cl) := by
    intro kk cl
    show _ = if tileCol kk cl = col l hl then cosv x w r (tileCol kk cl) else 0
    rw [kcos_eq_cosv x w hx hw xn wn hxn hwn]
    exact if_congr (label_test_iff l hl kk cl) rfl rfl
  calc (∑ kk : Fin 20, ∑ cl : Fin 512,
          if BitVec.ofNat 32 cl.val = l - BitVec.ofNat 32 kk.val * 512#32 then kcos xn wn r (tileCol kk cl) else 0)
      = ∑ kk : Fin 20, ∑ cl : Fin 512,
          (fun j : Fin 10240 => if j = col l hl then cosv x w r j else 0) (tileCol kk cl) :=
        Finset.sum_congr rfl (fun kk _ => Finset.sum_congr rfl (fun cl _ => hstep kk cl))
    _ = ∑ j : Fin 10240, if j = col l hl then cosv x w r j else 0 :=
        sum_tiles (fun j : Fin 10240 => if j = col l hl then cosv x w r j else 0)
    _ = cosv x w r (col l hl) := by
        rw [Finset.sum_ite_eq' Finset.univ (col l hl), if_pos (Finset.mem_univ _)]

/-- The kernel's sum of exponentials is the sum over all columns. -/
theorem kfull_eq (x : (⟨2, ![8192, 1024]⟩ : Shape).Idx → EReal) (w : (⟨2, ![10240, 1024]⟩ : Shape).Idx → EReal)
    (hx : ∀ j, ∃ v : ℝ, x j = (v : EReal)) (hw : ∀ j, ∃ v : ℝ, w j = (v : EReal))
    (xn : (⟨2, ![8192, 1024]⟩ : Shape).Idx → EReal) (wn : (⟨2, ![10240, 1024]⟩ : Shape).Idx → EReal)
    (hxn : ∀ r k, xn (ix2 r k) = knrm x r k) (hwn : ∀ r k, wn (ix2 r k) = knrm w r k) (r : Fin 8192) :
    kfull xn wn r = ∑ j : Fin 10240, Ideal.exp (c30 * cosv x w r j) := by
  unfold kfull
  rw [← sum_tiles (fun j => Ideal.exp (c30 * cosv x w r j))]
  refine Finset.sum_congr rfl (fun kk _ => Finset.sum_congr rfl (fun cl _ => ?_))
  rw [kcos_eq_cosv x w hx hw xn wn hxn hwn]

/-- The kernel's row term from the normalised tables is the reference's, for finite inputs and a label in range. -/
theorem kterm_eq_term (x : (⟨2, ![8192, 1024]⟩ : Shape).Idx → EReal) (w : (⟨2, ![10240, 1024]⟩ : Shape).Idx → EReal)
    (hx : ∀ j, ∃ v : ℝ, x j = (v : EReal)) (hw : ∀ j, ∃ v : ℝ, w j = (v : EReal))
    (xn : (⟨2, ![8192, 1024]⟩ : Shape).Idx → EReal) (wn : (⟨2, ![10240, 1024]⟩ : Shape).Idx → EReal)
    (hxn : ∀ r k, xn (ix2 r k) = knrm x r k) (hwn : ∀ r k, wn (ix2 r k) = knrm w r k)
    (l : BitVec 32) (hl : l.toNat < 10240) (r : Fin 8192) :
    kterm xn wn l r = term x w r (col l hl) l := by
  unfold kterm term
  rw [ktarget_eq x w hx hw xn wn hxn hwn l hl r, kfull_eq x w hx hw xn wn hxn hwn r]

end Cert.Alg

end
-- ==== Proof.Val.Tail.lean ====
/-
  The host operations after the last launch, as one function of the launch's output column: the column reshaped to a
  vector, summed from zero, divided by 8192 and negated — minus the mean of the 8192 row terms (`Cert.Spec.kloss`).

  The reshape keeps row-major positions: position r of the vector is position r · 1 + 0 of the [8192, 1] column, so the
  vector's entry r is the column's entry (r, 0). The sum to a scalar is the initial value (the word 0x00000000) plus the
  sum over every index of the vector; an index of a rank-1 array is its one coordinate, so that sum is the sum over
  r : Fin 8192 of the column's entries (r, 0). Dividing by the word 0x46000000 and negating are the extended reals'
  `Ideal.div` and `-`, and the two words stay the patterns they are printed as.
-/
import proofs.«411399_j4853313045243_3_alg».proof.KernelIdeal
import proofs.«411399_j4853313045243_3_alg».proof.Proof.Gen.KernelIdeal
import proofs.«411399_j4853313045243_3_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.SL.Sem
open Cert.KernelIdeal Cert.KernelIdeal.Gen

/-- An index of a vector is its one coordinate: `ix1` is a bijection from the coordinates onto the indices. -/
theorem ix1_bijective (n : Nat) : Function.Bijective (ix1 : Fin n → (⟨1, ![n]⟩ : Shape).Idx) :=
  ⟨fun a b e => congrFun e 0, fun j => ⟨j 0, (eq_ix1 j).symm⟩⟩

/-- A sum over the indices of a vector is the sum over its coordinates. -/
theorem sum_idx1 (n : Nat) (f : (⟨1, ![n]⟩ : Shape).Idx → EReal) : ∑ j, f j = ∑ r : Fin n, f (ix1 r) :=
  ((ix1_bijective n).sum_comp f).symm

/-- The tail's operations applied to a column `y` of 8192 terms, at the scalar's one index. -/
theorem tail_apply [Cert.KernelIdeal.Facts] (y : FVec Ideal S8192x1 .f32) :
    (Host.negf (F := Ideal) (Host.divf (F := Ideal)
        (Host.reduceAdd (F := Ideal) (shapeCast S8192 y Facts₀.shapeCasts_S8192x1_S8192) (constant (F := Ideal) S_ .f32 0x00000000#32)
          Facts₀.reducesTo_S8192_S_d0 Facts₀.h_S_)
        (constant (F := Ideal) S_ .f32 0x46000000#32))) ix0
      = Cert.Spec.kloss (fun r : Fin 8192 => y (ix2 r 0)) := by
  -- the reshaped vector at r is the column at (r, 0): the two row-major positions are r and r · 1 + 0
  have hcast : ∀ r : Fin 8192, shapeCast S8192 y Facts₀.shapeCasts_S8192x1_S8192 (ix1 r) = y (ix2 r 0) := fun r =>
    shapeCast_apply y Facts₀.shapeCasts_S8192x1_S8192 (ix1 r) (ix2 r 0) (by
      rw [Shape.rowMajor_val_two, Shape.rowMajor_val_one]
      show r.val * 1 + 0 = r.val
      omega)
  -- the sum to a scalar: the zero word plus the sum of the column's 8192 entries
  have hsum : Host.reduceAdd (F := Ideal) (shapeCast S8192 y Facts₀.shapeCasts_S8192x1_S8192)
        (constant (F := Ideal) S_ .f32 0x00000000#32) Facts₀.reducesTo_S8192_S_d0 Facts₀.h_S_ ix0
      = Cert.Spec.zero + ∑ r : Fin 8192, y (ix2 r 0) := by
    have hv : ∀ v : FVec Ideal S8192 .f32, Host.reduceAdd (F := Ideal) v
          (constant (F := Ideal) S_ .f32 0x00000000#32) Facts₀.reducesTo_S8192_S_d0 Facts₀.h_S_ ix0
        = Cert.Spec.zero + ∑ r : Fin 8192, v (ix1 r) := by
      intro v
      simp only [Host.reduceAdd, Ideal.hostReduceAdd_def]
      rw [Ideal.hostReduceAdd_total Facts₀.reducesTo_S8192_S_d0 (fun b => b.elim0) v _ ix0, sum_idx1 8192 v]
      rfl
    rw [hv]
    exact congrArg (fun s => Cert.Spec.zero + s) (Finset.sum_congr rfl fun r _ => hcast r)
  -- the division and the negation, entry by entry; the divisor is the word 0x46000000
  show -(Ideal.div (Host.reduceAdd (F := Ideal) (shapeCast S8192 y Facts₀.shapeCasts_S8192x1_S8192)
        (constant (F := Ideal) S_ .f32 0x00000000#32) Facts₀.reducesTo_S8192_S_d0 Facts₀.h_S_ ix0)
      (Ideal.ofBits .f32 0x46000000#32)) = _
  rw [hsum]
  rfl

end Cert.KernelIdeal.Val

end
-- ==== Proof.Val.Kernel.lean ====
/-
  The kernel's result as a function of the argument arrays. The last boundary's contents at the result buffer are the
  host tail of the loss launch's output column; that column's rows are the kernel's row terms of the two normalised
  tables and the labels' column; the tables are what the two normalising launches left, entry by entry the kernel's
  normalisation of the first and third arguments; the labels' column is the second argument reshaped. For finite inputs
  and labels in range each row term is the reference's, so the result is `Cert.Spec.loss` of the arguments.
-/
import proofs.«411399_j4853313045243_3_alg».proof.Proof.KI.Run
import proofs.«411399_j4853313045243_3_alg».proof.Proof.Val.Norm
import proofs.«411399_j4853313045243_3_alg».proof.Proof.Val.Loss
import proofs.«411399_j4853313045243_3_alg».proof.Proof.Val.Alg
import proofs.«411399_j4853313045243_3_alg».proof.Proof.Val.Tail
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.Val

open Idealize.ShloMosaic Idealize.ShloMosaic.TcCoe Idealize.ShloMosaic.ValueIdx Idealize.SL.Sem
open Cert.KernelIdeal Cert.KernelIdeal.Gen Cert.KernelIdeal.Fr
open Idealize.ShloMosaic.Pipeline (Dat)

variable (m : (ℓ : Loc nD τ sig) → Buf (Elt Ideal) ℓ)

/-! ## The launches' input arrays at their entries, walked back through the boundaries -/

/-- The loss launch finds launch 0's output in `main_v0`: neither launch 1 nor the reshape writes it. -/
theorem V3_main_v0 (c : Dev nD) : V3 m c main_v0 = (dat0 (F := Ideal) (V0 m) c).arrAt 1 cfg0.N := by
  have h : V3 m c main_v0 = W2 m c (Proc.devRef .tc main_v0) := by
    show StableHlo.after hostOps2 (W2 m c) (Proc.devRef .tc main_v0) = _
    after_results
  exact h.trans ((W2_of_ne m c main_v0 (by decide)).trans (W1_arr m c 1))

/-- It finds launch 1's output in `main_v1`. -/
theorem V3_main_v1 (c : Dev nD) : V3 m c main_v1 = (dat1 (F := Ideal) (V1 m) c).arrAt 1 cfg1.N := by
  have h : V3 m c main_v1 = W2 m c (Proc.devRef .tc main_v1) := by
    show StableHlo.after hostOps2 (W2 m c) (Proc.devRef .tc main_v1) = _
    after_results
  exact h.trans (W2_arr m c 1)

/-- Launch 1 finds the third argument as launched. -/
theorem V1_main_arg2 (c : Dev nD) : V1 m c main_arg2 = m ((c : Thread nD τ).loc main_arg2) :=
  W1_of_ne m c main_arg2 (by decide)

/-- The labels reach the reshape as launched. -/
theorem W2_main_arg1 (c : Dev nD) : W2 m c (Proc.devRef .tc main_arg1) = m ((c : Thread nD τ).loc main_arg1) :=
  (W2_of_ne m c main_arg1 (by decide)).trans (W1_of_ne m c main_arg1 (by decide))

/-- The loss launch finds the labels' column: the second argument reshaped. -/
theorem V3_main_v2 (c : Dev nD) :
    V3 m c main_v2 = shapeCast S8192x1 (m ((c : Thread nD τ).loc main_arg1)) Facts₀.shapeCasts_S8192_S8192x1 := by
  have h : V3 m c main_v2 = shapeCast S8192x1 (W2 m c (Proc.devRef .tc main_arg1)) Facts₀.shapeCasts_S8192_S8192x1 := by
    show StableHlo.after hostOps2 (W2 m c) (Proc.devRef .tc main_v2) = _
    after_results
    rfl
  rw [h, W2_main_arg1]

/-- The result buffer at the end: the host tail of the loss launch's output column. -/
theorem W5_main_v7 (c : Dev nD) :
    W5 m c (Proc.devRef .tc main_v7)
      = Host.negf (F := Ideal) (Host.divf (F := Ideal)
          (Host.reduceAdd (F := Ideal) (shapeCast S8192 (W4 m c (Proc.devRef .tc main_v3)) Facts₀.shapeCasts_S8192x1_S8192)
            (constant (F := Ideal) S_ .f32 0x00000000#32) Facts₀.reducesTo_S8192_S_d0 Facts₀.h_S_)
          (constant (F := Ideal) S_ .f32 0x46000000#32)) := by
  show StableHlo.after hostOps3 (W4 m c) (Proc.devRef .tc main_v7) = _
  after_results
  rfl

/-- The labels' column at row `r` is the second argument at `r`. -/
theorem labels_col (c : Dev nD) (r : Fin 8192) :
    (V3 m c main_v2 : S8192x1.Idx → BitVec 32) (ix2 r 0)
      = (m ((c : Thread nD τ).loc main_arg1) : S8192.Idx → BitVec 32) (ix1 r) := by
  rw [V3_main_v2]
  refine shapeCast_apply _ _ (ix2 r 0) (ix1 r) ?_
  rw [Shape.rowMajor_val_one, Shape.rowMajor_val_two]
  show r.val = r.val * 1 + 0
  omega

/-! ## The result -/

/-- For finite inputs and labels in range the kernel's result buffer ends at the specification of the arguments. -/
theorem kernel_value (c : Dev nD)
    (hx : ∀ j, ∃ v : ℝ, (m ((c : Thread nD τ).loc main_arg0) : S8192x1024.Idx → EReal) j = (v : EReal))
    (hw : ∀ j, ∃ v : ℝ, (m ((c : Thread nD τ).loc main_arg2) : S10240x1024.Idx → EReal) j = (v : EReal))
    (hlab : ∀ r : Fin 8192, ((m ((c : Thread nD τ).loc main_arg1) : S8192.Idx → BitVec 32) (ix1 r)).toNat < 10240) :
    W5 m c (Proc.devRef .tc main_v7)
      = fun _ => Cert.Spec.loss (m ((c : Thread nD τ).loc main_arg0)) (m ((c : Thread nD τ).loc main_arg1))
          (m ((c : Thread nD τ).loc main_arg2)) hlab := by
  funext i
  rw [eq_ix0 i, W5_main_v7, tail_apply]
  unfold Cert.Spec.loss Cert.Spec.kloss
  refine congrArg (fun s : EReal => - Ideal.div (Cert.Spec.zero + s) Cert.Spec.c8192) (Finset.sum_congr rfl fun r _ => ?_)
  have h3 : W4 m c (Proc.devRef .tc main_v3) = (dat2 (F := Ideal) (V3 m) c).arrAt 3 cfg2.N := W4_arr m c 3
  rw [h3]
  refine (term_apply (V3 m) c r).trans ?_
  rw [labels_col m c r]
  exact Cert.Alg.kterm_eq_term _ _ hx hw _ _
    (fun r' k => by rw [V3_main_v0]; exact xn_apply (V0 m) c r' k)
    (fun r' k => by rw [V3_main_v1, wn_apply (V1 m) c r' k, V1_main_arg2])
    _ (hlab r) r

end Cert.KernelIdeal.Val

end
-- ==== Proof.Val.Ref.lean ====
/-
  The reference's result, read off its run one operation at a time, is `Cert.Spec.loss` of the argument arrays: the
  rows divided by their clamped norms, the product of the tables clamped to [-1, 1], the table's entry at the label's
  column (the labels being in range, the gather reads inside the table and the fill for an index out of range is never
  selected), the margins, the row terms and minus their mean.

  Two operations are read here from their definitions. The reduce by `and` over the index vector's axis, of size one,
  from the bit 1: every bit of its operand is 1 when the labels are in range, so it is 1. The gather with one batching
  axis (the rows) and one collapsed, indexed axis (the columns): at result `(r, 0)` it reads row `r` of the table at
  the start index of row `r`, read as a signed word and clamped to the columns, which for a label in range is the label.
-/
import proofs.«411399_j4853313045243_3_alg».proof.Proof.RefReadP
import proofs.«411399_j4853313045243_3_alg».proof.Proof.Val.Spec
import Idealize.ShloMosaic.Lib.Pipeline.Value
import Idealize.ShloMosaic.Lib.ValueIdx
import Idealize.ShloMosaic.Lib.ValueIdxRank1
import Idealize.ShloMosaic.Lib.ValueLayout
import Idealize.ShloMosaic.Lib.StableHlo.Predicate
import Idealize.ShloMosaic.PureOps.Ideal.Laws

set_option maxRecDepth 16384

noncomputable section

open scoped BigOperators

namespace Cert.RefVal

open Idealize.ShloMosaic Idealize.ShloMosaic.TcCoe Idealize.ShloMosaic.ValueIdx Idealize.SL.Sem
open Idealize.ShloMosaic.StableHlo.Predicate
open Cert.ReferenceIdeal Cert.ReferenceIdeal.Gen Cert.ReferenceIdeal.ReadP

/-! ## Label words below 10240 -/

section Words
variable {l : BitVec 32}

/-- Such a word is not negative as a signed word. -/
theorem slt_zero_of_lt (h : l.toNat < 10240) : IntOp.cmpi .slt l 0#32 = 0#1 :=
  eq_zero_of_ne_one fun e => by
    have := (slt_iff_toNat (a := l) (b := 0#32) (by omega) (by decide)).mp e
    have h0 : (0#32 : BitVec 32).toNat = 0 := by decide
    omega

/-- It is at least zero … -/
theorem sge_zero_of_lt (h : l.toNat < 10240) : IntOp.cmpi .sge l 0#32 = 1#1 :=
  (sge_iff_toNat (a := l) (b := 0#32) (by omega) (by decide)).mpr (by
    have h0 : (0#32 : BitVec 32).toNat = 0 := by decide
    omega)

/-- … and at most the last column. -/
theorem sle_last_of_lt (h : l.toNat < 10240) : IntOp.cmpi .sle l 10239#32 = 1#1 :=
  (sle_iff_toNat (a := l) (b := 10239#32) (by omega) (by decide)).mpr (by
    have h0 : (10239#32 : BitVec 32).toNat = 10239 := by decide
    omega)

/-- Read signed and clamped to the table's columns it is itself. -/
theorem clamp_of_lt (h : l.toNat < 10240) : min l.toInt.toNat (10240 - 1) = l.toNat := by
  rw [toInt_eq_toNat_of_lt (a := l) (by omega), Int.toNat_natCast]
  exact Nat.min_eq_left (by omega)

end Words

/-- A select on a signed comparison's bit is the `if` on the comparison. -/
theorem select_sle {α : Type} (l c : BitVec 32) (a b : α) :
    Scalar.select (IntOp.cmpi .sle l c) a b = if l.sle c then a else b := by
  show Scalar.select (BitVec.ofBool (l.sle c)) a b = _
  cases l.sle c <;> rfl

/-! ## A reduce by `and` over all-ones -/

/-- A `stablehlo.reduce` by `and` from the bit 1 over an operand whose every bit is 1 is 1 everywhere. -/
theorem reduce_andi_of_all {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl, hi]
  generalize (((List.finRange s.numel).map s.rowMajor.symm).filter fun i => h.drop i = j) = L
  induction L with
  | nil => rfl
  | cons a L ih =>
    rw [List.foldl_cons, hx a]
    exact ih

/-! ## The gather of one entry per row -/

section RowGather
variable {α : Type}

/-- The dimension numbers of `take_along_axis` along axis 1 with one index per row: operand `[R, C]`, start indices
    `[R, 1, 1]`, result `[R, 1]`; axis 0 is a batching axis on both, axis 1 is collapsed and indexed. -/
abbrev rowDims (R C : Nat) (wf : GatherDims.WF ⟨2, ![R, C]⟩ ⟨3, ![R, 1, 1]⟩ ⟨2, ![R, 1]⟩ [] [1] [0] [1] [0] 2 ![1, 1]) :
    GatherDims ⟨2, ![R, C]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

variable {R C w : Nat} (wf : GatherDims.WF ⟨2, ![R, C]⟩ ⟨3, ![R, 1, 1]⟩ ⟨2, ![R, 1]⟩ [] [1] [0] [1] [0] 2 ![1, 1])
  (idx : IVec ⟨3, ![R, 1, 1]⟩ w) (r : Fin R)

/-- On the batching axis the operand index of result `(r, 0)` is the row `r`. -/
theorem rowDims_operand_row :
    ((rowDims R C wf).operandIdx (ix2 r (0 : Fin 1)) idx 0).val = r.val := by
  show (rowDims R C wf).start (ix2 r (0 : Fin 1)) idx 0 + (rowDims R C wf).batchCoord (ix2 r (0 : Fin 1)) 0
    + (rowDims R C wf).offCoord (ix2 r (0 : Fin 1)) 0 = r.val
  rw [GatherDims.start_batching _ _ _ _ (List.mem_singleton.mpr rfl),
    GatherDims.offCoord_eq_zero _ _ _ (fun h => ((GatherDims.mem_sKept _ _).mp h).2 (List.mem_singleton.mpr rfl))]
  simp only [Nat.zero_add, Nat.add_zero]
  unfold GatherDims.batchCoord
  rw [dif_pos (show (0 : Fin 2) ∈ (rowDims R C wf).operandBatchingDims from List.mem_singleton.mpr rfl)]
  rfl

/-- On the indexed axis it is the start index `idx[r, 0, 0]`, read signed and clamped to the columns. -/
theorem rowDims_operand_col :
    ((rowDims R C wf).operandIdx (ix2 r (0 : Fin 1)) idx 1).val
      = min (idx (ix3 r (0 : Fin 1) (0 : Fin 1))).toInt.toNat (C - 1) := by
  show (rowDims R C wf).start (ix2 r (0 : Fin 1)) idx 1 + (rowDims R C wf).batchCoord (ix2 r (0 : Fin 1)) 1
    + (rowDims R C wf).offCoord (ix2 r (0 : Fin 1)) 1 = _
  rw [GatherDims.batchCoord_eq_zero _ _ _ (fun h => absurd (List.mem_singleton.mp h) (by decide : ¬ ((1 : Fin 2) = 0))),
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (rowDims R C wf).startIndexMap from List.mem_singleton.mpr rfl)]
  have hsi : (rowDims R C wf).siIdx (ix2 r (0 : Fin 1)) ⟨List.idxOf (1 : Fin 2) (rowDims R C wf).startIndexMap,
      List.idxOf_lt_length_iff.2 (List.mem_singleton.mpr rfl)⟩ = ix3 r (0 : Fin 1) (0 : Fin 1) := by
    funext b; refine Fin.ext ?_
    match b with
    | ⟨0, _⟩ => rfl
    | ⟨1, _⟩ => rfl
    | ⟨2, _⟩ => rfl
  rw [hsi]
  rfl

/-- THE GATHER READ AT `(r, 0)`: row `r` of the operand at the column the start index names. -/
theorem gather_row_apply (x : (⟨2, ![R, C]⟩ : Shape).Idx → α) (c : Fin C)
    (hc : min (idx (ix3 r (0 : Fin 1) (0 : Fin 1))).toInt.toNat (C - 1) = c.val) :
    Host.gather (rowDims R C wf) x idx (ix2 r (0 : Fin 1)) = x (ix2 r c) := by
  unfold Host.gather
  exact congrArg x (funext fun a => Fin.ext (by
    match a with
    | ⟨0, _⟩ => exact rowDims_operand_row wf idx r
    | ⟨1, _⟩ => exact (rowDims_operand_col wf idx r).trans hc))

end RowGather

/-! ## Read's composed index functions at explicit coordinates -/

section Indices

theorem idx_v1 (r : Fin 8192) (k : Fin 1024) : idx_main_v1 (ix1 r) k = ix2 r k :=
  funext fun a => Fin.ext (by match a with | ⟨0, _⟩ => rfl | ⟨1, _⟩ => rfl)
theorem idx_v2 (r : Fin 8192) (u : Fin 1) : idx_main_v2 (ix2 r u) = ix1 r :=
  funext fun a => Fin.ext (by match a with | ⟨0, _⟩ => rfl)
theorem idx_v6 (r : Fin 8192) (k : Fin 1024) : idx_main_v6 (ix2 r k) = ix2 r (0 : Fin 1) :=
  funext fun a => Fin.ext (by match a with | ⟨0, _⟩ => rfl | ⟨1, _⟩ => rfl)
theorem idx_v9 (j : Fin 10240) (k : Fin 1024) : idx_main_v9 (ix1 j) k = ix2 j k :=
  funext fun a => Fin.ext (by match a with | ⟨0, _⟩ => rfl | ⟨1, _⟩ => rfl)
theorem idx_v10 (j : Fin 10240) (u : Fin 1) : idx_main_v10 (ix2 j u) = ix1 j :=
  funext fun a => Fin.ext (by match a with | ⟨0, _⟩ => rfl)
theorem idx_v14 (j : Fin 10240) (k : Fin 1024) : idx_main_v14 (ix2 j k) = ix2 j (0 : Fin 1) :=
  funext fun a => Fin.ext (by match a with | ⟨0, _⟩ => rfl | ⟨1, _⟩ => rfl)
theorem idx_v16 (k : Fin 1024) (j : Fin 10240) : idx_main_v16 (ix2 k j) = ix2 j k :=
  funext fun a => Fin.ext (by match a with | ⟨0, _⟩ => rfl | ⟨1, _⟩ => rfl)
theorem lidx_v17 (r : Fin 8192) (j : Fin 10240) (k : Fin 1024) : lidx_main_v17 (ix2 r j) k = ix2 r k :=
  funext fun a => Fin.ext (by match a with | ⟨0, _⟩ => rfl | ⟨1, _⟩ => rfl)
theorem ridx_v17 (r : Fin 8192) (j : Fin 10240) (k : Fin 1024) : ridx_main_v17 (ix2 r j) k = ix2 k j :=
  funext fun a => Fin.ext (by match a with | ⟨0, _⟩ => rfl | ⟨1, _⟩ => rfl)
theorem idx_v23 (r : Fin 8192) (u : Fin 1) : idx_main_v23 (ix2 r u) = ix1 r :=
  funext fun a => Fin.ext (by match a with | ⟨0, _⟩ => rfl)
theorem idx_c2v5 (r : Fin 8192) : idx_main_call2_v5 (ix3 r (0 : Fin 1) (0 : Fin 1)) = ix2 r (0 : Fin 1) :=
  funext fun a => Fin.ext (by
    match a with
    | ⟨0, _⟩ => show ((r.val * 1 + 0) * 1 + 0) / 1 = r.val; omega
    | ⟨1, _⟩ => rfl)
theorem idx_v25 (r : Fin 8192) : idx_main_v25 (ix1 r) = ix2 r (0 : Fin 1) :=
  funext fun a => Fin.ext (by
    match a with
    | ⟨0, _⟩ => show r.val / 1 = r.val; omega
    | ⟨1, _⟩ => rfl)
theorem idx_v32 (r : Fin 8192) (j : Fin 10240) : idx_main_v32 (ix1 r) j = ix2 r j :=
  funext fun a => Fin.ext (by match a with | ⟨0, _⟩ => rfl | ⟨1, _⟩ => rfl)

/-- An index of the start-indices array `[8192, 1, 1]` is its row with two zero coordinates. -/
theorem idx3_unit (i : (⟨3, ![8192, 1, 1]⟩ : Shape).Idx) : i = ix3 (i 0) (0 : Fin 1) (0 : Fin 1) := by
  funext a
  match a with
  | ⟨0, _⟩ => rfl
  | ⟨1, h1⟩ => exact Fin.ext (by have h : (i ⟨1, h1⟩).val < 1 := (i ⟨1, h1⟩).isLt; show (i ⟨1, h1⟩).val = 0; omega)
  | ⟨2, h2⟩ => exact Fin.ext (by have h : (i ⟨2, h2⟩).val < 1 := (i ⟨2, h2⟩).isLt; show (i ⟨2, h2⟩).val = 0; omega)

end Indices

/-! ## The normalised rows -/

section Rows
variable (x0 : (⟨S8192x1024, .f32⟩ : BufTy).Contents (Elt Ideal)) (x2 : (⟨S10240x1024, .f32⟩ : BufTy).Contents (Elt Ideal))

/-- The reference's sum over row `r` of `x`, started at the zero word, is the row's sum of squares. -/
theorem ssq_x (r : Fin 8192) : val_main_v1 (F := Ideal) x0 (ix1 r) = Cert.Spec.ssq x0 r := by
  rw [val_main_v1_apply, val_main_cst_apply]
  have hs : (∑ k : Fin 1024, val_main_v0 (F := Ideal) x0 (idx_main_v1 (ix1 r) k)) = Cert.Spec.ssq x0 r :=
    Finset.sum_congr rfl fun k _ => by rw [idx_v1]; exact val_main_v0_apply x0 _
  rw [hs]
  show Ideal.ofBits .f32 0x00000000#32 + _ = _
  rw [Ideal.ofBits_zero_f32, zero_add]

/-- Row `r` of `x` divided by its clamped norm. -/
theorem nrm_x (r : Fin 8192) (k : Fin 1024) : val_main_v7 (F := Ideal) x0 (ix2 r k) = Cert.Spec.nrm x0 r k := by
  rw [val_main_v7_apply, val_main_v6_apply, idx_v6, val_main_v5_apply, val_main_v3_apply, val_main_v2_apply, idx_v2, ssq_x,
    val_main_v4_apply, val_main_cst_0_apply]
  rfl

/-- The same sum over row `j` of `w`. -/
theorem ssq_w (j : Fin 10240) : val_main_v9 (F := Ideal) x2 (ix1 j) = Cert.Spec.ssq x2 j := by
  rw [val_main_v9_apply, val_main_cst_1_apply]
  have hs : (∑ k : Fin 1024, val_main_v8 (F := Ideal) x2 (idx_main_v9 (ix1 j) k)) = Cert.Spec.ssq x2 j :=
    Finset.sum_congr rfl fun k _ => by rw [idx_v9]; exact val_main_v8_apply x2 _
  rw [hs]
  show Ideal.ofBits .f32 0x00000000#32 + _ = _
  rw [Ideal.ofBits_zero_f32, zero_add]

/-- Row `j` of `w` divided by its clamped norm. -/
theorem nrm_w (j : Fin 10240) (k : Fin 1024) : val_main_v15 (F := Ideal) x2 (ix2 j k) = Cert.Spec.nrm x2 j k := by
  rw [val_main_v15_apply, val_main_v14_apply, idx_v14, val_main_v13_apply, val_main_v11_apply, val_main_v10_apply, idx_v10, ssq_w,
    val_main_v12_apply, val_main_cst_2_apply]
  rfl

/-- One product of the contraction: entry `k` of the two normalised rows. -/
theorem dot_term (r : Fin 8192) (j : Fin 10240) (k : Fin 1024) :
    val_main_v7 (F := Ideal) x0 (lidx_main_v17 (ix2 r j) k) * val_main_v16 (F := Ideal) x2 (ridx_main_v17 (ix2 r j) k)
      = Cert.Spec.nrm x0 r k * Cert.Spec.nrm x2 j k := by
  rw [lidx_v17, ridx_v17, val_main_v16_apply, idx_v16, nrm_x, nrm_w]

/-- The clamped cosine of row `r` of `x` and row `j` of `w`. -/
theorem cos_eq (r : Fin 8192) (j : Fin 10240) : val_main_v18 (F := Ideal) x0 x2 (ix2 r j) = Cert.Spec.cosv x0 x2 r j := by
  rw [val_main_v18_apply, val_main_call0_v4_apply, val_main_call0_v3_apply, val_main_cst_4_apply, val_main_call0_v2_apply,
    val_main_call0_v1_apply, val_main_call0_v0_apply, val_main_cst_3_apply, val_main_v17_apply]
  have hs : (∑ k : Fin 1024, val_main_v7 (F := Ideal) x0 (lidx_main_v17 (ix2 r j) k) * val_main_v16 (F := Ideal) x2 (ridx_main_v17 (ix2 r j) k))
      = ∑ k : Fin 1024, Cert.Spec.nrm x0 r k * Cert.Spec.nrm x2 j k :=
    Finset.sum_congr rfl fun k _ => dot_term x0 x2 r j k
  rw [hs]
  rfl

/-- The row's sum of exponentials over all columns. -/
theorem expsum_eq (r : Fin 8192) :
    val_main_v32 (F := Ideal) x0 x2 (ix1 r) = ∑ j : Fin 10240, Ideal.exp (Cert.Spec.c30 * Cert.Spec.cosv x0 x2 r j) := by
  rw [val_main_v32_apply, val_main_cst_9_apply]
  have hs : (∑ k : Fin 10240, val_main_v31 (F := Ideal) x0 x2 (idx_main_v32 (ix1 r) k))
      = ∑ j : Fin 10240, Ideal.exp (Cert.Spec.c30 * Cert.Spec.cosv x0 x2 r j) :=
    Finset.sum_congr rfl fun k _ => by
      rw [idx_v32, val_main_v31_apply, val_main_v30_apply, val_main_v29_apply, val_main_cst_8_apply, cos_eq]; rfl
  rw [hs]
  show Ideal.ofBits .f32 0x00000000#32 + _ = _
  rw [Ideal.ofBits_zero_f32, zero_add]

end Rows

/-! ## The labels: margin, start index, range mask -/

section Labels
variable (x1 : (⟨S8192, .i32⟩ : BufTy).Contents (Elt Ideal))

/-- The margin of row `r`. -/
theorem margin_eq (r : Fin 8192) : val_main_v22 (F := Ideal) x1 (ix1 r) = Cert.Spec.margin (x1 (ix1 r)) := by
  rw [val_main_v22_apply, val_main_v21_apply, val_main_v20_apply, val_main_v19_apply, val_main_c_apply, val_main_call1_v0_apply,
    val_main_cst_5_apply, val_main_call1_v1_apply, val_main_cst_6_apply]
  exact select_sle _ _ _ _

variable (hlab : ∀ r : Fin 8192, (x1 (ix1 r)).toNat < 10240)
include hlab

/-- A label in range is not negative, so the wrapped start index of row `r` is the label itself. -/
theorem start_eq (r : Fin 8192) : val_main_call2_v5 (F := Ideal) x1 (ix3 r (0 : Fin 1) (0 : Fin 1)) = x1 (ix1 r) := by
  rw [val_main_call2_v5_apply, idx_c2v5, val_main_call2_v4_apply, val_main_call2_v1_apply, val_main_v23_apply, idx_v23,
    val_main_call2_v0_apply, val_main_call2_c_apply, slt_zero_of_lt (hlab r), select_zero]

/-- The range test `0 ≤ index ≤ 10239` holds at every row. -/
theorem inrange_at (r : Fin 8192) : val_main_call2_v11 (F := Ideal) x1 (ix3 r (0 : Fin 1) (0 : Fin 1)) = 1#1 := by
  rw [val_main_call2_v11_apply, val_main_call2_v7_apply, val_main_call2_v10_apply, start_eq x1 hlab r, val_main_call2_v6_apply,
    val_main_call2_c_2_apply, val_main_call2_v9_apply, val_main_call2_v8_apply, val_main_call2_c_1_apply,
    sge_zero_of_lt (hlab r), sle_last_of_lt (hlab r)]
  decide

theorem inrange (i : S8192x1x1.Idx) : val_main_call2_v11 (F := Ideal) x1 i = 1#1 := by
  rw [idx3_unit i]
  exact inrange_at x1 hlab (i 0)

/-- The `and` over the index vector's one component, from the bit 1, is 1: the gathered entry is selected everywhere. -/
theorem mask_eq (j : S8192x1.Idx) : val_main_call2_v12 (F := Ideal) x1 j = 1#1 := by
  unfold val_main_call2_v12
  exact reduce_andi_of_all _ _ _ _ j (val_main_call2_c_3_apply _) (inrange x1 hlab)

end Labels

/-! ## The target, the row term, the mean -/

section Loss
variable (x0 : (⟨S8192x1024, .f32⟩ : BufTy).Contents (Elt Ideal)) (x1 : (⟨S8192, .i32⟩ : BufTy).Contents (Elt Ideal))
  (x2 : (⟨S10240x1024, .f32⟩ : BufTy).Contents (Elt Ideal)) (hlab : ∀ r : Fin 8192, (x1 (ix1 r)).toNat < 10240)

/-- The gather reads row `r` of the cosine table at the label's column. -/
theorem gather_eq (r : Fin 8192) :
    val_main_call2_v13 (F := Ideal) x0 x1 x2 (ix2 r (0 : Fin 1))
      = val_main_v18 (F := Ideal) x0 x2 (ix2 r (Cert.Spec.col (x1 (ix1 r)) (hlab r))) := by
  unfold val_main_call2_v13
  show Host.gather (rowDims 8192 10240 gather_S8192x10240_S8192x1x1_S8192x1_n_1_0_0_1_2_11.wf) _ _ _ = _
  exact gather_row_apply _ _ r _ _ (by rw [start_eq x1 hlab r]; exact clamp_of_lt (hlab r))

/-- The target of row `r`: the cosine at the label's column. -/
theorem target_eq (r : Fin 8192) :
    val_main_v25 (F := Ideal) x0 x1 x2 (ix1 r) = Cert.Spec.cosv x0 x2 r (Cert.Spec.col (x1 (ix1 r)) (hlab r)) := by
  rw [val_main_v25_apply, idx_v25, val_main_v24_apply, mask_eq x1 hlab, select_one, gather_eq x0 x1 x2 hlab r, cos_eq]

/-- Row `r`'s loss term. -/
theorem term_eq (r : Fin 8192) :
    val_main_v40 (F := Ideal) x0 x1 x2 (ix1 r)
      = Cert.Spec.term x0 x2 r (Cert.Spec.col (x1 (ix1 r)) (hlab r)) (x1 (ix1 r)) := by
  rw [val_main_v40_apply, val_main_v39_apply, val_main_v38_apply, val_main_v37_apply, val_main_v36_apply, val_main_v35_apply,
    val_main_v34_apply, val_main_v33_apply, val_main_cst_10_apply, val_main_v28_apply, val_main_v27_apply, val_main_cst_7_apply,
    val_main_v26_apply, target_eq x0 x1 x2 hlab r, margin_eq, expsum_eq]
  rfl

end Loss

/-- The last stage of the reference's run is the specification, labels in range. -/
theorem ref_eq [Cert.ReferenceIdeal.Facts] (x0 : (⟨S8192x1024, .f32⟩ : BufTy).Contents (Elt Ideal)) (x1 : (⟨S8192, .i32⟩ : BufTy).Contents (Elt Ideal))
    (x2 : (⟨S10240x1024, .f32⟩ : BufTy).Contents (Elt Ideal)) (hlab : ∀ r : Fin 8192, (x1 (ix1 r)).toNat < 10240) :
    val_main_v43 (F := Ideal) x0 x1 x2 = fun _ => Cert.Spec.loss x0 x1 x2 hlab := by
  funext i
  rw [val_main_v43_apply, val_main_v42_apply, val_main_v41_apply, val_main_cst_11_apply, val_main_cst_12_apply]
  have hs : (∑ j : S8192.Idx, val_main_v40 (F := Ideal) x0 x1 x2 j)
      = ∑ r : Fin 8192, Cert.Spec.term x0 x2 r (Cert.Spec.col (x1 (ix1 r)) (hlab r)) (x1 (ix1 r)) := by
    rw [← Equiv.sum_comp (idxEquiv1 (n := 8192)).symm]
    exact Finset.sum_congr rfl fun r _ => term_eq x0 x1 x2 hlab r
  rw [hs]
  rfl

end Cert.RefVal

end
-- ==== Proof.Val.Pre.lean ====
/-
  What the precondition says, decoded: every entry of the two float arrays is a real number, and every label word, read
  unsigned, is below 10240 (it is at least 0 and below 10240 as a signed word).

  The precondition is a conjunction of three "for all entries" tests, each a reduction by `and` of a mask to one bit:
  |x| < +∞ on every entry of x, |w| < +∞ on every entry of w, and 0 ≤ l < 10240 (signed) on every label l. A reduction by
  `and` that comes out 1 saw a 1 at every entry, so the three tests hold entry by entry; what is left is the meaning of one
  entry's test. For a float entry a: max a (−a) < ⊤ in the extended reals rules out a = ⊤ (the maximum is ⊤) and a = ⊥
  (−⊥ = ⊤, the maximum is ⊤ again), so a is a real. For a label l: a signed word that is ≥ 0 has its top bit clear, so its
  signed and unsigned readings agree, and the signed bound l < 10240 is the unsigned bound.
-/
import proofs.«411399_j4853313045243_3_alg».proof.Pre_finite_inputs
import Idealize.ShloMosaic.Lib.ReduceAll
import Idealize.ShloMosaic.Lib.StableHlo.Predicate
import Idealize.ShloMosaic.Lib.ValueIdx
import Idealize.ShloMosaic.PureOps.Ideal

set_option maxRecDepth 16384

noncomputable section

open scoped BigOperators

namespace Cert.PreDec

open Idealize.ShloMosaic Idealize.ShloMosaic.TcCoe Idealize.ShloMosaic.ValueIdx Idealize.SL.Sem

/-- The scalar shape has one index: two of its indices are functions out of the empty set of axes. -/
instance : Subsingleton Cert.Pre_finite_inputs.S_.Idx := ⟨fun a b => funext fun d => d.elim0⟩

/-- One float entry's test. The pattern 0x7F800000 denotes ⊤; an extended real whose absolute value max a (−a) lies
    strictly below ⊤ is neither ⊤ nor ⊥, hence a real number. -/
theorem real_of_abs_lt_inf (a : Ideal .f32)
    (h : FloatOps.cmpf .olt (FloatOps.hostAbsf a) (FloatOps.ofBits (F := Ideal) .f32 0x7F800000#32) = 1#1) :
    ∃ v : ℝ, a = (v : EReal) := by
  have htop : Ideal.ofBits .f32 0x7F800000#32 = ⊤ := by simp [Ideal.ofBits, Ideal.ieee]
  have h' : Ideal.cmp .olt (max (a : EReal) (-(a : EReal))) (Ideal.ofBits .f32 0x7F800000#32) = 1#1 := h
  rw [htop] at h'
  unfold Ideal.cmp at h'
  have hlt : max (a : EReal) (-(a : EReal)) < ⊤ := by
    have := (StableHlo.Predicate.ofBool_eq_one_iff _).1 h'
    exact of_decide_eq_true this
  induction a using EReal.rec with
  | bot => exact absurd hlt (by simp)
  | coe r => exact ⟨r, rfl⟩
  | top => exact absurd hlt (by simp)

/-- One label's test. From 0 ≤ l (signed) the word's top bit is clear, so its signed value is its unsigned value; the
    signed bound l < 10240 then bounds the unsigned value. -/
theorem toNat_lt_of_signed_range (l : BitVec 32) (h0 : IntOp.cmpi .sge l 0#32 = 1#1)
    (h1 : IntOp.cmpi .slt l 10240#32 = 1#1) : l.toNat < 10240 := by
  have z : (0#32 : BitVec 32).toInt = 0 := by decide
  have t : (10240#32 : BitVec 32).toInt = 10240 := by decide
  have hl := BitVec.toInt_eq_toNat_cond l
  have hb := l.isLt
  simp only [IntOp.cmpi, StableHlo.Predicate.ofBool_eq_one_iff, BitVec.sle, BitVec.slt, decide_eq_true_eq, z, t] at h0 h1
  split at hl <;> omega

theorem decode [Cert.Pre_finite_inputs.Facts] (x : FVec Ideal Cert.Pre_finite_inputs.S8192x1024 .f32)
    (lab : IVec Cert.Pre_finite_inputs.S8192 32) (w : FVec Ideal Cert.Pre_finite_inputs.S10240x1024 .f32)
    (h : Cert.Pre_finite_inputs.fn (F := Ideal) x lab w = fun _ => 1#1) :
    (∀ j, ∃ v : ℝ, x j = (v : EReal)) ∧ (∀ j, ∃ v : ℝ, w j = (v : EReal))
      ∧ ∀ r : Fin 8192, (lab (ix1 r)).toNat < 10240 := by
  -- the one bit of the result, with the chain of operations laid open
  have h0 := congrFun h ValueIdx.ix0
  dsimp only [Cert.Pre_finite_inputs.fn] at h0
  -- (all-x ∧ all-w) ∧ all-labels, each a bit
  obtain ⟨hxw, hl⟩ := IntOp.andi_eq_one.1 h0
  obtain ⟨hx, hw⟩ := IntOp.andi_eq_one.1 hxw
  refine ⟨fun j => ?_, fun j => ?_, fun r => ?_⟩
  · -- the mask of x at j is 1; the mask at j is the test of the entry x j against the broadcast +∞
    exact real_of_abs_lt_inf (x j) (Host.reduce_andi_all _ _ _ _ _ hx j)
  · exact real_of_abs_lt_inf (w j) (Host.reduce_andi_all _ _ _ _ _ hw j)
  · -- the labels' mask at r is the `and` of the two compares of lab r against the broadcast 0 and 10240
    obtain ⟨hge, hlt⟩ := IntOp.andi_eq_one.1 (Host.reduce_andi_all _ _ _ _ _ hl (ix1 r))
    exact toNat_lt_of_signed_range (lab (ix1 r)) hge hlt

end Cert.PreDec

end
-- ==== Proof.lean ====
/-
  The certificate's five claims.

  The kernel computes an additive-margin softmax loss in three launches: two row-normalisations (each row of the inputs
  and of the class weights times the reciprocal square root of its squared norm, clamped at ε²) and a tiled product of the
  normalised tables clamped to [-1, 1], over whose column blocks two columns are carried — the sum of exp (30 · cos) and
  the cosine at the label's column — and at a row block's last column block the row's loss term is stored; the host takes
  minus the mean. The reference divides each row by its norm clamped at ε, multiplies the tables whole, gathers the
  label's column and forms the same term. The kernel's clamp constant is named the exact square of the reference's, so on
  finite inputs x · rsqrt (max s ε²) = x / max (√s) ε; a sum taken block by block is the whole sum; and for a label in range
  the blockwise selection picks exactly the gathered entry. Hence both programs end at `Cert.Spec.loss` of the arguments.

  Each program's frame: the two kernel programs run through the pipeline library's several-launch theorem (the modules
  under K/ and KI/), the reference through its list of host operations.
-/
import proofs.«411399_j4853313045243_3_alg».proof.Defs
import proofs.«411399_j4853313045243_3_alg».proof.Proof.Gen.Kernel
import proofs.«411399_j4853313045243_3_alg».proof.Proof.Gen.KernelIdeal
import proofs.«411399_j4853313045243_3_alg».proof.Proof.Gen.ReferenceIdeal
import proofs.«411399_j4853313045243_3_alg».proof.Proof.Gen.Pre_finite_inputs
import proofs.«411399_j4853313045243_3_alg».proof.Proof.K.Run
import proofs.«411399_j4853313045243_3_alg».proof.Proof.KI.Run
import proofs.«411399_j4853313045243_3_alg».proof.Proof.RefReadP
import proofs.«411399_j4853313045243_3_alg».proof.Proof.Val.Kernel
import proofs.«411399_j4853313045243_3_alg».proof.Proof.Val.Ref
import proofs.«411399_j4853313045243_3_alg».proof.Proof.Val.Pre
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel (hKernel := Cert.Kernel.Gen.facts) (hPre_finite_inputs := Cert.Pre_finite_inputs.Gen.facts) :=
  fun m ρ _ => Cert.Kernel.Fr.frame (F := Bits) m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Fr.frame (F := Ideal) m ρ

/-- The reference is a list of host operations: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The one rewrite of the idealization, at its two sites: the clamp's word denotes the square of the reference's clamp,
    as the certificate's table says. -/
theorem preserves : Cert.preserves_Kernel_KernelIdeal :=
  ⟨IdealRules.named_const.statement Cert.KernelIdeal.κ "eps_sq" .f32 0x179ABE15#32
      ((5316911940649 / 5316911983139663491615228241121378304 : ℝ) : EReal) rfl,
   IdealRules.named_const.statement Cert.KernelIdeal.κ "eps_sq" .f32 0x179ABE15#32
      ((5316911940649 / 5316911983139663491615228241121378304 : ℝ) : EReal) rfl⟩

/-- Both idealized programs end at the specification of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hdec := fun c : Dev Cert.KernelIdeal.nD => Cert.PreDec.decode _ _ _ (hpre c)
  refine ⟨fun c => fun _ => Cert.Spec.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (hdec c).2.2, ?_, ?_⟩
  · refine (θ_run Cert.KernelIdeal.defs _ _).mono (fun r h c => ⟨?_, ?_, ?_, ?_⟩) (Cert.KernelIdeal.Fr.run_main (F := Ideal) m ρ)
    · exact (h c _ (Cert.KernelIdeal.Fr.mem_uc Cert.KernelIdeal.main_v7 (by decide))).trans
        (Cert.KernelIdeal.Val.kernel_value m c (hdec c).1 (hdec c).2.1 (hdec c).2.2)
    · exact (h c _ (Cert.KernelIdeal.Fr.mem_uc Cert.KernelIdeal.main_arg0 (by decide))).trans (Cert.KernelIdeal.Fr.W5_main_arg0 m c)
    · exact (h c _ (Cert.KernelIdeal.Fr.mem_uc Cert.KernelIdeal.main_arg1 (by decide))).trans (Cert.KernelIdeal.Fr.W5_main_arg1 m c)
    · exact (h c _ (Cert.KernelIdeal.Fr.mem_uc Cert.KernelIdeal.main_arg2 (by decide))).trans (Cert.KernelIdeal.Fr.W5_main_arg2 m c)
  · refine (θ_run Cert.ReferenceIdeal.defs _ _).mono (fun r h c => ⟨?_, (h c).2⟩) (Cert.ReferenceIdeal.ValueP.run (F := Ideal) m' ρ')
    rw [(h c).1, Cert.ReferenceIdeal.ReadP.val_main_v43_eq, (hagree c).1, (hagree c).2.1, (hagree c).2.2]
    exact Cert.RefVal.ref_eq _ _ _ (hdec c).2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
